-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1x2048 : Shape := ⟨2, ![1, 2048]⟩
abbrev S1x3072 : Shape := ⟨2, ![1, 3072]⟩
abbrev S1536x1024 : Shape := ⟨2, ![1536, 1024]⟩
abbrev S1x1536 : Shape := ⟨2, ![1, 1536]⟩
abbrev S1x50257 : Shape := ⟨2, ![1, 50257]⟩

abbrev nBuf : Space → Nat
  | .hbm => 67
  | .vmem => 29
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x1024, .f32⟩
  | .hbm, ⟨26, _⟩ => ⟨S1x1024, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S1x3072, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x50257, .f32⟩
  | .hbm, ⟨65, _⟩ => ⟨S1x50257, .f32⟩
  | .hbm, ⟨66, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1536x1024, .f32⟩
  | .local _ .vmem, ⟨11, _⟩ => ⟨S1536x1024, .f32⟩
  | .local _ .vmem, ⟨12, _⟩ => ⟨S1536x1024, .f32⟩
  | .local _ .vmem, ⟨13, _⟩ => ⟨S1536x1024, .f32⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S1x1536, .f32⟩
  | .local _ .vmem, ⟨19, _⟩ => ⟨S1x1536, .f32⟩
  | .local _ .vmem, ⟨20, _⟩ => ⟨S1x1536, .f32⟩
  | .local _ .vmem, ⟨21, _⟩ => ⟨S1x1536, .f32⟩
  | .local _ .vmem, ⟨22, _⟩ => ⟨S1x1024, .f32⟩
  | .local _ .vmem, ⟨23, _⟩ => ⟨S3072x1024, .f32⟩
  | .local _ .vmem, ⟨24, _⟩ => ⟨S3072x1024, .f32⟩
  | .local _ .vmem, ⟨25, _⟩ => ⟨S1x3072, .f32⟩
  | .local _ .vmem, ⟨26, _⟩ => ⟨S1x3072, .f32⟩
  | .local _ .vmem, ⟨27, _⟩ => ⟨S1x3072, .f32⟩
  | .local _ .vmem, ⟨28, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1536x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1536x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3072x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3072 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3072 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S512_S1x512 : S512.ShapeCasts S1x512
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  concatenates_S1x1024_S1x1024_S1x2048_d1 : Shape.Concatenates [S1x1024, S1x1024] S1x2048 1
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S3072_S1x3072 : S3072.ShapeCasts S1x3072
  inb_S1536x1024_S1536x1024_0_0 : ∀ a, (![0, 0] : Fin 2 → Nat) a + S1536x1024.size a ≤ S1536x1024.size a
  h_S1536x1024 : 0 < S1536x1024.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  shapeCasts_S50257_S1x50257 : S50257.ShapeCasts S1x50257
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S1536x1024_S1x1536_1_1_0_0_n_n_wf : DotDims.WF S1x1024 S1536x1024 S1x1536 [1] [1] [0] [0] [] []
  dot_S1x1024_S3072x1024_S1x3072_1_1_0_0_n_n_wf : DotDims.WF S1x1024 S3072x1024 S1x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x1024.size a ≤ S3072x1024.size a
  hwx1_2 : ∀ i : grid1.Coords, EltTy.bits .f32 = 32 ∨ (Rect.block (s := S3072x1024) S1536x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1536x1024.size a ≤ S3072x1024.size a
  hwx1_3 : ∀ i : grid1.Coords, EltTy.bits .f32 = 32 ∨ (Rect.block (s := S3072x1024) S1536x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1536.size a ≤ S1x3072.size a
  hwx1_4 : ∀ i : grid1.Coords, EltTy.bits .f32 = 32 ∨ (Rect.block (s := S1x3072) S1x1536.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1536.size a ≤ S1x3072.size a
  hwx1_5 : ∀ i : grid1.Coords, EltTy.bits .f32 = 32 ∨ (Rect.block (s := S1x3072) S1x1536.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1536.size a ≤ S1x3072.size a
  hwx1_6 : ∀ i : grid1.Coords, EltTy.bits .f32 = 32 ∨ (Rect.block (s := S1x3072) S1x1536.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1536.size a ≤ S1x3072.size a
  hwx1_7 : ∀ i : grid1.Coords, EltTy.bits .f32 = 32 ∨ (Rect.block (s := S1x3072) S1x1536.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3072x1024.size a < S50257x1024.size a
  hwx2_1 : ∀ i : grid2.Coords, EltTy.bits .f32 = 32 ∨ (Rect.unit (s := S50257x1024) (fun a => cc2_transform_1 i a * S3072x1024.size a) (fun a => (Pipeline.Clip.of (cc2_transform_1 i a) (S3072x1024.size a) (S50257x1024.size a)).extent (S3072x1024.size a)) fun a => Pipeline.Clip.inb (Pipeline.Clip.ok_of (hstart2_1 i a))).WholeWords (EltTy.packing .f32)
  hwxs2_1 : ∀ i : grid2.Coords, EltTy.bits .f32 = 32 ∨ (Rect.unit (s := S3072x1024) (fun _ => 0) (fun a => (Pipeline.Clip.of (cc2_transform_1 i a) (S3072x1024.size a) (S50257x1024.size a)).extent (S3072x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3072.size a < S1x50257.size a
  hwx2_2 : ∀ i : grid2.Coords, EltTy.bits .f32 = 32 ∨ (Rect.unit (s := S1x50257) (fun a => cc2_transform_2 i a * S1x3072.size a) (fun a => (Pipeline.Clip.of (cc2_transform_2 i a) (S1x3072.size a) (S1x50257.size a)).extent (S1x3072.size a)) fun a => Pipeline.Clip.inb (Pipeline.Clip.ok_of (hstart2_2 i a))).WholeWords (EltTy.packing .f32)
  hwxs2_2 : ∀ i : grid2.Coords, EltTy.bits .f32 = 32 ∨ (Rect.unit (s := S1x3072) (fun _ => 0) (fun a => (Pipeline.Clip.of (cc2_transform_2 i a) (S1x3072.size a) (S1x50257.size a)).extent (S1x3072.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3072.size a < S1x50257.size a
  hwx2_3 : ∀ i : grid2.Coords, EltTy.bits .f32 = 32 ∨ (Rect.unit (s := S1x50257) (fun a => cc2_transform_3 i a * S1x3072.size a) (fun a => (Pipeline.Clip.of (cc2_transform_3 i a) (S1x3072.size a) (S1x50257.size a)).extent (S1x3072.size a)) fun a => Pipeline.Clip.inb (Pipeline.Clip.ok_of (hstart2_3 i a))).WholeWords (EltTy.packing .f32)
  hwxs2_3 : ∀ i : grid2.Coords, EltTy.bits .f32 = 32 ∨ (Rect.unit (s := S1x3072) (fun _ => 0) (fun a => (Pipeline.Clip.of (cc2_transform_3 i a) (S1x3072.size a) (S1x50257.size a)).extent (S1x3072.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1536x1024_S1x1536_1_1_0_0_n_n : DotDims S1x1024 S1536x1024 S1x1536 where
  lhsContracting := [1]
  rhsContracting := [1]
  lhsNonContracting := [0]
  rhsNonContracting := [0]
  lhsBatch := []
  rhsBatch := []
  wf := dot_S1x1024_S1536x1024_S1x1536_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1536x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1536x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1536.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x1536.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v13_0) S1x1536.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_1) S1x1536.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v41) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S3072x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v42) S1x3072.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v43) S1x3072.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 98
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
/-
  The attention-and-combine call (the first of the three kernel launches), at any contents `V` of the core's buffers
  when it is entered. Its grid has one point and every window's block is its whole array: the body loads the seven
  operands whole, computes the relu of the combined projection (the skeleton's payload `k0_pay1`), and stores it whole
  to the result's staging buffer. Stated here: each window's block, what the body leaves in the result's buffer, the
  body's triple, the launch's proof data and the body obligation the launch theorem asks for.
-/
import proofs.«425956_j33578054320464_3_alg».proof.Proof.Gen.Kernel.Launch
import proofs.«425956_j33578054320464_3_alg».proof.Proof.Gen.Kernel.Skeleton
import proofs.«425956_j33578054320464_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds its block at every point, for any proof data whose array is `V`'s and whose
    body leaves the block in place: the block is whole, never cut, and the window never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds its block at every point, for any proof data whose array is `V`'s and whose
    body leaves the block in place: the block is whole, never cut, and the window never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds its block at every point, for any proof data whose array is `V`'s and whose
    body leaves the block in place: the block is whole, never cut, and the window never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds its block at every point, for any proof data whose array is `V`'s and whose
    body leaves the block in place: the block is whole, never cut, and the window never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds its block at every point, for any proof data whose array is `V`'s and whose
    body leaves the block in place: the block is whole, never cut, and the window never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds its block at every point, for any proof data whose array is `V`'s and whose
    body leaves the block in place: the block is whole, never cut, and the window never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Operand window 6's staging buffer holds its block at every point, for any proof data whose array is `V`'s and whose
    body leaves the block in place: the block is whole, never cut, and the window never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's staging buffer -/

abbrev rA : Rect S1x1024 := Rect.unit (s := S1x1024) ![0, 0] S1x1024.size inb_S1x1024_S1x1024_0_0
abbrev rEnc : Rect S512x1024 := Rect.unit (s := S512x1024) ![0, 0] S512x1024.size inb_S512x1024_S512x1024_0_0
abbrev rAttnW : Rect S512x2048 := Rect.unit (s := S512x2048) ![0, 0] S512x2048.size inb_S512x2048_S512x2048_0_0
abbrev rAttnB : Rect S1x512 := Rect.unit (s := S1x512) ![0, 0] S1x512.size inb_S1x512_S1x512_0_0
abbrev rCombW : Rect S1024x2048 := Rect.unit (s := S1024x2048) ![0, 0] S1024x2048.size inb_S1024x2048_S1024x2048_0_0

/-- The result's staging buffer after the body, from the operands' blocks (embedding row, hidden state, encoder
    outputs, attention weights and bias, combine weights and bias): one whole store of the payload. -/
def out0_7 (x0 x1 : Vec F S1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨rA, k0_pay1 (View.ld x0 rA) (View.ld x1 rA) (View.ld x3 rAttnW) (View.ld x4 rAttnB) (View.ld x2 rEnc) (View.ld x5 rCombW) (View.ld x6 rA)⟩]

/-- The one store is of the whole buffer, so it covers it. -/
theorem cover0_7 (p0 : Vec F S1x1024 .f32) (y : S1x1024.Idx) :
    ∃ pc ∈ ([⟨rA, p0⟩] : List (View.Piece (Elt F) S1x1024 .f32)), y ∈ pc.1.set :=
  View.cover_of_tiled [⟨rA, p0⟩] S1x1024.size (by rfl) y

/-! ## The body's triple -/

set_option maxHeartbeats 4000000 in
/-- The body on whole staging memrefs, the operands' at contents `xW` and the result's at anything, runs to the
    continuation holding the operands' as they were and the result's at `out0_7` of them. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1024x2048 .f32) (harg6 : arg6.IsWhole)
    (arg7 : Memref sig .tc .vmem S1x1024 .f32) (harg7 : arg7.IsWhole) (arg8 : Memref sig .tc .vmem S1x1024 .f32) (harg8 : arg8.IsWhole)
    (x0 x1 : Vec F S1x1024 .f32) (x2 : Vec F S512x1024 .f32) (x3 : Vec F S512x2048 .f32) (x4 : Vec F S1x512 .f32)
    (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8) K := by
  simp only [cc0_attn_comb_kernel_eq_skeleton]; unfold cc0_attn_comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The launch's proof data -/

/-- The proof data of this launch on core `c`: the arrays as the call finds them; after the body each operand's
    buffer at its block and the result's at `out0_7` of the operands' blocks; the invariant is the rest of the core's
    scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the operands' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.K.Reg1.lean ====
/-
  The GRU-gates call (the second of the three kernel launches), at any contents `V` of the core's buffers when it is
  entered. Its grid has two points; point `j` takes rows `1536 j ‥ 1536 j + 1535` of each weight matrix and the same
  columns of each bias row, and writes those columns of the two gate rows: the input-side gates from the combined
  input, the hidden-side gates from the hidden state (the skeleton's payloads `k1_pay1`, `k1_pay2`). Stated here: each
  window's block, what the body leaves in the two results' buffers, the body's triple, the launch's proof data and
  the body obligation the launch theorem asks for.
-/
import proofs.«425956_j33578054320464_3_alg».proof.Proof.Gen.Kernel.Launch
import proofs.«425956_j33578054320464_3_alg».proof.Proof.Gen.Kernel.Skeleton
import proofs.«425956_j33578054320464_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's staging buffer holds its block at every point, fetched there or not (unfetched, its block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's staging buffer holds its block at every point, fetched there or not (unfetched, its block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's staging buffer holds its block at every point, fetched there or not (unfetched, its block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand window 4's staging buffer holds its block at every point, fetched there or not (unfetched, its block
    index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand window 5's staging buffer holds its block at every point, fetched there or not (unfetched, its block
    index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the results' staging buffers -/

abbrev rRow : Rect S1x1024 := Rect.unit (s := S1x1024) ![0, 0] S1x1024.size inb_S1x1024_S1x1024_0_0
abbrev rWt : Rect S1536x1024 := Rect.unit (s := S1536x1024) ![0, 0] S1536x1024.size inb_S1536x1024_S1536x1024_0_0
abbrev rGate : Rect S1x1536 := Rect.unit (s := S1x1536) ![0, 0] S1x1536.size inb_S1x1536_S1x1536_0_0

/-- The input-side gates' staging buffer after the body: one whole store of the first payload. -/
def out1_6 (x0 : Vec F S1x1024 .f32) (x2 : Vec F S1536x1024 .f32) (x4 : Vec F S1x1536 .f32) : Vec F S1x1536 .f32 :=
  View.canon [⟨rGate, k1_pay1 (View.ld x0 rRow) (View.ld x2 rWt) (View.ld x4 rGate)⟩]
/-- The hidden-side gates' staging buffer after the body: one whole store of the second payload. -/
def out1_7 (x1 : Vec F S1x1024 .f32) (x3 : Vec F S1536x1024 .f32) (x5 : Vec F S1x1536 .f32) : Vec F S1x1536 .f32 :=
  View.canon [⟨rGate, k1_pay2 (View.ld x1 rRow) (View.ld x3 rWt) (View.ld x5 rGate)⟩]

/-- A whole store covers the buffer. -/
theorem cover1 (p0 : Vec F S1x1536 .f32) (y : S1x1536.Idx) :
    ∃ pc ∈ ([⟨rGate, p0⟩] : List (View.Piece (Elt F) S1x1536 .f32)), y ∈ pc.1.set :=
  View.cover_of_tiled [⟨rGate, p0⟩] S1x1536.size (by rfl) y

/-! ## The body's triple -/

set_option maxHeartbeats 4000000 in
/-- The body on whole staging memrefs, the operands' at contents `xW` and the results' at anything, runs to the
    continuation holding the operands' as they were and the results' at `out1_6`, `out1_7` of them. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole) (arg3 : Memref sig .tc .vmem S1536x1024 .f32) (harg3 : arg3.IsWhole) (arg4 : Memref sig .tc .vmem S1536x1024 .f32) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S1x1536 .f32) (harg8 : arg8.IsWhole)
    (x0 : Vec F S1x1024 .f32) (x1 : Vec F S1x1024 .f32) (x2 : Vec F S1536x1024 .f32) (x3 : Vec F S1536x1024 .f32) (x4 : Vec F S1x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E (cc1_gru_gates_kernel i arg1 harg1 arg2 harg2 arg3 harg3 arg4 harg4 arg5 harg5 arg6 harg6 arg7 harg7 arg8 harg8) K := by
  simp only [cc1_gru_gates_kernel_eq_skeleton]; unfold cc1_gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The launch's proof data -/

/-- The proof data of this launch on core `c`: the arrays as the call finds them; after the body each operand's
    buffer at its block and the two results' at `out1_6`, `out1_7` of the operands' blocks; the invariant is the rest of
    the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 4 t) := by dsimp only [dat1]
theorem after1_7 (c : Dev nD) (t : Fin cfg1.N) : (dat1 V c).after 7 t = out1_7 (iblk1 V c 1 t) (iblk1 V c 3 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the operands' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.K.Reg2.lean ====
/-
  The output-projection call (the third of the three kernel launches), at any contents `V` of the core's buffers when
  it is entered. Its grid has seventeen points; point `j` takes rows `3072 j ‥ 3072 j + 3071` of the projection matrix
  and the same columns of the bias row and writes those columns of the logits row. The vocabulary has 50257 entries,
  16 · 3072 + 1105, so the last point's blocks overhang their arrays: the fetch brings the 1105 rows (columns) there
  are, the rest of the staging buffer holds words nothing names, and the write-back moves only the 1105 columns inside
  the logits row. Stated here, for any float instance: each window's block, what a fetch leaves in the staging
  buffers, what the body leaves in the result's buffer as a function of the three staging buffers' whole contents
  (the skeleton's payload `k2_pay1`), the body's triple and the launch's proof data.
-/
import proofs.«425956_j33578054320464_3_alg».proof.Proof.Gen.Kernel.Launch
import proofs.«425956_j33578054320464_3_alg».proof.Proof.Gen.Kernel.Skeleton
import proofs.«425956_j33578054320464_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, its part inside the array, read off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-state window's staging buffer holds its block at every point, fetched there or not (its block index
    never moves), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result's staging buffer -/

abbrev rHid : Rect S1x1024 := Rect.unit (s := S1x1024) ![0, 0] S1x1024.size inb_S1x1024_S1x1024_0_0
abbrev rProj : Rect S3072x1024 := Rect.unit (s := S3072x1024) ![0, 0] S3072x1024.size inb_S3072x1024_S3072x1024_0_0
abbrev rLog : Rect S1x3072 := Rect.unit (s := S1x3072) ![0, 0] S1x3072.size inb_S1x3072_S1x3072_0_0

/-- The logits' staging buffer after the body, from the WHOLE contents of the three operand buffers (the hidden
    state, the projection rows, the bias columns): one whole store of the payload. -/
def out2_3 (x0 : Vec F S1x1024 .f32) (x1 : Vec F S3072x1024 .f32) (x2 : Vec F S1x3072 .f32) : Vec F S1x3072 .f32 :=
  View.canon [⟨rLog, k2_pay1 (View.ld x0 rHid) (View.ld x1 rProj) (View.ld x2 rLog)⟩]

/-- A whole store covers the buffer. -/
theorem cover2 (p0 : Vec F S1x3072 .f32) (y : S1x3072.Idx) :
    ∃ pc ∈ ([⟨rLog, p0⟩] : List (View.Piece (Elt F) S1x3072 .f32)), y ∈ pc.1.set :=
  View.cover_of_tiled [⟨rLog, p0⟩] S1x3072.size (by rfl) y

/-! ## The body's triple -/

set_option maxHeartbeats 4000000 in
/-- The body on whole staging memrefs, the operands' at contents `xW` and the result's at anything, runs to the
    continuation holding the operands' as they were and the result's at `out2_3` of them. -/
theorem sound_kernel2 (c : Dev nD) (E : Set ℕ) (i : grid2.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_out_proj_kernel i arg1 harg1 arg2 harg2 arg3 harg3 arg4 harg4) K := by
  simp only [cc2_out_proj_kernel_eq_skeleton]; unfold cc2_out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The launch's proof data -/

/-- The word that fills out a staging buffer past its array's end in the proof data (nothing reads it). -/
abbrev zfill (s : Shape) : s.Idx → Elt F .f32 := fun _ => Scalar.ofBits .f32 0#32

/-- The projection rows' staging buffer as the proof data names it: the block's part inside the array, zero past it. -/
def wbuf (c : Dev nD) (t : Fin cfg2.N) : S3072x1024.Idx → Elt F .f32 :=
  win2_1.fill (grid2.coords t) (zfill S3072x1024) (iblk2 V c 1 t)
/-- The bias columns' likewise. -/
def bbuf (c : Dev nD) (t : Fin cfg2.N) : S1x3072.Idx → Elt F .f32 :=
  win2_2.fill (grid2.coords t) (zfill S1x3072) (iblk2 V c 2 t)

/-- The proof data of this launch on core `c`: the arrays as the call finds them; after the body the hidden state's
    buffer at its block, the projection rows' and bias columns' at their blocks filled out with zero, the logits' at
    the payload of those three; the invariant is the rest of the core's scoped memory and its generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wbuf V c t
    | ⟨2, _⟩ => bbuf V c t
    | ⟨3, _⟩ => out2_3 (iblk2 V c 0 t) (wbuf V c t) (bbuf V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wbuf V c t := by dsimp only [dat2]
theorem after2_2 (c : Dev nD) (t : Fin cfg2.N) : (dat2 V c).after 2 t = bbuf V c t := by dsimp only [dat2]
theorem after2_3 (c : Dev nD) (t : Fin cfg2.N) : (dat2 V c).after 3 t = out2_3 (iblk2 V c 0 t) (wbuf V c t) (bbuf V c t) := by dsimp only [dat2]

/-- The hidden state's buffer holds its block at every point. -/
theorem before2_0 (c : Dev nD) (t : Fin cfg2.N) (d) : (dat2 V c).before 0 t d = iblk2 V c 0 t :=
  before2_0_of V (dat2 V c) (A_eq2 V c 0) (after2_0 V c) t d
/-- The projection rows' buffer, fetched at every point, holds the block's part inside the array filled out with what
    the buffer held (`d`). -/
theorem before2_1 (c : Dev nD) (t : Fin cfg2.N) (d) :
    (dat2 V c).before 1 t d = win2_1.fill (grid2.coords t) d (iblk2 V c 1 t) := by
  unfold Dat.before; rw [if_pos (fetch2_1 t)]; rfl
/-- The bias columns' likewise. -/
theorem before2_2 (c : Dev nD) (t : Fin cfg2.N) (d) :
    (dat2 V c).before 2 t d = win2_2.fill (grid2.coords t) d (iblk2 V c 2 t) := by
  unfold Dat.before; rw [if_pos (fetch2_2 t)]; rfl

end Cert.Kernel.Rgn

end
-- ==== Proof.K.Bound.lean ====
/-
  The core's buffer contents at each boundary between the items of the program's entry function: the launch memory,
  then alternately a stretch of host operations applied and a kernel launch's arrays replaced by what its write-backs
  leave (the operands as entered, each result's blocks written in point order), every other buffer as it was. Seven
  items, eight boundaries. The three launches' proof data are each stated at the contents their launch is entered
  from.
-/
import proofs.«425956_j33578054320464_3_alg».proof.Proof.K.Reg0
import proofs.«425956_j33578054320464_3_alg».proof.Proof.K.Reg1
import proofs.«425956_j33578054320464_3_alg».proof.Proof.K.Reg2

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the first host stretch (the first launch's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second launch's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the third host stretch (the third launch's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third launch. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the last host stretch: what the program returns from. -/
abbrev W7 : Dev nD → Valuation τ sig (Elt F) := fun c => StableHlo.after hostOps3 (W6 m c)

/-- At each launch's exit every one of its arrays holds what the pipeline leaves, and every other buffer what it held
    at entry. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.Kernel.Rgn

end
-- ==== Proof.K.Chain.lean ====
/-
  The word-level program's frame: from any memory with zero counters every weakly fair execution of the entry
  function terminates, nothing faults, and the fourteen argument arrays end as launched. The entry function is
  seven items: four stretches of host operations and, between them, three kernel launches. The first two launches
  are followed through their exact proof data. The third is not: its last grid point's staging buffers for the
  projection rows and the bias columns overhang their arrays, and at the word level a column of the product is not
  known to depend only on its own row of the right operand, so what the body leaves in the logits' staging buffer
  is not a function of the point. The claim does not read the logits, so that window is forgotten: the body is
  handed its buffer at arbitrary contents and hands it back so, and after the launch the logits' array holds SOME
  contents. The one host operation that follows (a broadcast of the new hidden state) does not read them.
-/
import proofs.«425956_j33578054320464_3_alg».proof.Proof.K.Bound
import proofs.«425956_j33578054320464_3_alg».proof.Proof.Gen.Kernel.Regions
import Idealize.ShloMosaic.Lib.Pipeline.Dat
import Idealize.ShloMosaic.Lib.Pipeline.Cells
import Idealize.ShloMosaic.Lib.Pipeline.Regions
import Idealize.ShloMosaic.Lib.Pipeline.RegionsLoop
import Idealize.ShloMosaic.Lib.Pipeline.FrameSuffix
import Idealize.ShloMosaic.Lib.Pipeline.Frame

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The third launch's body, the logits' window forgotten -/

section Body2

variable (V : (c : Dev nD) → (b : Ref sig .tc) → Buf (Elt F) ((c : Thread nD τ).loc b))

/-- The windows of the third launch the frame forgets: the logits' (window 3) only. -/
abbrev fgt2 : Fin cfg2.W → Bool :=
  fun | 0 => false | 1 => false | 2 => false | 3 => true | ⟨_ + 4, h⟩ => absurd h (Nat.not_lt.2 (Nat.le_add_left _ _))

/-- The part of the projection rows' staging buffer inside the array, as the proof data names the buffer, is the
    block read off the array. -/
theorem cut_wbuf (c : Dev nD) (t : Fin cfg2.N) : win2_1.cut (grid2.coords t) (wbuf V c t) = iblk2 V c 1 t := by
  unfold wbuf; exact win2_1.cut_fill _ _ _
/-- The bias columns' likewise. -/
theorem cut_bbuf (c : Dev nD) (t : Fin cfg2.N) : win2_2.cut (grid2.coords t) (bbuf V c t) = iblk2 V c 2 t := by
  unfold bbuf; exact win2_2.cut_fill _ _ _

/-- What the body is called with at point `t`: the hidden state's buffer at its block, the projection rows' and the
    bias columns' at their blocks filled out past the array's end with whatever the buffers held, the logits' at
    anything. -/
def bodyPre2F (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- What it returns: the three operands' buffers as they were — stated, for the two that overhang, on the part inside
    the array —, the logits' at anything. -/
def bodyPost2F (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ X, owns (c : Thread nD τ) (st2_3 t) fullShare X))

set_option maxHeartbeats 2000000 in
/-- The body at any point, by its triple at the operand buffers' whole contents: the operands come back as they were,
    which on the part inside the array is the block read off the array; the logits' buffer comes back holding the
    payload of the three whole buffers, of which nothing is kept. -/
theorem sound_body2F (c : Dev nD) (t : Fin cfg2.N) :
    bodyPre2F V c t ⊢ wp frame (wpE (defs₀ (F := F)) Variants.none c none) Set.univ (bodyAt2 t) (fun _ => bodyPost2F V c t) := by
  unfold bodyPre2F bodyPost2F bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩, ⟨%X, H3⟩⟩
  iapply (sound_kernel2 c Set.univ _ _ _ _ _ _ _ _ _ (iblk2 V c 0 t) (win2_1.fill (grid2.coords t) d1 (iblk2 V c 1 t))
    (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st2_1 t) fullShare (win2_1.fill (grid2.coords t) d1 (win2_1.cut (grid2.coords t) (wbuf V c t)))
    rw [cut_wbuf]; try iexact H1
  isplitl [H2]
  · iexists d2
    change _ ⊢ owns (c : Thread nD τ) (st2_2 t) fullShare (win2_2.fill (grid2.coords t) d2 (win2_2.cut (grid2.coords t) (bbuf V c t)))
    rw [cut_bbuf]; try iexact H2
  iexists _; iexact H3

/-- The launch theorem's body obligation for the third launch with the logits' window forgotten, at every point. -/
theorem body_obligation2F (c : Dev nD) :
    BodyObligationLoose (dat2 (F := F) V c) (defs₀ (F := F)) Variants.none () Set.univ fgt2 := fun t => by
  rw [bigSep_W2, bigSep_W2]
  exact sound_body2F V c t

end Body2

/-! ## The buffers' contents along the run, and the proof data of the three launches

Up to the third launch's entry the contents are named: the launch memory, a host stretch applied, a launch's arrays
replaced by what its write-backs leave. After the third launch its arrays hold contents `A` of which only this is
known: each may be held after every write-back. For the three operands that says they are as entered. -/

variable (m : (ℓ : Loc nD τ sig) → Buf (Elt F) ℓ) (ρ : Dev nD → PrngReg)

/-- The three launches' exact proof data, each at the contents its launch is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

/-- The same read as constraints on the contents: the first two launches' saying exactly what the exact data say, the
    third's saying nothing of the logits' window. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt2

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)

/-- Core `c`'s buffers after the third launch, its arrays at contents `A`, every other buffer as entered. -/
abbrev Wl (c : Dev nD) (A : (w : Fin cfg2.W) → Buf (Elt F) ((spec2 w).arr.view.loc (c : Thread nD τ))) : Valuation τ sig (Elt F) :=
  Pipeline.withArrays spec2 c (W5 m c) A

/-- What is known of such contents: each array's may be held after every write-back of the third launch. -/
abbrev Adm2 (c : Dev nD) (A : (w : Fin cfg2.W) → Buf (Elt F) ((spec2 w).arr.view.loc (c : Thread nD τ))) : Prop :=
  ∀ w, (rdats m 2 c).ArrAt w cfg2.N (A w)

/-! ### No item changes an argument

A host stretch leaves every buffer it does not write; a launch leaves every buffer that is none of its arrays, and
every array that is an operand. -/

theorem W1_keep (c : Dev nD) (b : Ref sig .tc) (hb : b ∉ hostOps0_W) :
    W1 m c (Proc.devRef .tc b) = m ((c : Thread nD τ).loc b) :=
  StableHlo.after_of_writes_sub hostOps0 _ hostOps0_writes hb

theorem W2_keep (c : Dev nD) (b : Ref sig .tc) (h : ∀ w, Pipeline.arrRef spec0 w = b → (cfg0.win w).isOut = false) :
    W2 m c (Proc.devRef .tc b) = W1 m c (Proc.devRef .tc b) := by
  by_cases hb : ∃ w, Pipeline.arrRef spec0 w = b
  · obtain ⟨w, rfl⟩ := hb
    rw [W2_arr, (dat0 (V1 m) c).arrAt_in w (h w rfl), A_eq0]
  · exact W2_of_ne m c b fun w e => hb ⟨w, e⟩

theorem W3_keep (c : Dev nD) (b : Ref sig .tc) (hb : b ∉ hostOps1_W) :
    W3 m c (Proc.devRef .tc b) = W2 m c (Proc.devRef .tc b) :=
  StableHlo.after_of_writes_sub hostOps1 _ hostOps1_writes hb

theorem W4_keep (c : Dev nD) (b : Ref sig .tc) (h : ∀ w, Pipeline.arrRef spec1 w = b → (cfg1.win w).isOut = false) :
    W4 m c (Proc.devRef .tc b) = W3 m c (Proc.devRef .tc b) := by
  by_cases hb : ∃ w, Pipeline.arrRef spec1 w = b
  · obtain ⟨w, rfl⟩ := hb
    rw [W4_arr, (dat1 (V3 m) c).arrAt_in w (h w rfl), A_eq1]
  · exact W4_of_ne m c b fun w e => hb ⟨w, e⟩

theorem W5_keep (c : Dev nD) (b : Ref sig .tc) (hb : b ∉ hostOps2_W) :
    W5 m c (Proc.devRef .tc b) = W4 m c (Proc.devRef .tc b) :=
  StableHlo.after_of_writes_sub hostOps2 _ hostOps2_writes hb

theorem Wl_keep (c : Dev nD) (A : (w : Fin cfg2.W) → Buf (Elt F) ((spec2 w).arr.view.loc (c : Thread nD τ))) (hA : Adm2 m c A)
    (b : Ref sig .tc) (h : ∀ w, Pipeline.arrRef spec2 w = b → (cfg2.win w).isOut = false) :
    Wl m c A (Proc.devRef .tc b) = W5 m c (Proc.devRef .tc b) := by
  by_cases hb : ∃ w, Pipeline.arrRef spec2 w = b
  · obtain ⟨w, rfl⟩ := hb
    have hw := hA w
    rw [(rdats m 2 c).ArrAt_in w (h w rfl)] at hw
    exact (Pipeline.withArrays_arr spec2 launch2.win.arr_inj c (W5 m c) A w).trans (hw.trans rfl)
  · exact Pipeline.withArrays_of_ne spec2 c _ A b fun w e => hb ⟨w, e⟩

/-- A buffer no host stretch writes and no launch has for a result ends as launched. -/
theorem Wend_keep (c : Dev nD) (A : (w : Fin cfg2.W) → Buf (Elt F) ((spec2 w).arr.view.loc (c : Thread nD τ))) (hA : Adm2 m c A)
    (b : Ref sig .tc) (h0 : b ∉ hostOps0_W) (h1 : b ∉ hostOps1_W) (h2 : b ∉ hostOps2_W) (h3 : b ∉ hostOps3_W)
    (k0 : ∀ w, Pipeline.arrRef spec0 w = b → (cfg0.win w).isOut = false)
    (k1 : ∀ w, Pipeline.arrRef spec1 w = b → (cfg1.win w).isOut = false)
    (k2 : ∀ w, Pipeline.arrRef spec2 w = b → (cfg2.win w).isOut = false) :
    StableHlo.after hostOps3 (Wl m c A) (Proc.devRef .tc b) = m ((c : Thread nD τ).loc b) :=
  (StableHlo.after_of_writes_sub hostOps3 _ hostOps3_writes h3).trans <|
    (Wl_keep m c A hA b k2).trans <| (W5_keep m c b h2).trans <| (W4_keep m c b k1).trans <|
    (W3_keep m c b h1).trans <| (W2_keep m c b k0).trans (W1_keep m c b h0)

theorem Wend_arg0 (c : Dev nD) (A) (hA : Adm2 m c A) :
    StableHlo.after hostOps3 (Wl m c A) (Proc.devRef .tc main_arg0) = m ((c : Thread nD τ).loc main_arg0) :=
  Wend_keep m c A hA main_arg0 (by decide) (by decide) (by decide) (by decide) (by decide) (by decide) (by decide)
theorem Wend_arg1 (c : Dev nD) (A) (hA : Adm2 m c A) :
    StableHlo.after hostOps3 (Wl m c A) (Proc.devRef .tc main_arg1) = m ((c : Thread nD τ).loc main_arg1) :=
  Wend_keep m c A hA main_arg1 (by decide) (by decide) (by decide) (by decide) (by decide) (by decide) (by decide)
theorem Wend_arg2 (c : Dev nD) (A) (hA : Adm2 m c A) :
    StableHlo.after hostOps3 (Wl m c A) (Proc.devRef .tc main_arg2) = m ((c : Thread nD τ).loc main_arg2) :=
  Wend_keep m c A hA main_arg2 (by decide) (by decide) (by decide) (by decide) (by decide) (by decide) (by decide)
theorem Wend_arg3 (c : Dev nD) (A) (hA : Adm2 m c A) :
    StableHlo.after hostOps3 (Wl m c A) (Proc.devRef .tc main_arg3) = m ((c : Thread nD τ).loc main_arg3) :=
  Wend_keep m c A hA main_arg3 (by decide) (by decide) (by decide) (by decide) (by decide) (by decide) (by decide)
theorem Wend_arg4 (c : Dev nD) (A) (hA : Adm2 m c A) :
    StableHlo.after hostOps3 (Wl m c A) (Proc.devRef .tc main_arg4) = m ((c : Thread nD τ).loc main_arg4) :=
  Wend_keep m c A hA main_arg4 (by decide) (by decide) (by decide) (by decide) (by decide) (by decide) (by decide)
theorem Wend_arg5 (c : Dev nD) (A) (hA : Adm2 m c A) :
    StableHlo.after hostOps3 (Wl m c A) (Proc.devRef .tc main_arg5) = m ((c : Thread nD τ).loc main_arg5) :=
  Wend_keep m c A hA main_arg5 (by decide) (by decide) (by decide) (by decide) (by decide) (by decide) (by decide)
theorem Wend_arg6 (c : Dev nD) (A) (hA : Adm2 m c A) :
    StableHlo.after hostOps3 (Wl m c A) (Proc.devRef .tc main_arg6) = m ((c : Thread nD τ).loc main_arg6) :=
  Wend_keep m c A hA main_arg6 (by decide) (by decide) (by decide) (by decide) (by decide) (by decide) (by decide)
theorem Wend_arg7 (c : Dev nD) (A) (hA : Adm2 m c A) :
    StableHlo.after hostOps3 (Wl m c A) (Proc.devRef .tc main_arg7) = m ((c : Thread nD τ).loc main_arg7) :=
  Wend_keep m c A hA main_arg7 (by decide) (by decide) (by decide) (by decide) (by decide) (by decide) (by decide)
theorem Wend_arg8 (c : Dev nD) (A) (hA : Adm2 m c A) :
    StableHlo.after hostOps3 (Wl m c A) (Proc.devRef .tc main_arg8) = m ((c : Thread nD τ).loc main_arg8) :=
  Wend_keep m c A hA main_arg8 (by decide) (by decide) (by decide) (by decide) (by decide) (by decide) (by decide)
theorem Wend_arg9 (c : Dev nD) (A) (hA : Adm2 m c A) :
    StableHlo.after hostOps3 (Wl m c A) (Proc.devRef .tc main_arg9) = m ((c : Thread nD τ).loc main_arg9) :=
  Wend_keep m c A hA main_arg9 (by decide) (by decide) (by decide) (by decide) (by decide) (by decide) (by decide)
theorem Wend_arg10 (c : Dev nD) (A) (hA : Adm2 m c A) :
    StableHlo.after hostOps3 (Wl m c A) (Proc.devRef .tc main_arg10) = m ((c : Thread nD τ).loc main_arg10) :=
  Wend_keep m c A hA main_arg10 (by decide) (by decide) (by decide) (by decide) (by decide) (by decide) (by decide)
theorem Wend_arg11 (c : Dev nD) (A) (hA : Adm2 m c A) :
    StableHlo.after hostOps3 (Wl m c A) (Proc.devRef .tc main_arg11) = m ((c : Thread nD τ).loc main_arg11) :=
  Wend_keep m c A hA main_arg11 (by decide) (by decide) (by decide) (by decide) (by decide) (by decide) (by decide)
theorem Wend_arg12 (c : Dev nD) (A) (hA : Adm2 m c A) :
    StableHlo.after hostOps3 (Wl m c A) (Proc.devRef .tc main_arg12) = m ((c : Thread nD τ).loc main_arg12) :=
  Wend_keep m c A hA main_arg12 (by decide) (by decide) (by decide) (by decide) (by decide) (by decide) (by decide)
theorem Wend_arg13 (c : Dev nD) (A) (hA : Adm2 m c A) :
    StableHlo.after hostOps3 (Wl m c A) (Proc.devRef .tc main_arg13) = m ((c : Thread nD τ).loc main_arg13) :=
  Wend_keep m c A hA main_arg13 (by decide) (by decide) (by decide) (by decide) (by decide) (by decide) (by decide)

/-! ## The items as segments -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Launch 0 over the thread state: entered from every unscoped buffer at `W1`, left at `W2`. Its arrays are
    split out of the unscoped buffers and put back at what the write-backs leave, which the exact data name; the
    generator register passes through the invariant; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = (pdats m 0 c).arrays ((pdats m 0 c).arrAt · cfg0.N)
      from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at what the write-backs leave, which the exact data name; the
    generator register passes through the invariant; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose.toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    rw [show (rdats m 1 c).arraysAt (Pipeline.pin (pcfgs (F := F)) adm 1).N = (pdats m 1 c).arrays ((pdats m 1 c).arrAt · cfg1.N)
      from (dat1 (V3 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The third launch and the stretch after it -/

/-- The arrays at some contents each may hold, opened: contents `A`, each array's admissible, and the arrays at `A`. -/
theorem arraysAt_open {cfg : Cfg sig Λ₀} {c : Dev nD} (rd : RDat τ (Elt F) Unit ℕ (UR sig nD τ) ℕ cfg c) (n : Nat) :
    (rd.arraysAt n : sProp 𝕄) ⊢ iprop(∃ A, ⌜∀ w, rd.ArrAt w n (A w)⌝ ∗ rd.arrays A) := by
  unfold RDat.arraysAt RDat.arrays
  iintro Ha
  ihave Ha' := (BI.bigSep_exists_pi Finset.univ (fun w F => iprop(⌜rd.ArrAt w n F⌝
      ∗ (cfg.win w).arr.view.loc (c.tc : Thread nD τ) ↦[(cfg.win w).arr.view.set]{rd.share w} F))) $$ Ha
  icases Ha' with ⟨%A, Ha⟩
  ihave Ha2 := (BI.bigSep_pure_sep Finset.univ (fun w => rd.ArrAt w n (A w))
      (fun w => (cfg.win w).arr.view.loc (c.tc : Thread nD τ) ↦[(cfg.win w).arr.view.set]{rd.share w} A w)) $$ Ha
  icases Ha2 with ⟨%hA', Ha⟩
  iexists A; isplitr; · ipureintro; exact fun w => hA' w (Finset.mem_univ w)
  iexact Ha

/-- The thread state after the third launch: every unscoped buffer at `Wl` of SOME admissible contents of the launch's
    arrays, beside `R`. -/
abbrev T6 (c : Dev nD) : sProp 𝕄 :=
  iprop(∃ A, ⌜Adm2 m c A⌝ ∗ StableHlo.held (c : Thread nD τ) (Pipeline.ucRefs τ sig) (Wl m c A) ∗ R c)
/-- The one after the last host stretch. -/
abbrev T7 (c : Dev nD) : sProp 𝕄 :=
  iprop(∃ A, ⌜Adm2 m c A⌝ ∗ StableHlo.held (c : Thread nD τ) (Pipeline.ucRefs τ sig) (StableHlo.after hostOps3 (Wl m c A)) ∗ R c)

set_option backward.isDefEq.respectTransparency.types false in
/-- The third launch over the thread state: entered from every unscoped buffer at `W5`, left at `T6`. The body
    obligation is the one with the logits' window forgotten; at the exit the arrays come back at some admissible
    contents, which are put back among the unscoped buffers as they are. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2F (V5 m) c).toRForget
  hwaits := Pipeline.RDat.hwaits_of_owed_zero _ _ _ _ L lv 2 fun _ _ => rfl
  pre c := iprop(StableHlo.held (c : Thread nD τ) (Pipeline.ucRefs τ sig) (W5 m c) ∗ R c)
  post c := T6 m c
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : ∀ A : (w : Fin cfg2.W) → Buf (Elt F) ((spec2 w).arr.view.loc (c : Thread nD τ)),
        iprop((rdats m 2 c).arrays A ∗ Pipeline.unscopedRest (Ix := Unit) (Name := ℕ) (U := UR sig nD τ) (Lvl := ℕ) spec2 c (V5 m c))
          ⊢ (StableHlo.held (c : Thread nD τ) (Pipeline.ucRefs τ sig) (Wl m c A) : sProp 𝕄) := fun A => by
      have h := Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (V5 m c) (fun b => Wl m c A b) A
        (fun w => (Pipeline.withArrays_arr spec2 launch2.win.arr_inj c _ A w).symm)
        (fun b hb => Pipeline.withArrays_of_ne spec2 c _ A b fun w e => hb (Finset.mem_image.mpr ⟨w, Finset.mem_univ _, e⟩))
      rw [Pipeline.unscopedBufs_held] at h
      exact h
    iintro ⟨Ha, HO, HY, Hrest⟩
    ihave Ha' := (arraysAt_open (rdats m 2 c) cfg2.N) $$ Ha
    icases Ha' with ⟨%A, %hA, Ha⟩
    imodintro
    iexists A
    isplitr; · ipureintro; exact hA
    isplitl [Ha Hrest]
    · iapply (hjoin A); isplitl [Ha] <;> iassumption
    isplitl [HY]; · iexact HY
    unfold Pipeline.RDat.owesAt Pipeline.owesWithin
    icases HO with ⟨%W, -, HO⟩; iexists W; iexact HO

/-- The last host stretch from given contents `A` of the third launch's arrays on every core. -/
abbrev hseg3 (A : (c : Dev nD) → (w : Fin cfg2.W) → Buf (Elt F) ((spec2 w).arr.view.loc (c : Thread nD τ))) :
    Pipeline.HostSeg (Name := ℕ) (U := UR sig nD τ) (pcfgs (F := F)) defs₀ 𝒱₀ L lv :=
  hseg hostOps3 hostOps3_sub hostOps3_fresh (fun c => Wl m c (A c))

/-- The last host stretch from the thread state after the third launch: whatever the admissible contents of that
    launch's arrays, the stretch runs over them (it is the stretch from those contents, on this core). -/
def seg6 : Pipeline.HostSeg (Name := ℕ) (U := UR sig nD τ) (pcfgs (F := F)) defs₀ 𝒱₀ L lv where
  prog := StableHlo.seq hostOps3
  pre c := T6 m c
  post c := T7 m c
  run c {β} k K := by
    classical
    iintro ⟨Hk, Hbd, ⟨%A, %hA, Hh, HR⟩, Hla⟩
    let Af : (c' : Dev nD) → (w : Fin cfg2.W) → Buf (Elt F) ((spec2 w).arr.view.loc (c' : Thread nD τ)) :=
      Function.update (fun c' w => (dat2 (V5 m) c').arrAt w cfg2.N) c A
    have e : Af c = A := Function.update_self _ _ _
    have hrun := (hseg3 m Af).run c k K
    have hpre : (hseg3 m Af).pre c = iprop(StableHlo.held (c : Thread nD τ) (Pipeline.ucRefs τ sig) (Wl m c A) ∗ R c) := by
      show iprop(StableHlo.held (c : Thread nD τ) (Pipeline.ucRefs τ sig) (Wl m c (Af c)) ∗ R c) = _
      rw [e]
    have hpost : (hseg3 m Af).post c = iprop(StableHlo.held (c : Thread nD τ) (Pipeline.ucRefs τ sig) (StableHlo.after hostOps3 (Wl m c A)) ∗ R c) := by
      show iprop(StableHlo.held (c : Thread nD τ) (Pipeline.ucRefs τ sig) (StableHlo.after hostOps3 (Wl m c (Af c))) ∗ R c) = _
      rw [e]
    rw [hpre, hpost] at hrun
    iapply hrun
    isplitl [Hk]
    · iintro ⟨Hbd, Hh, HR⟩
      iapply Hk
      isplitl [Hbd]; · iexact Hbd
      iexists A
      isplitr; · ipureintro; exact hA
      isplitl [Hh]; · iexact Hh
      iexact HR
    isplitl [Hbd]; · iexact Hbd
    isplitl [Hh HR]
    · isplitl [Hh]; · iexact Hh
      iexact HR
    iexact Hla

/-! ## The entry function as segments, and the launch -/

/-- The entry function's seven items in order. -/
abbrev segsR : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (seg6 m) ]

/-- The entry function is the run of the segments. -/
theorem main_run (c : Dev nD) : main (F := F) c = Pipeline.RDat.Seg.run (segsR m) := (main_chain c).trans (by chain_rfl)

/-- The last thread state without the dues. -/
abbrev Tn (c : Dev nD) : sProp 𝕄 :=
  iprop(∃ A, ⌜Adm2 m c A⌝ ∗ StableHlo.held (c : Thread nD τ) (Pipeline.ucRefs τ sig) (StableHlo.after hostOps3 (Wl m c A)) ∗ ∃ r, prngReg c r)

theorem T7_Tn (c : Dev nD) : T7 m c ⊢ iprop(Tn m c ∗ ∃ W, owes (c : Thread nD τ) (0 : CellTallies nD τ sig Unit) W) := by
  iintro ⟨%A, %hA, Hh, Hp, HO⟩
  isplitl [Hh Hp]
  · iexists A
    isplitr; · ipureintro; exact hA
    isplitl [Hh]; · iexact Hh
    iexact Hp
  iexact HO

set_option backward.isDefEq.respectTransparency.types false in
/-- THE FRAME. From any memory with zero counters every weakly fair execution of the entry function on the cores
    terminates, nothing faulting, and every final memory has the fourteen argument arrays as launched: the several-
    launches theorem over the seven segments; the last thread state holds every unscoped buffer at the last stretch
    applied to the contents after the third launch, whatever that launch's arrays hold, and each argument's buffer
    there is the launch memory's (`Wend_keep`). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ 𝒱₀ L lv m ρ main (segsR m)
    (fun c Q => by rw [main_run m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl, fun c => T7_Tn m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A, Adm2 m c A ∧ ∀ b ∈ Pipeline.ucRefs τ sig, s.mem (((c : Thread nD τ)).1, b) = StableHlo.after hostOps3 (Wl m c A) b)
    (hfin := fun c s' => by
      iintro ⟨⟨%A, %hA, Hh, -⟩, HSI⟩
      unfold StableHlo.held
      ihave Hr := (pointsTo_read_all (Pipeline.ucRefs τ sig) (fun b => (((c : Thread nD τ)).1, b)) (StableHlo.after hostOps3 (Wl m c A)) s') $$ [Hh HSI]
      · isplitl [Hh] <;> iassumption
      icases Hr with ⟨%h, HSI⟩
      imodintro
      isplitr
      · ipureintro; exact ⟨A, hA, h⟩
      · iexact HSI)
    (hQ := fun s h c => by
      obtain ⟨A, hA, hs⟩ := h c
      exact ⟨(hs _ (mem_uc main_arg0 (by decide))).trans (Wend_arg0 m c A hA),
        (hs _ (mem_uc main_arg1 (by decide))).trans (Wend_arg1 m c A hA),
        (hs _ (mem_uc main_arg2 (by decide))).trans (Wend_arg2 m c A hA),
        (hs _ (mem_uc main_arg3 (by decide))).trans (Wend_arg3 m c A hA),
        (hs _ (mem_uc main_arg4 (by decide))).trans (Wend_arg4 m c A hA),
        (hs _ (mem_uc main_arg5 (by decide))).trans (Wend_arg5 m c A hA),
        (hs _ (mem_uc main_arg6 (by decide))).trans (Wend_arg6 m c A hA),
        (hs _ (mem_uc main_arg7 (by decide))).trans (Wend_arg7 m c A hA),
        (hs _ (mem_uc main_arg8 (by decide))).trans (Wend_arg8 m c A hA),
        (hs _ (mem_uc main_arg9 (by decide))).trans (Wend_arg9 m c A hA),
        (hs _ (mem_uc main_arg10 (by decide))).trans (Wend_arg10 m c A hA),
        (hs _ (mem_uc main_arg11 (by decide))).trans (Wend_arg11 m c A hA),
        (hs _ (mem_uc main_arg12 (by decide))).trans (Wend_arg12 m c A hA),
        (hs _ (mem_uc main_arg13 (by decide))).trans (Wend_arg13 m c A hA)⟩)

end Cert.Kernel.Rgn

end
-- ==== Proof.KI.Reg0.lean ====
/-
  The attention-and-combine call (the first of the three kernel launches), at any contents `V` of the core's buffers
  when it is entered. Its grid has one point and every window's block is its whole array: the body loads the seven
  operands whole, computes the relu of the combined projection (the skeleton's payload `k0_pay1`), and stores it whole
  to the result's staging buffer. Stated here: each window's block, what the body leaves in the result's buffer, the
  body's triple, the launch's proof data and the body obligation the launch theorem asks for.
-/
import proofs.«425956_j33578054320464_3_alg».proof.Proof.Gen.KernelIdeal.Launch
import proofs.«425956_j33578054320464_3_alg».proof.Proof.Gen.KernelIdeal.Skeleton
import proofs.«425956_j33578054320464_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds its block at every point, for any proof data whose array is `V`'s and whose
    body leaves the block in place: the block is whole, never cut, and the window never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds its block at every point, for any proof data whose array is `V`'s and whose
    body leaves the block in place: the block is whole, never cut, and the window never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds its block at every point, for any proof data whose array is `V`'s and whose
    body leaves the block in place: the block is whole, never cut, and the window never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds its block at every point, for any proof data whose array is `V`'s and whose
    body leaves the block in place: the block is whole, never cut, and the window never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds its block at every point, for any proof data whose array is `V`'s and whose
    body leaves the block in place: the block is whole, never cut, and the window never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds its block at every point, for any proof data whose array is `V`'s and whose
    body leaves the block in place: the block is whole, never cut, and the window never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Operand window 6's staging buffer holds its block at every point, for any proof data whose array is `V`'s and whose
    body leaves the block in place: the block is whole, never cut, and the window never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's staging buffer -/

abbrev rA : Rect S1x1024 := Rect.unit (s := S1x1024) ![0, 0] S1x1024.size inb_S1x1024_S1x1024_0_0
abbrev rEnc : Rect S512x1024 := Rect.unit (s := S512x1024) ![0, 0] S512x1024.size inb_S512x1024_S512x1024_0_0
abbrev rAttnW : Rect S512x2048 := Rect.unit (s := S512x2048) ![0, 0] S512x2048.size inb_S512x2048_S512x2048_0_0
abbrev rAttnB : Rect S1x512 := Rect.unit (s := S1x512) ![0, 0] S1x512.size inb_S1x512_S1x512_0_0
abbrev rCombW : Rect S1024x2048 := Rect.unit (s := S1024x2048) ![0, 0] S1024x2048.size inb_S1024x2048_S1024x2048_0_0

/-- The result's staging buffer after the body, from the operands' blocks (embedding row, hidden state, encoder
    outputs, attention weights and bias, combine weights and bias): one whole store of the payload. -/
def out0_7 (x0 x1 : Vec F S1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨rA, k0_pay1 (View.ld x0 rA) (View.ld x1 rA) (View.ld x3 rAttnW) (View.ld x4 rAttnB) (View.ld x2 rEnc) (View.ld x5 rCombW) (View.ld x6 rA)⟩]

/-- The one store is of the whole buffer, so it covers it. -/
theorem cover0_7 (p0 : Vec F S1x1024 .f32) (y : S1x1024.Idx) :
    ∃ pc ∈ ([⟨rA, p0⟩] : List (View.Piece (Elt F) S1x1024 .f32)), y ∈ pc.1.set :=
  View.cover_of_tiled [⟨rA, p0⟩] S1x1024.size (by rfl) y

/-! ## The body's triple -/

set_option maxHeartbeats 4000000 in
/-- The body on whole staging memrefs, the operands' at contents `xW` and the result's at anything, runs to the
    continuation holding the operands' as they were and the result's at `out0_7` of them. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1024x2048 .f32) (harg6 : arg6.IsWhole)
    (arg7 : Memref sig .tc .vmem S1x1024 .f32) (harg7 : arg7.IsWhole) (arg8 : Memref sig .tc .vmem S1x1024 .f32) (harg8 : arg8.IsWhole)
    (x0 x1 : Vec F S1x1024 .f32) (x2 : Vec F S512x1024 .f32) (x3 : Vec F S512x2048 .f32) (x4 : Vec F S1x512 .f32)
    (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8) K := by
  simp only [cc0_attn_comb_kernel_eq_skeleton]; unfold cc0_attn_comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The launch's proof data -/

/-- The proof data of this launch on core `c`: the arrays as the call finds them; after the body each operand's
    buffer at its block and the result's at `out0_7` of the operands' blocks; the invariant is the rest of the core's
    scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the operands' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KI.Reg1.lean ====
/-
  The GRU-gates call (the second of the three kernel launches), at any contents `V` of the core's buffers when it is
  entered. Its grid has two points; point `j` takes rows `1536 j ‥ 1536 j + 1535` of each weight matrix and the same
  columns of each bias row, and writes those columns of the two gate rows: the input-side gates from the combined
  input, the hidden-side gates from the hidden state (the skeleton's payloads `k1_pay1`, `k1_pay2`). Stated here: each
  window's block, what the body leaves in the two results' buffers, the body's triple, the launch's proof data and
  the body obligation the launch theorem asks for.
-/
import proofs.«425956_j33578054320464_3_alg».proof.Proof.Gen.KernelIdeal.Launch
import proofs.«425956_j33578054320464_3_alg».proof.Proof.Gen.KernelIdeal.Skeleton
import proofs.«425956_j33578054320464_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's staging buffer holds its block at every point, fetched there or not (unfetched, its block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's staging buffer holds its block at every point, fetched there or not (unfetched, its block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's staging buffer holds its block at every point, fetched there or not (unfetched, its block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand window 4's staging buffer holds its block at every point, fetched there or not (unfetched, its block
    index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand window 5's staging buffer holds its block at every point, fetched there or not (unfetched, its block
    index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the results' staging buffers -/

abbrev rRow : Rect S1x1024 := Rect.unit (s := S1x1024) ![0, 0] S1x1024.size inb_S1x1024_S1x1024_0_0
abbrev rWt : Rect S1536x1024 := Rect.unit (s := S1536x1024) ![0, 0] S1536x1024.size inb_S1536x1024_S1536x1024_0_0
abbrev rGate : Rect S1x1536 := Rect.unit (s := S1x1536) ![0, 0] S1x1536.size inb_S1x1536_S1x1536_0_0

/-- The input-side gates' staging buffer after the body: one whole store of the first payload. -/
def out1_6 (x0 : Vec F S1x1024 .f32) (x2 : Vec F S1536x1024 .f32) (x4 : Vec F S1x1536 .f32) : Vec F S1x1536 .f32 :=
  View.canon [⟨rGate, k1_pay1 (View.ld x0 rRow) (View.ld x2 rWt) (View.ld x4 rGate)⟩]
/-- The hidden-side gates' staging buffer after the body: one whole store of the second payload. -/
def out1_7 (x1 : Vec F S1x1024 .f32) (x3 : Vec F S1536x1024 .f32) (x5 : Vec F S1x1536 .f32) : Vec F S1x1536 .f32 :=
  View.canon [⟨rGate, k1_pay2 (View.ld x1 rRow) (View.ld x3 rWt) (View.ld x5 rGate)⟩]

/-- A whole store covers the buffer. -/
theorem cover1 (p0 : Vec F S1x1536 .f32) (y : S1x1536.Idx) :
    ∃ pc ∈ ([⟨rGate, p0⟩] : List (View.Piece (Elt F) S1x1536 .f32)), y ∈ pc.1.set :=
  View.cover_of_tiled [⟨rGate, p0⟩] S1x1536.size (by rfl) y

/-! ## The body's triple -/

set_option maxHeartbeats 4000000 in
/-- The body on whole staging memrefs, the operands' at contents `xW` and the results' at anything, runs to the
    continuation holding the operands' as they were and the results' at `out1_6`, `out1_7` of them. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole) (arg3 : Memref sig .tc .vmem S1536x1024 .f32) (harg3 : arg3.IsWhole) (arg4 : Memref sig .tc .vmem S1536x1024 .f32) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S1x1536 .f32) (harg8 : arg8.IsWhole)
    (x0 : Vec F S1x1024 .f32) (x1 : Vec F S1x1024 .f32) (x2 : Vec F S1536x1024 .f32) (x3 : Vec F S1536x1024 .f32) (x4 : Vec F S1x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E (cc1_gru_gates_kernel i arg1 harg1 arg2 harg2 arg3 harg3 arg4 harg4 arg5 harg5 arg6 harg6 arg7 harg7 arg8 harg8) K := by
  simp only [cc1_gru_gates_kernel_eq_skeleton]; unfold cc1_gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The launch's proof data -/

/-- The proof data of this launch on core `c`: the arrays as the call finds them; after the body each operand's
    buffer at its block and the two results' at `out1_6`, `out1_7` of the operands' blocks; the invariant is the rest of
    the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 4 t) := by dsimp only [dat1]
theorem after1_7 (c : Dev nD) (t : Fin cfg1.N) : (dat1 V c).after 7 t = out1_7 (iblk1 V c 1 t) (iblk1 V c 3 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the operands' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KI.Reg2.lean ====
/-
  The output-projection call (the third of the three kernel launches), at any contents `V` of the core's buffers when
  it is entered. Its grid has seventeen points; point `j` takes rows `3072 j ‥ 3072 j + 3071` of the projection matrix
  and the same columns of the bias row and writes those columns of the logits row. The vocabulary has 50257 entries,
  16 · 3072 + 1105, so the last point's blocks overhang their arrays: the fetch brings the 1105 rows (columns) there
  are, the rest of the staging buffer holds words nothing names, and the write-back moves only the 1105 columns inside
  the logits row. Stated here, for any float instance: each window's block, what a fetch leaves in the staging
  buffers, what the body leaves in the result's buffer as a function of the three staging buffers' whole contents
  (the skeleton's payload `k2_pay1`), the body's triple and the launch's proof data.
-/
import proofs.«425956_j33578054320464_3_alg».proof.Proof.Gen.KernelIdeal.Launch
import proofs.«425956_j33578054320464_3_alg».proof.Proof.Gen.KernelIdeal.Skeleton
import proofs.«425956_j33578054320464_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, its part inside the array, read off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-state window's staging buffer holds its block at every point, fetched there or not (its block index
    never moves), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result's staging buffer -/

abbrev rHid : Rect S1x1024 := Rect.unit (s := S1x1024) ![0, 0] S1x1024.size inb_S1x1024_S1x1024_0_0
abbrev rProj : Rect S3072x1024 := Rect.unit (s := S3072x1024) ![0, 0] S3072x1024.size inb_S3072x1024_S3072x1024_0_0
abbrev rLog : Rect S1x3072 := Rect.unit (s := S1x3072) ![0, 0] S1x3072.size inb_S1x3072_S1x3072_0_0

/-- The logits' staging buffer after the body, from the WHOLE contents of the three operand buffers (the hidden
    state, the projection rows, the bias columns): one whole store of the payload. -/
def out2_3 (x0 : Vec F S1x1024 .f32) (x1 : Vec F S3072x1024 .f32) (x2 : Vec F S1x3072 .f32) : Vec F S1x3072 .f32 :=
  View.canon [⟨rLog, k2_pay1 (View.ld x0 rHid) (View.ld x1 rProj) (View.ld x2 rLog)⟩]

/-- A whole store covers the buffer. -/
theorem cover2 (p0 : Vec F S1x3072 .f32) (y : S1x3072.Idx) :
    ∃ pc ∈ ([⟨rLog, p0⟩] : List (View.Piece (Elt F) S1x3072 .f32)), y ∈ pc.1.set :=
  View.cover_of_tiled [⟨rLog, p0⟩] S1x3072.size (by rfl) y

/-! ## The body's triple -/

set_option maxHeartbeats 4000000 in
/-- The body on whole staging memrefs, the operands' at contents `xW` and the result's at anything, runs to the
    continuation holding the operands' as they were and the result's at `out2_3` of them. -/
theorem sound_kernel2 (c : Dev nD) (E : Set ℕ) (i : grid2.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_out_proj_kernel i arg1 harg1 arg2 harg2 arg3 harg3 arg4 harg4) K := by
  simp only [cc2_out_proj_kernel_eq_skeleton]; unfold cc2_out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The launch's proof data -/

/-- The word that fills out a staging buffer past its array's end in the proof data (nothing reads it). -/
abbrev zfill (s : Shape) : s.Idx → Elt F .f32 := fun _ => Scalar.ofBits .f32 0#32

/-- The projection rows' staging buffer as the proof data names it: the block's part inside the array, zero past it. -/
def wbuf (c : Dev nD) (t : Fin cfg2.N) : S3072x1024.Idx → Elt F .f32 :=
  win2_1.fill (grid2.coords t) (zfill S3072x1024) (iblk2 V c 1 t)
/-- The bias columns' likewise. -/
def bbuf (c : Dev nD) (t : Fin cfg2.N) : S1x3072.Idx → Elt F .f32 :=
  win2_2.fill (grid2.coords t) (zfill S1x3072) (iblk2 V c 2 t)

/-- The proof data of this launch on core `c`: the arrays as the call finds them; after the body the hidden state's
    buffer at its block, the projection rows' and bias columns' at their blocks filled out with zero, the logits' at
    the payload of those three; the invariant is the rest of the core's scoped memory and its generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wbuf V c t
    | ⟨2, _⟩ => bbuf V c t
    | ⟨3, _⟩ => out2_3 (iblk2 V c 0 t) (wbuf V c t) (bbuf V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wbuf V c t := by dsimp only [dat2]
theorem after2_2 (c : Dev nD) (t : Fin cfg2.N) : (dat2 V c).after 2 t = bbuf V c t := by dsimp only [dat2]
theorem after2_3 (c : Dev nD) (t : Fin cfg2.N) : (dat2 V c).after 3 t = out2_3 (iblk2 V c 0 t) (wbuf V c t) (bbuf V c t) := by dsimp only [dat2]

/-- The hidden state's buffer holds its block at every point. -/
theorem before2_0 (c : Dev nD) (t : Fin cfg2.N) (d) : (dat2 V c).before 0 t d = iblk2 V c 0 t :=
  before2_0_of V (dat2 V c) (A_eq2 V c 0) (after2_0 V c) t d
/-- The projection rows' buffer, fetched at every point, holds the block's part inside the array filled out with what
    the buffer held (`d`). -/
theorem before2_1 (c : Dev nD) (t : Fin cfg2.N) (d) :
    (dat2 V c).before 1 t d = win2_1.fill (grid2.coords t) d (iblk2 V c 1 t) := by
  unfold Dat.before; rw [if_pos (fetch2_1 t)]; rfl
/-- The bias columns' likewise. -/
theorem before2_2 (c : Dev nD) (t : Fin cfg2.N) (d) :
    (dat2 V c).before 2 t d = win2_2.fill (grid2.coords t) d (iblk2 V c 2 t) := by
  unfold Dat.before; rw [if_pos (fetch2_2 t)]; rfl

end Cert.KernelIdeal.Rgn

end
-- ==== Proof.KI.Bound.lean ====
/-
  The core's buffer contents at each boundary between the items of the program's entry function: the launch memory,
  then alternately a stretch of host operations applied and a kernel launch's arrays replaced by what its write-backs
  leave (the operands as entered, each result's blocks written in point order), every other buffer as it was. Seven
  items, eight boundaries. The three launches' proof data are each stated at the contents their launch is entered
  from.
-/
import proofs.«425956_j33578054320464_3_alg».proof.Proof.KI.Reg0
import proofs.«425956_j33578054320464_3_alg».proof.Proof.KI.Reg1
import proofs.«425956_j33578054320464_3_alg».proof.Proof.KI.Reg2

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the first host stretch (the first launch's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second launch's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the third host stretch (the third launch's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third launch. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the last host stretch: what the program returns from. -/
abbrev W7 : Dev nD → Valuation τ sig (Elt F) := fun c => StableHlo.after hostOps3 (W6 m c)

/-- At each launch's exit every one of its arrays holds what the pipeline leaves, and every other buffer what it held
    at entry. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.KernelIdeal.Rgn

end
-- ==== Proof.KI.Chain.lean ====
/-
  The whole entry function, from the launch to the return. Its seven items, four stretches of host operations
  alternating with the three kernel launches, are chained through one thread state: every unscoped buffer of the core
  whole at the boundary's contents, the random-number register at some state, nothing owed. A host stretch moves the
  contents by its operations. A launch takes its windows' arrays out of the unscoped buffers, runs its pipeline on
  them, and puts them back at what the write-backs leave, every other buffer as it was. At the return every unscoped
  buffer holds the last boundary's contents; an argument's buffer there is read back through the boundaries to the
  launch memory, since no host operation writes an argument and a launch only reads the ones it is handed.
-/
import proofs.«425956_j33578054320464_3_alg».proof.Proof.KI.Bound
import proofs.«425956_j33578054320464_3_alg».proof.Proof.Gen.KernelIdeal.Regions
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.StableHlo.Run
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged

A host stretch changes only the buffers its operations write; a launch changes only its result windows' arrays. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h

/-- An operand window's array leaves the first launch as it entered: no write-back touches it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- The same of the second launch, -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
/-- and of the third. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))

/-! ## The arguments end as launched -/

/-- `main_arg0` ends as launched: no host operation writes it and it is no launch's array. -/
theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_of_ne m c main_arg0 (by decide)).trans <|
    (W1_of m c main_arg0 (by decide)).trans rfl

/-- `main_arg1` ends as launched: no host operation writes it and it is no launch's array. -/
theorem W7_main_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <|
    (W4_of_ne m c main_arg1 (by decide)).trans <| (W3_of m c main_arg1 (by decide)).trans <| (W2_of_ne m c main_arg1 (by decide)).trans <|
    (W1_of m c main_arg1 (by decide)).trans rfl

/-- `main_arg2` ends as launched: no host operation writes it, and the first launch only reads it (operand window 2). -/
theorem W7_main_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <|
    (W4_of_ne m c main_arg2 (by decide)).trans <| (W3_of m c main_arg2 (by decide)).trans <| (W2_in m c 2 rfl).trans <|
    (W1_of m c main_arg2 (by decide)).trans rfl

/-- `main_arg3` ends as launched: no host operation writes it and it is no launch's array. -/
theorem W7_main_arg3 (c : Dev nD) : W7 m c (Proc.devRef .tc main_arg3) = m ((c : Thread nD τ).loc main_arg3) :=
  (W7_of m c main_arg3 (by decide)).trans <| (W6_of_ne m c main_arg3 (by decide)).trans <| (W5_of m c main_arg3 (by decide)).trans <|
    (W4_of_ne m c main_arg3 (by decide)).trans <| (W3_of m c main_arg3 (by decide)).trans <| (W2_of_ne m c main_arg3 (by decide)).trans <|
    (W1_of m c main_arg3 (by decide)).trans rfl

/-- `main_arg4` ends as launched: no host operation writes it, and the first launch only reads it (operand window 3). -/
theorem W7_main_arg4 (c : Dev nD) : W7 m c (Proc.devRef .tc main_arg4) = m ((c : Thread nD τ).loc main_arg4) :=
  (W7_of m c main_arg4 (by decide)).trans <| (W6_of_ne m c main_arg4 (by decide)).trans <| (W5_of m c main_arg4 (by decide)).trans <|
    (W4_of_ne m c main_arg4 (by decide)).trans <| (W3_of m c main_arg4 (by decide)).trans <| (W2_in m c 3 rfl).trans <|
    (W1_of m c main_arg4 (by decide)).trans rfl

/-- `main_arg5` ends as launched: no host operation writes it and it is no launch's array. -/
theorem W7_main_arg5 (c : Dev nD) : W7 m c (Proc.devRef .tc main_arg5) = m ((c : Thread nD τ).loc main_arg5) :=
  (W7_of m c main_arg5 (by decide)).trans <| (W6_of_ne m c main_arg5 (by decide)).trans <| (W5_of m c main_arg5 (by decide)).trans <|
    (W4_of_ne m c main_arg5 (by decide)).trans <| (W3_of m c main_arg5 (by decide)).trans <| (W2_of_ne m c main_arg5 (by decide)).trans <|
    (W1_of m c main_arg5 (by decide)).trans rfl

/-- `main_arg6` ends as launched: no host operation writes it, and the first launch only reads it (operand window 5). -/
theorem W7_main_arg6 (c : Dev nD) : W7 m c (Proc.devRef .tc main_arg6) = m ((c : Thread nD τ).loc main_arg6) :=
  (W7_of m c main_arg6 (by decide)).trans <| (W6_of_ne m c main_arg6 (by decide)).trans <| (W5_of m c main_arg6 (by decide)).trans <|
    (W4_of_ne m c main_arg6 (by decide)).trans <| (W3_of m c main_arg6 (by decide)).trans <| (W2_in m c 5 rfl).trans <|
    (W1_of m c main_arg6 (by decide)).trans rfl

/-- `main_arg7` ends as launched: no host operation writes it and it is no launch's array. -/
theorem W7_main_arg7 (c : Dev nD) : W7 m c (Proc.devRef .tc main_arg7) = m ((c : Thread nD τ).loc main_arg7) :=
  (W7_of m c main_arg7 (by decide)).trans <| (W6_of_ne m c main_arg7 (by decide)).trans <| (W5_of m c main_arg7 (by decide)).trans <|
    (W4_of_ne m c main_arg7 (by decide)).trans <| (W3_of m c main_arg7 (by decide)).trans <| (W2_of_ne m c main_arg7 (by decide)).trans <|
    (W1_of m c main_arg7 (by decide)).trans rfl

/-- `main_arg8` ends as launched: no host operation writes it, and the second launch only reads it (operand window 2). -/
theorem W7_main_arg8 (c : Dev nD) : W7 m c (Proc.devRef .tc main_arg8) = m ((c : Thread nD τ).loc main_arg8) :=
  (W7_of m c main_arg8 (by decide)).trans <| (W6_of_ne m c main_arg8 (by decide)).trans <| (W5_of m c main_arg8 (by decide)).trans <|
    (W4_in m c 2 rfl).trans <| (W3_of m c main_arg8 (by decide)).trans <| (W2_of_ne m c main_arg8 (by decide)).trans <|
    (W1_of m c main_arg8 (by decide)).trans rfl

/-- `main_arg9` ends as launched: no host operation writes it, and the second launch only reads it (operand window 3). -/
theorem W7_main_arg9 (c : Dev nD) : W7 m c (Proc.devRef .tc main_arg9) = m ((c : Thread nD τ).loc main_arg9) :=
  (W7_of m c main_arg9 (by decide)).trans <| (W6_of_ne m c main_arg9 (by decide)).trans <| (W5_of m c main_arg9 (by decide)).trans <|
    (W4_in m c 3 rfl).trans <| (W3_of m c main_arg9 (by decide)).trans <| (W2_of_ne m c main_arg9 (by decide)).trans <|
    (W1_of m c main_arg9 (by decide)).trans rfl

/-- `main_arg10` ends as launched: no host operation writes it and it is no launch's array. -/
theorem W7_main_arg10 (c : Dev nD) : W7 m c (Proc.devRef .tc main_arg10) = m ((c : Thread nD τ).loc main_arg10) :=
  (W7_of m c main_arg10 (by decide)).trans <| (W6_of_ne m c main_arg10 (by decide)).trans <| (W5_of m c main_arg10 (by decide)).trans <|
    (W4_of_ne m c main_arg10 (by decide)).trans <| (W3_of m c main_arg10 (by decide)).trans <| (W2_of_ne m c main_arg10 (by decide)).trans <|
    (W1_of m c main_arg10 (by decide)).trans rfl

/-- `main_arg11` ends as launched: no host operation writes it and it is no launch's array. -/
theorem W7_main_arg11 (c : Dev nD) : W7 m c (Proc.devRef .tc main_arg11) = m ((c : Thread nD τ).loc main_arg11) :=
  (W7_of m c main_arg11 (by decide)).trans <| (W6_of_ne m c main_arg11 (by decide)).trans <| (W5_of m c main_arg11 (by decide)).trans <|
    (W4_of_ne m c main_arg11 (by decide)).trans <| (W3_of m c main_arg11 (by decide)).trans <| (W2_of_ne m c main_arg11 (by decide)).trans <|
    (W1_of m c main_arg11 (by decide)).trans rfl

/-- `main_arg12` ends as launched: no host operation writes it, and the third launch only reads it (operand window 1). -/
theorem W7_main_arg12 (c : Dev nD) : W7 m c (Proc.devRef .tc main_arg12) = m ((c : Thread nD τ).loc main_arg12) :=
  (W7_of m c main_arg12 (by decide)).trans <| (W6_in m c 1 rfl).trans <| (W5_of m c main_arg12 (by decide)).trans <|
    (W4_of_ne m c main_arg12 (by decide)).trans <| (W3_of m c main_arg12 (by decide)).trans <| (W2_of_ne m c main_arg12 (by decide)).trans <|
    (W1_of m c main_arg12 (by decide)).trans rfl

/-- `main_arg13` ends as launched: no host operation writes it and it is no launch's array. -/
theorem W7_main_arg13 (c : Dev nD) : W7 m c (Proc.devRef .tc main_arg13) = m ((c : Thread nD τ).loc main_arg13) :=
  (W7_of m c main_arg13 (by decide)).trans <| (W6_of_ne m c main_arg13 (by decide)).trans <| (W5_of m c main_arg13 (by decide)).trans <|
    (W4_of_ne m c main_arg13 (by decide)).trans <| (W3_of m c main_arg13 (by decide)).trans <| (W2_of_ne m c main_arg13 (by decide)).trans <|
    (W1_of m c main_arg13 (by decide)).trans rfl

/-! ## The proof data family and the thread state -/

/-- Every launch's proof data, each at the contents its launch is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its dues, at
    nothing. -/
abbrev R (c : Dev nD) : sProp 𝕄 := iprop((∃ r, prngReg c r) ∗ ∃ W, owes (c : Thread nD τ) (0 : CellTallies nD τ sig Unit) W)
/-- A host stretch as an item of the chain: over the unscoped references from the contents `W`, `R` riding along; it
    leaves those references at the contents the stretch's operations make of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the random-number
    register at some state. -/
abbrev Tₙ (c : Dev nD) : sProp 𝕄 := iprop(StableHlo.held (c : Thread nD τ) (Pipeline.ucRefs τ sig) (W7 m c) ∗ ∃ r, prngReg c r)

/-- The last host stretch leaves the last thread state beside the core owing nothing. -/
theorem last_state (c : Dev nD) :
    iprop(StableHlo.held (c : Thread nD τ) (Pipeline.ucRefs τ sig) (W7 m c)
        ∗ ((∃ r, prngReg c r) ∗ ∃ W, owes (c : Thread nD τ) (0 : CellTallies nD τ sig Unit) W))
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The launches as items of the chain -/

set_option backward.isDefEq.respectTransparency.types false in
/-- The first launch over the thread state: entered from every unscoped buffer at `W1`, left at `W2`. Its windows'
    arrays are split out of the unscoped buffers and put back at what the write-backs leave; the random-number register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch likewise: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch likewise: entered from every unscoped buffer at `W5`, left at `W6`. Its body obligation is the
    hypothesis `hb2`: the last point's blocks overhang their arrays, and what the body does with the words past the
    arrays' ends is argued where the float instance is fixed. -/
def reg2 (hb2 : ∀ c, BodyObligationLoose (dat2 (V5 m) c) (defs₀ (F := F)) Variants.none () Set.univ) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := hb2 c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as the chain, and its run -/

/-- The seven items in order: a host stretch from its boundary's contents, a launch, and so on to the last stretch. -/
abbrev segs (hb2 : ∀ c, BodyObligationLoose (dat2 (V5 m) c) (defs₀ (F := F)) Variants.none () Set.univ) :
    List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m hb2),
    .host (hseg hostOps3 hostOps3_sub hostOps3_fresh (W6 m)) ]
/-- The entry function is the run of the items: it is the sequence of their programs, and so is the items' run. -/
theorem main_run (hb2 : ∀ c, BodyObligationLoose (dat2 (V5 m) c) (defs₀ (F := F)) Variants.none () Set.univ) (c : Dev nD) :
     main (F := F) c = Pipeline.Seg.run (segs m hb2) := (main_chain c).trans (by chain_rfl)

set_option backward.isDefEq.respectTransparency.types false in
/-- From any memory with every counter at zero, every weakly fair execution of the entry function on the cores
    terminates, nothing faulting, and in every final state each unscoped buffer of each core holds the last boundary's
    contents `W7`. Each item is entered from the thread state the one before it left; the launch deals the first; the
    last is read against the final state buffer by buffer. -/
theorem run (hb2 : ∀ c, BodyObligationLoose (dat2 (V5 m) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Pipeline.θ_run_regions_kit (pcfgs (F := F)) adm (pdats m) () cellOf_inj emb₁ defs₀ 𝒱₀ L lv m ρ main (segs m hb2)
    (fun c Q => by rw [main_run m hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Rgn

end
-- ==== Proof.KI.Reg2Ob.lean ====
/-
  The output-projection call's body obligation at the ideal values (floats are extended reals), at the exact proof
  data `dat2`.

  At point `t` the body finds the hidden state's buffer at its block, and the projection rows' and bias columns'
  buffers just fetched: their blocks' parts inside the arrays, filled out past the arrays' ends with whatever the
  buffers held, words `d1`, `d2` nothing names. It leaves the logits' buffer at the payload of those three. The proof
  data names the same buffers filled out with zero instead. Three of the four windows state their buffers only on
  the part inside the array, so what is owed is that the payload's columns INSIDE the logits row are the same for
  either filling. That is locality of the product: on the extended reals column `j` of the payload is
      Σ_k h(0, k) · W(j, k) + b(0, j),
  which reads the projection rows' buffer on row `j` and the bias buffer at column `j` only; and the three windows
  cut alike — the logits' columns inside the array are exactly the rows of the projection block, and the columns of
  the bias block, that the fetch brought — so for such a `j` neither operand's value depends on the filling.
-/
import proofs.«425956_j33578054320464_3_alg».proof.Proof.KI.Reg2
import Idealize.ShloMosaic.PureOps.Ideal.Laws
import Idealize.ShloMosaic.Lib.Pipeline.Value
import Idealize.ShloMosaic.Lib.ValueIdx

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## How the three clipped windows cut their blocks -/

/-- At every point the projection rows' block is cut on its row axis exactly as the logits' block is on its column
    axis and not at all along a row; the bias block is one row, cut on its column axis as the logits' block is, which
    is one row too. -/
theorem clip_facts2 : ∀ t : Fin cfg2.N,
    win2_1.xsize (grid2.coords t) 0 = win2_3.xsize (grid2.coords t) 1 ∧ win2_1.xsize (grid2.coords t) 1 = 1024
    ∧ win2_2.xsize (grid2.coords t) 0 = 1 ∧ win2_2.xsize (grid2.coords t) 1 = win2_3.xsize (grid2.coords t) 1
    ∧ win2_3.xsize (grid2.coords t) 0 = 1 :=
  (by decide +kernel : ∀ t : Fin grid2.N, _)

/-! ## The payload at a column -/

/-- The product's right operand is read, for result column `j`, along its row `j`. -/
theorem rhs_row2 (j : S1x3072.Idx) (q : dot_S1x1024_S3072x1024_S1x3072_1_1_0_0_n_n.contr.Idx) :
    (dot_S1x1024_S3072x1024_S1x3072_1_1_0_0_n_n.rhsIdx j q 0).val = (j 1).val := by
  unfold DotDims.rhsIdx
  rw [dif_neg (show ¬(0 : Fin S3072x1024.rank) ∈ dot_S1x1024_S3072x1024_S1x3072_1_1_0_0_n_n.rhsBatch by decide),
    dif_pos (show (0 : Fin S3072x1024.rank) ∈ dot_S1x1024_S3072x1024_S1x3072_1_1_0_0_n_n.rhsNonContracting by decide)]
  rfl

/-- Column `j` of the logits' buffer after the body: the hidden state against row `j` of the projection rows' buffer,
    summed over the contraction index, plus column `j` of the bias buffer (on the extended reals the narrowing of the
    operands and the casts of a shape to itself change nothing, and the accumulator is zero). -/
theorem out2_3_apply (x0 : Vec Ideal S1x1024 .f32) (x1 : Vec Ideal S3072x1024 .f32) (x2 : Vec Ideal S1x3072 .f32) (j : S1x3072.Idx) :
    out2_3 (F := Ideal) x0 x1 x2 j
      = (∑ k : dot_S1x1024_S3072x1024_S1x3072_1_1_0_0_n_n.contr.Idx,
          x0 (dot_S1x1024_S3072x1024_S1x3072_1_1_0_0_n_n.lhsIdx j k) * x1 (dot_S1x1024_S3072x1024_S1x3072_1_1_0_0_n_n.rhsIdx j k)) + x2 j := by
  have hz : (![0, 0] : Fin 2 → Nat) = fun _ => 0 := funext fun a => by fin_cases a <;> rfl
  unfold out2_3
  rw [View.canon_unit_zero hz]
  simp only [View.ld_unit_zero (S := S1x1024) hz, View.ld_unit_zero (S := S3072x1024) hz, View.ld_unit_zero (S := S1x3072) hz]
  unfold k2_pay1
  simp only [shapeCast_self]
  rw [ValueIdx.addf_apply]
  exact congrArg (· + x2 j) (Ideal.matmul_constant_zero_apply dot_S1x1024_S3072x1024_S1x3072_1_1_0_0_n_n none
    (truncf .bf16 x0 bitsLt_bf16_f32) (truncf .bf16 x1 bitsLt_bf16_f32) j)

/-- Locality: column `j` of the logits' buffer reads the projection rows' buffer on its row `j` only and the bias
    buffer at column `j` only. -/
theorem out2_3_local (x0 : Vec Ideal S1x1024 .f32) (W W' : Vec Ideal S3072x1024 .f32) (b b' : Vec Ideal S1x3072 .f32) (j : S1x3072.Idx)
    (hW : ∀ i : S3072x1024.Idx, (i 0).val = (j 1).val → W i = W' i) (hb : b j = b' j) :
    out2_3 (F := Ideal) x0 W b j = out2_3 (F := Ideal) x0 W' b' j := by
  rw [out2_3_apply, out2_3_apply, hb]
  exact congrArg (· + b' j) (Finset.sum_congr rfl fun k _ => by rw [hW _ (rhs_row2 j k)])

/-- So the logits' columns inside the array at point `t` do not depend on what fills the operand buffers out past
    their arrays' ends: such a column's row of the projection rows' buffer, and its column of the bias buffer, were
    fetched. -/
theorem cut_out2_3 (t : Fin cfg2.N) (x0 : Vec Ideal S1x1024 .f32) (d1 d1' : S3072x1024.Idx → Elt Ideal .f32) (d2 d2' : S1x3072.Idx → Elt Ideal .f32)
    (w : (win2_1.xblock (grid2.coords t)).Idx → Elt Ideal .f32) (b : (win2_2.xblock (grid2.coords t)).Idx → Elt Ideal .f32) :
    win2_3.cut (grid2.coords t) (out2_3 (F := Ideal) x0 (win2_1.fill (grid2.coords t) d1 w) (win2_2.fill (grid2.coords t) d2 b))
      = win2_3.cut (grid2.coords t) (out2_3 (F := Ideal) x0 (win2_1.fill (grid2.coords t) d1' w) (win2_2.fill (grid2.coords t) d2' b)) := by
  funext y
  obtain ⟨h10, h11, h20, h21, h30⟩ := clip_facts2 t
  refine out2_3_local x0 _ _ _ _ (win2_3.xinj (grid2.coords t) y) (fun i hi => ?_) ?_
  · have hm : win2_1.moved (grid2.coords t) i = true := (win2_1.moved_iff _ _).mpr fun a => by
      match a with
      | ⟨0, _⟩ =>
        show (i 0).val < win2_1.xsize (grid2.coords t) 0
        rw [h10, hi]; exact (y 1).isLt
      | ⟨1, _⟩ =>
        show (i 1).val < win2_1.xsize (grid2.coords t) 1
        rw [h11]; exact (i 1).isLt
    unfold Window.fill; rw [dif_pos hm, dif_pos hm]
  · have hm : win2_2.moved (grid2.coords t) (win2_3.xinj (grid2.coords t) y) = true := (win2_2.moved_iff _ _).mpr fun a => by
      match a with
      | ⟨0, _⟩ =>
        show (y 0).val < win2_2.xsize (grid2.coords t) 0
        have hy : (y 0).val < win2_3.xsize (grid2.coords t) 0 := (y 0).isLt
        rw [h30] at hy; rw [h20]; exact hy
      | ⟨1, _⟩ =>
        show (y 1).val < win2_2.xsize (grid2.coords t) 1
        rw [h21]; exact (y 1).isLt
    unfold Window.fill; rw [dif_pos hm, dif_pos hm]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the hidden state's buffer as the proof data names it, each of the three clipped windows'
    as the proof data names it on the part inside the array. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ d, owns (c : Thread nD τ) (st2_3 t) fullShare (win2_3.fill (grid2.coords t) d (win2_3.cut (grid2.coords t) ((dat2 V c).after 3 t)))))

set_option maxHeartbeats 2000000 in
/-- The body at any point: the operands' buffers hold the hidden state's block and the two fetched blocks filled out
    with `d1`, `d2`, so the body's triple applies at those; the invariant and the core's dues pass through unread.
    Handed back: the hidden state's buffer as found; the two fetched buffers as found, which on the part inside the
    array are the proof data's; the logits' buffer at the payload of what was found, which on the columns inside the
    array is the proof data's payload (`cut_out2_3`). -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (win2_1.fill (grid2.coords t) d1 (iblk2 V c 1 t))
    (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win2_1.cut (grid2.coords t) (wbuf V c t) = iblk2 V c 1 t from win2_1.cut_fill _ _ _]
    iexact H1
  isplitl [H2]
  · iexists d2
    rw [show win2_2.cut (grid2.coords t) (bbuf V c t) = iblk2 V c 2 t from win2_2.cut_fill _ _ _]
    iexact H2
  · iexists out2_3 (iblk2 V c 0 t) (win2_1.fill (grid2.coords t) d1 (iblk2 V c 1 t)) (win2_2.fill (grid2.coords t) d2 (iblk2 V c 2 t))
    rw [show win2_3.cut (grid2.coords t) (out2_3 (iblk2 V c 0 t) (wbuf V c t) (bbuf V c t))
        = win2_3.cut (grid2.coords t) (out2_3 (iblk2 V c 0 t) (win2_1.fill (grid2.coords t) d1 (iblk2 V c 1 t)) (win2_2.fill (grid2.coords t) d2 (iblk2 V c 2 t)))
      from cut_out2_3 t _ _ _ _ _ _ _, Window.fill_cut]
    iexact H3

/-- The launch theorem's body obligation, at every point. -/
theorem body_obligation2 (c : Dev nD) :
    BodyObligationLoose (dat2 (F := Ideal) V c) (defs₀ (F := Ideal)) Variants.none () Set.univ := fun t => by
  rw [bigSep_W2, bigSep_W2]
  exact sound_body2 V c t

end Cert.KernelIdeal.Rgn

end
-- ==== Proof.KI.Claims.lean ====
/-
  The idealized kernel's run, read at the buffers the certificate's claims name. Every unscoped buffer of every core
  ends at the last boundary's contents; an argument's buffer there is its launch contents, so the arguments end
  unchanged, and the two results are named by what the last boundary holds at their buffers.
-/
import proofs.«425956_j33578054320464_3_alg».proof.Defs
import proofs.«425956_j33578054320464_3_alg».proof.Proof.KI.Chain
import proofs.«425956_j33578054320464_3_alg».proof.Proof.KI.Reg2Ob
import proofs.«425956_j33578054320464_3_alg».proof.Proof.Gen.Pre_finite_inputs

set_option maxRecDepth 16384

noncomputable section

namespace Cert.KernelIdeal.Rgn

open Cert.KernelIdeal Cert.KernelIdeal.Gen
open Idealize.ShloMosaic Idealize.ShloMosaic.TcCoe
open Idealize.SL.Sem

/-- The whole run at the ideal instance: the third launch's body obligation is the one proved there. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W7 m c b) :=
  run (F := Ideal) m ρ fun c => body_obligation2 (V5 m) c

/-- The idealized kernel runs to the end from any memory, faulting nowhere, and its argument arrays end as launched
    (the precondition is not used). -/
theorem frame_ki : Cert.frame_KernelIdeal (hKernelIdeal := Cert.KernelIdeal.Gen.facts) (hPre_finite_inputs := Cert.Pre_finite_inputs.Gen.facts) :=
  fun m ρ _ => (θ_run (defs (F := Ideal)) _ _).mono (fun r h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c),
      (h c _ (mem_uc main_arg11 (by decide))).trans (W7_main_arg11 m c),
      (h c _ (mem_uc main_arg12 (by decide))).trans (W7_main_arg12 m c),
      (h c _ (mem_uc main_arg13 (by decide))).trans (W7_main_arg13 m c)⟩) (run_ideal m ρ)

/-- The same run read at the two results as well: each ends holding what the last boundary holds at its buffer. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = W7 m c (Proc.devRef .tc main_v43)
      ∧ r.2.mem ((c.tc : Thread nD τ).loc main_v44) = W7 m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c =>
    ⟨(h c _ (mem_uc main_v43 (by decide))), (h c _ (mem_uc main_v44 (by decide))),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c),
      (h c _ (mem_uc main_arg11 (by decide))).trans (W7_main_arg11 m c),
      (h c _ (mem_uc main_arg12 (by decide))).trans (W7_main_arg12 m c),
      (h c _ (mem_uc main_arg13 (by decide))).trans (W7_main_arg13 m c)⟩) (run_ideal m ρ)

end Cert.KernelIdeal.Rgn

end
-- ==== Proof.Spec.lean ====
/-
  The reference program's operations, grouped into the stages the kernel program computes in its three launches and
  its host code: the embedding row, the hidden state, attention-and-combine, the two gate projections, the gate
  combine, the output projection and the hidden state's final reshape. Each stage is the reference's own operations on
  its operands; the bias rows enter the launched stages already as one-row matrices, as the kernels receive them.
-/
import proofs.«425956_j33578054320464_3_alg».proof.Proof.Gen.ReferenceIdeal
import Idealize.ShloMosaic.Lib.StableHlo.Run

set_option maxRecDepth 8192

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The embedding row of the token: the token index wrapped if negative, then one row gathered. -/
def E (x : (⟨S1, .i32⟩ : BufTy).Contents (Elt F)) (emb : FVec F S50257x1024 .f32) : FVec F S1x1024 .f32 :=
  Host.gather gather_S50257x1024_S1x1_S1x1024_1_0_n_n_0_1_11024 emb
    (broadcastInDim S1x1 ![0] bcast_S1_S1x1_0
      (select (cmpi .slt x (broadcastInDim S1 ![] bcast_S_S1 (constantI S_ 32 0#32)))
        (addi x (broadcastInDim S1 ![] bcast_S_S1 (constantI S_ 32 50257#32))) x))

/-- The hidden state as a one-row matrix. -/
def H0 (hid : FVec F S1x1x1024 .f32) : FVec F S1x1024 .f32 :=
  shapeCast S1x1024 hid shapeCasts_S1x1x1024_S1x1024

/-- Attention and combine: the attention logits of the embedding row and hidden state against the attention weights,
    their softmax over the 512 encoder positions (maximum subtracted), the context row as the weighted sum of the
    encoder outputs, the combined projection of embedding row and context, its relu. `ab` and `cb` are the two bias
    rows as one-row matrices. -/
def GIN' (e h0 : FVec F S1x1024 .f32) (enc : FVec F S512x1024 .f32) (aW : FVec F S512x2048 .f32) (ab : FVec F S1x512 .f32)
    (cW : FVec F S1024x2048 .f32) (cb : FVec F S1x1024 .f32) : FVec F S1x1024 .f32 :=
  have l : FVec F S1x512 .f32 := addf (Host.dotGeneral dot_S1x2048_S2048x512_S1x512_1_0_0_1_n_n none
      (concatenate S1x2048 1 [⟨S1x1024, e⟩, ⟨S1x1024, h0⟩] concatenates_S1x1024_S1x1024_S1x2048_d1)
      (transpose S2048x512 [1, 0] aW transposes_S512x2048_S2048x512_1_0)) ab
  have p : FVec F S1x512 .f32 := Host.exp (subf l (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf l (constant S_ .f32 0xFF800000#32) reducesTo_S1x512_S1_d1 h_S_)))))
  have w : FVec F S1x512 .f32 := Host.divf p (broadcastInDim S1x512 ![0, 1] bcast_S1x1_S1x512_0_1 (broadcastInDim S1x1 ![0] bcast_S1_S1x1_0
      (Host.reduceAdd p (constant S_ .f32 0x00000000#32) reducesTo_S1x512_S1_d1 h_S_)))
  have ctx : FVec F S1x1024 .f32 := Host.dotGeneral dot_S1x512_S512x1024_S1x1024_1_0_0_1_n_n none w enc
  maximumf (addf (Host.dotGeneral dot_S1x2048_S2048x1024_S1x1024_1_0_0_1_n_n none
      (concatenate S1x2048 1 [⟨S1x1024, e⟩, ⟨S1x1024, ctx⟩] concatenates_S1x1024_S1x1024_S1x2048_d1)
      (transpose S2048x1024 [1, 0] cW transposes_S1024x2048_S2048x1024_1_0)) cb)
    (broadcastInDim S1x1024 ![] bcast_S_S1x1024 (constant S_ .f32 0x00000000#32))

/-- A gate projection: the row `v` against the transposed weights, plus the bias row `b` (a one-row matrix). -/
def GI' (v : FVec F S1x1024 .f32) (W : FVec F S3072x1024 .f32) (b : FVec F S1x3072 .f32) : FVec F S1x3072 .f32 :=
  addf (Host.dotGeneral dot_S1x1024_S1024x3072_S1x3072_1_0_0_1_n_n none v (transpose S1024x3072 [1, 0] W transposes_S3072x1024_S1024x3072_1_0)) b

/-- The GRU cell's gate combine: reset and update gates as logistic functions of the summed gate thirds, the candidate
    as the hyperbolic tangent, the new hidden state their convex combination with the old. -/
def H1 (gi gh : FVec F S1x3072 .f32) (h0 : FVec F S1x1024 .f32) : FVec F S1x1024 .f32 :=
  have one : FVec F S1x1024 .f32 := broadcastInDim S1x1024 ![] bcast_S_S1x1024 (constant S_ .f32 0x3F800000#32)
  have r : FVec F S1x1024 .f32 := Host.divf one (addf one (Host.exp (Host.negf (addf (extractStridedSlice S1x1024 ![0, 0] gi slices_S1x3072_S1x1024_0_0) (extractStridedSlice S1x1024 ![0, 0] gh slices_S1x3072_S1x1024_0_0)))))
  have z : FVec F S1x1024 .f32 := Host.divf one (addf one (Host.exp (Host.negf (addf (extractStridedSlice S1x1024 ![0, 1024] gi slices_S1x3072_S1x1024_0_1024) (extractStridedSlice S1x1024 ![0, 1024] gh slices_S1x3072_S1x1024_0_1024)))))
  have n : FVec F S1x1024 .f32 := Host.tanh (addf (extractStridedSlice S1x1024 ![0, 2048] gi slices_S1x3072_S1x1024_0_2048) (mulf r (extractStridedSlice S1x1024 ![0, 2048] gh slices_S1x3072_S1x1024_0_2048)))
  addf (mulf (subf one z) n) (mulf z h0)

/-- The output projection: the new hidden state against the transposed projection matrix, plus the bias row `b` (a
    one-row matrix). -/
def LOGITS' (h1 : FVec F S1x1024 .f32) (W : FVec F S50257x1024 .f32) (b : FVec F S1x50257 .f32) : FVec F S1x50257 .f32 :=
  addf (Host.dotGeneral dot_S1x1024_S1024x50257_S1x50257_1_0_0_1_n_n none h1 (transpose S1024x50257 [1, 0] W transposes_S50257x1024_S1024x50257_1_0)) b

/-- The new hidden state as the reference returns it, with a leading unit axis. -/
def HID (h1 : FVec F S1x1024 .f32) : FVec F S1x1x1024 .f32 :=
  broadcastInDim S1x1x1024 ![1, 2] bcast_S1x1024_S1x1x1024_1_2 h1

variable (m : (ℓ : Loc nD τ sig) → Buf (Elt F) ℓ) (c : Dev nD)

/-- The new hidden state, from the reference's arguments. -/
def newHidden : FVec F S1x1024 .f32 :=
  have e := E (F := F) (m ((c.tc : Thread nD τ).loc main_arg0)) (m ((c.tc : Thread nD τ).loc main_arg3))
  have h0 := H0 (F := F) (m ((c.tc : Thread nD τ).loc main_arg1))
  have gin := GIN' e h0 (m ((c.tc : Thread nD τ).loc main_arg2)) (m ((c.tc : Thread nD τ).loc main_arg4))
    (broadcastInDim S1x512 ![1] bcast_S512_S1x512_1 (m ((c.tc : Thread nD τ).loc main_arg5)))
    (m ((c.tc : Thread nD τ).loc main_arg6)) (broadcastInDim S1x1024 ![1] bcast_S1024_S1x1024_1 (m ((c.tc : Thread nD τ).loc main_arg7)))
  H1 (GI' gin (m ((c.tc : Thread nD τ).loc main_arg8)) (broadcastInDim S1x3072 ![1] bcast_S3072_S1x3072_1 (m ((c.tc : Thread nD τ).loc main_arg10))))
    (GI' h0 (m ((c.tc : Thread nD τ).loc main_arg9)) (broadcastInDim S1x3072 ![1] bcast_S3072_S1x3072_1 (m ((c.tc : Thread nD τ).loc main_arg11)))) h0

end Cert.ReferenceIdeal.Spec

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.KI.Val0.lean ====
/-
  The value of the attention-and-combine call at the ideal instance, where every float operation is the exact operation
  on the extended reals and a change of float format is the identity: what the call's write-back leaves in its result
  array is the reference's attention-and-combine stage of the call's operand arrays,
  relu(concat(e, ctx)·cWᵀ + cb) with ctx = softmax(concat(e, h0)·aWᵀ + ab)·enc, the softmax with the row maximum
  subtracted.

  The mathematics, in four steps. (1) The two weight products: the call contracts the second axis of the row and of
  the weight matrix; the reference transposes the weights and contracts the row's second axis with the transposed
  matrix's first; at each column both are the same sum over the contraction index. (2) The softmax's row statistics:
  a fold of `max` from −∞ and a sum from zero over the 512 entries on both sides, kept as a column and broadcast along
  the row. (3) With these the call's whole payload is the reference's stage of the same operands, operation by
  operation. (4) The grid has one point and every window's block is its whole array, so each operand block is the
  operand array, the one block written back is the whole result, and it covers the result array.
-/
import proofs.«425956_j33578054320464_3_alg».proof.Proof.KI.Reg0
import proofs.«425956_j33578054320464_3_alg».proof.Proof.Spec
import proofs.«425956_j33578054320464_3_alg».proof.Proof.LibKeepdims
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL.Sem
open Idealize.ShloMosaic.Pipeline (Dat)

namespace Val0

/-! ## The weight products, each read at a column as one sum

First the call's products, then the reference's, then their equality. For each product's dimension numbers: where its
two operand indices sit, axis by axis, at an output index `i` and a contraction index `q`. -/

theorem lhsKA_0 (i : S1x512.Idx) (q : dot_S1x2048_S512x2048_S1x512_1_1_0_0_n_n.contr.Idx) :
    (dot_S1x2048_S512x2048_S1x512_1_1_0_0_n_n.lhsIdx i q 0).val = (i 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl
theorem lhsKA_1 (i : S1x512.Idx) (q : dot_S1x2048_S512x2048_S1x512_1_1_0_0_n_n.contr.Idx) :
    (dot_S1x2048_S512x2048_S1x512_1_1_0_0_n_n.lhsIdx i q 1).val = (q ⟨0, by decide⟩).val :=
  dot_S1x2048_S512x2048_S1x512_1_1_0_0_n_n.lhsIdx_val_of_single rfl i q
theorem rhsKA_0 (i : S1x512.Idx) (q : dot_S1x2048_S512x2048_S1x512_1_1_0_0_n_n.contr.Idx) :
    (dot_S1x2048_S512x2048_S1x512_1_1_0_0_n_n.rhsIdx i q 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
theorem rhsKA_1 (i : S1x512.Idx) (q : dot_S1x2048_S512x2048_S1x512_1_1_0_0_n_n.contr.Idx) :
    (dot_S1x2048_S512x2048_S1x512_1_1_0_0_n_n.rhsIdx i q 1).val = (q ⟨0, by decide⟩).val :=
  dot_S1x2048_S512x2048_S1x512_1_1_0_0_n_n.rhsIdx_val_of_single rfl i q

/-- The call's product of a row with a matrix, both contracted on their second axis, into the zero accumulator: at
    column `c` the sum over `k` of the row at `k` times the matrix at `(c, k)`. -/
theorem matKA_apply {φ₁ φ₂ : FTy} (x : FVec Ideal S1x2048 φ₁) (W : FVec Ideal S512x2048 φ₂) (i : S1x512.Idx) :
    matmul dot_S1x2048_S512x2048_S1x512_1_1_0_0_n_n none x W (constant S1x512 .f32 0x00000000#32) i
      = ∑ k : Fin 2048, x (ix2 (i 0) k) * W (ix2 (i 1) k) := by
  simp only [matmul]
  rw [Ideal.matmul_constant_zero_apply, ← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx i ((contrEquiv1 dot_S1x2048_S512x2048_S1x512_1_1_0_0_n_n 2048 rfl rfl).symm k) = ix2 (i 0) k := funext fun a => Fin.ext (by
    match a with
    | ⟨0, _⟩ => exact lhsKA_0 _ _
    | ⟨1, _⟩ => exact (lhsKA_1 _ _).trans hk)
  have er : dot_S1x2048_S512x2048_S1x512_1_1_0_0_n_n.rhsIdx i ((contrEquiv1 dot_S1x2048_S512x2048_S1x512_1_1_0_0_n_n 2048 rfl rfl).symm k) = ix2 (i 1) k := funext fun a => Fin.ext (by
    match a with
    | ⟨0, _⟩ => exact rhsKA_0 _ _
    | ⟨1, _⟩ => exact (rhsKA_1 _ _).trans hk)
  exact congrArg₂ _ (congrArg x el) (congrArg W er)

theorem lhsKC_0 (i : S1x1024.Idx) (q : dot_S1x2048_S1024x2048_S1x1024_1_1_0_0_n_n.contr.Idx) :
    (dot_S1x2048_S1024x2048_S1x1024_1_1_0_0_n_n.lhsIdx i q 0).val = (i 0).val := by
  unfold DotDims.lhsIdx
  rw [dif_neg (show ¬(0 : Fin S1x2048.rank) ∈ dot_S1x2048_S1024x2048_S1x1024_1_1_0_0_n_n.lhsBatch by decide), dif_pos (show (0 : Fin S1x2048.rank) ∈ dot_S1x2048_S1024x2048_S1x1024_1_1_0_0_n_n.lhsNonContracting by decide)]
  rfl
theorem lhsKC_1 (i : S1x1024.Idx) (q : dot_S1x2048_S1024x2048_S1x1024_1_1_0_0_n_n.contr.Idx) :
    (dot_S1x2048_S1024x2048_S1x1024_1_1_0_0_n_n.lhsIdx i q 1).val = (q ⟨0, by decide⟩).val :=
  dot_S1x2048_S1024x2048_S1x1024_1_1_0_0_n_n.lhsIdx_val_of_single rfl i q
theorem rhsKC_0 (i : S1x1024.Idx) (q : dot_S1x2048_S1024x2048_S1x1024_1_1_0_0_n_n.contr.Idx) :
    (dot_S1x2048_S1024x2048_S1x1024_1_1_0_0_n_n.rhsIdx i q 0).val = (i 1).val := by
  unfold DotDims.rhsIdx
  rw [dif_neg (show ¬(0 : Fin S1024x2048.rank) ∈ dot_S1x2048_S1024x2048_S1x1024_1_1_0_0_n_n.rhsBatch by decide), dif_pos (show (0 : Fin S1024x2048.rank) ∈ dot_S1x2048_S1024x2048_S1x1024_1_1_0_0_n_n.rhsNonContracting by decide)]
  rfl
theorem rhsKC_1 (i : S1x1024.Idx) (q : dot_S1x2048_S1024x2048_S1x1024_1_1_0_0_n_n.contr.Idx) :
    (dot_S1x2048_S1024x2048_S1x1024_1_1_0_0_n_n.rhsIdx i q 1).val = (q ⟨0, by decide⟩).val :=
  dot_S1x2048_S1024x2048_S1x1024_1_1_0_0_n_n.rhsIdx_val_of_single rfl i q

/-- The call's product of a row with a matrix, both contracted on their second axis, into the zero accumulator: at
    column `c` the sum over `k` of the row at `k` times the matrix at `(c, k)`. -/
theorem matKC_apply {φ₁ φ₂ : FTy} (x : FVec Ideal S1x2048 φ₁) (W : FVec Ideal S1024x2048 φ₂) (i : S1x1024.Idx) :
    matmul dot_S1x2048_S1024x2048_S1x1024_1_1_0_0_n_n none x W (constant S1x1024 .f32 0x00000000#32) i
      = ∑ k : Fin 2048, x (ix2 (i 0) k) * W (ix2 (i 1) k) := by
  simp only [matmul]
  rw [Ideal.matmul_constant_zero_apply, ← Equiv.sum_comp (contrEquiv1 dot_S1x2048_S1024x2048_S1x1024_1_1_0_0_n_n 2048 rfl rfl).symm]
  refine Finset.sum_congr rfl fun k _ => ?_
  have hk := contrEquiv1_symm_val dot_S1x2048_S1024x2048_S1x1024_1_1_0_0_n_n 2048 rfl rfl k
  have el : dot_S1x2048_S1024x2048_S1x1024_1_1_0_0_n_n.lhsIdx i ((contrEquiv1 dot_S1x2048_S1024x2048_S1x1024_1_1_0_0_n_n 2048 rfl rfl).symm k) = ix2 (i 0) k := funext fun a => Fin.ext (by
    match a with
    | ⟨0, _⟩ => exact lhsKC_0 _ _
    | ⟨1, _⟩ => exact (lhsKC_1 _ _).trans hk)
  have er : dot_S1x2048_S1024x2048_S1x1024_1_1_0_0_n_n.rhsIdx i ((contrEquiv1 dot_S1x2048_S1024x2048_S1x1024_1_1_0_0_n_n 2048 rfl rfl).symm k) = ix2 (i 1) k := funext fun a => Fin.ext (by
    match a with
    | ⟨0, _⟩ => exact rhsKC_0 _ _
    | ⟨1, _⟩ => exact (rhsKC_1 _ _).trans hk)
  exact congrArg₂ _ (congrArg x el) (congrArg W er)

/-! ### The reference's products -/

theorem lhsRA_0 (i : Cert.ReferenceIdeal.S1x512.Idx) (q : Cert.ReferenceIdeal.dot_S1x2048_S2048x512_S1x512_1_0_0_1_n_n.contr.Idx) :
    (Cert.ReferenceIdeal.dot_S1x2048_S2048x512_S1x512_1_0_0_1_n_n.lhsIdx i q 0).val = (i 0).val := by
  unfold DotDims.lhsIdx
  rw [dif_neg (show ¬(0 : Fin Cert.ReferenceIdeal.S1x2048.rank) ∈ Cert.ReferenceIdeal.dot_S1x2048_S2048x512_S1x512_1_0_0_1_n_n.lhsBatch by decide), dif_pos (show (0 : Fin Cert.ReferenceIdeal.S1x2048.rank) ∈ Cert.ReferenceIdeal.dot_S1x2048_S2048x512_S1x512_1_0_0_1_n_n.lhsNonContracting by decide)]
  rfl
theorem lhsRA_1 (i : Cert.ReferenceIdeal.S1x512.Idx) (q : Cert.ReferenceIdeal.dot_S1x2048_S2048x512_S1x512_1_0_0_1_n_n.contr.Idx) :
    (Cert.ReferenceIdeal.dot_S1x2048_S2048x512_S1x512_1_0_0_1_n_n.lhsIdx i q 1).val = (q ⟨0, by decide⟩).val :=
  Cert.ReferenceIdeal.dot_S1x2048_S2048x512_S1x512_1_0_0_1_n_n.lhsIdx_val_of_single rfl i q
theorem rhsRA_1 (i : Cert.ReferenceIdeal.S1x512.Idx) (q : Cert.ReferenceIdeal.dot_S1x2048_S2048x512_S1x512_1_0_0_1_n_n.contr.Idx) :
    (Cert.ReferenceIdeal.dot_S1x2048_S2048x512_S1x512_1_0_0_1_n_n.rhsIdx i q 1).val = (i 1).val := by
  unfold DotDims.rhsIdx
  rw [dif_neg (show ¬(1 : Fin Cert.ReferenceIdeal.S2048x512.rank) ∈ Cert.ReferenceIdeal.dot_S1x2048_S2048x512_S1x512_1_0_0_1_n_n.rhsBatch by decide), dif_pos (show (1 : Fin Cert.ReferenceIdeal.S2048x512.rank) ∈ Cert.ReferenceIdeal.dot_S1x2048_S2048x512_S1x512_1_0_0_1_n_n.rhsNonContracting by decide)]
  rfl
theorem rhsRA_0 (i : Cert.ReferenceIdeal.S1x512.Idx) (q : Cert.ReferenceIdeal.dot_S1x2048_S2048x512_S1x512_1_0_0_1_n_n.contr.Idx) :
    (Cert.ReferenceIdeal.dot_S1x2048_S2048x512_S1x512_1_0_0_1_n_n.rhsIdx i q 0).val = (q ⟨0, by decide⟩).val :=
  Cert.ReferenceIdeal.dot_S1x2048_S2048x512_S1x512_1_0_0_1_n_n.rhsIdx_val_of_single rfl i q

/-- The reference's product of a row with the transposed matrix: at column `c` the same sum over `k` of the row at
    `k` times the matrix at `(c, k)`. -/
theorem dotRA_apply {φ₁ φ₂ : FTy} (x : FVec Ideal Cert.ReferenceIdeal.S1x2048 φ₁) (W : FVec Ideal Cert.ReferenceIdeal.S512x2048 φ₂) (i : Cert.ReferenceIdeal.S1x512.Idx) :
    Host.dotGeneral Cert.ReferenceIdeal.dot_S1x2048_S2048x512_S1x512_1_0_0_1_n_n none x (transpose Cert.ReferenceIdeal.S2048x512 [1, 0] W Cert.ReferenceIdeal.Gen.transposes_S512x2048_S2048x512_1_0) i
      = ∑ k : Fin 2048, x (ix2 (i 0) k) * W (ix2 (i 1) k) := by
  simp only [Host.dotGeneral]
  rw [Ideal.dotGeneral_apply, ← Equiv.sum_comp (contrEquiv1 Cert.ReferenceIdeal.dot_S1x2048_S2048x512_S1x512_1_0_0_1_n_n 2048 rfl rfl).symm]
  refine Finset.sum_congr rfl fun k _ => ?_
  have hk := contrEquiv1_symm_val Cert.ReferenceIdeal.dot_S1x2048_S2048x512_S1x512_1_0_0_1_n_n 2048 rfl rfl k
  have el : Cert.ReferenceIdeal.dot_S1x2048_S2048x512_S1x512_1_0_0_1_n_n.lhsIdx i ((contrEquiv1 Cert.ReferenceIdeal.dot_S1x2048_S2048x512_S1x512_1_0_0_1_n_n 2048 rfl rfl).symm k) = ix2 (i 0) k := funext fun a => Fin.ext (by
    match a with
    | ⟨0, _⟩ => exact lhsRA_0 _ _
    | ⟨1, _⟩ => exact (lhsRA_1 _ _).trans hk)
  rw [el]
  refine congrArg (x (ix2 (i 0) k) * ·) ?_
  refine transpose_apply [1, 0] W Cert.ReferenceIdeal.Gen.transposes_S512x2048_S2048x512_1_0 _ (ix2 (i 1) k) fun b => ?_
  match b with
  | ⟨0, _⟩ => exact ((rhsRA_0 _ _).trans hk).symm
  | ⟨1, _⟩ => exact (rhsRA_1 _ _).symm

theorem lhsRC_0 (i : Cert.ReferenceIdeal.S1x1024.Idx) (q : Cert.ReferenceIdeal.dot_S1x2048_S2048x1024_S1x1024_1_0_0_1_n_n.contr.Idx) :
    (Cert.ReferenceIdeal.dot_S1x2048_S2048x1024_S1x1024_1_0_0_1_n_n.lhsIdx i q 0).val = (i 0).val := by
  unfold DotDims.lhsIdx
  rw [dif_neg (show ¬(0 : Fin Cert.ReferenceIdeal.S1x2048.rank) ∈ Cert.ReferenceIdeal.dot_S1x2048_S2048x1024_S1x1024_1_0_0_1_n_n.lhsBatch by decide), dif_pos (show (0 : Fin Cert.ReferenceIdeal.S1x2048.rank) ∈ Cert.ReferenceIdeal.dot_S1x2048_S2048x1024_S1x1024_1_0_0_1_n_n.lhsNonContracting by decide)]
  rfl
theorem lhsRC_1 (i : Cert.ReferenceIdeal.S1x1024.Idx) (q : Cert.ReferenceIdeal.dot_S1x2048_S2048x1024_S1x1024_1_0_0_1_n_n.contr.Idx) :
    (Cert.ReferenceIdeal.dot_S1x2048_S2048x1024_S1x1024_1_0_0_1_n_n.lhsIdx i q 1).val = (q ⟨0, by decide⟩).val :=
  Cert.ReferenceIdeal.dot_S1x2048_S2048x1024_S1x1024_1_0_0_1_n_n.lhsIdx_val_of_single rfl i q
theorem rhsRC_1 (i : Cert.ReferenceIdeal.S1x1024.Idx) (q : Cert.ReferenceIdeal.dot_S1x2048_S2048x1024_S1x1024_1_0_0_1_n_n.contr.Idx) :
    (Cert.ReferenceIdeal.dot_S1x2048_S2048x1024_S1x1024_1_0_0_1_n_n.rhsIdx i q 1).val = (i 1).val := by
  unfold DotDims.rhsIdx
  rw [dif_neg (show ¬(1 : Fin Cert.ReferenceIdeal.S2048x1024.rank) ∈ Cert.ReferenceIdeal.dot_S1x2048_S2048x1024_S1x1024_1_0_0_1_n_n.rhsBatch by decide), dif_pos (show (1 : Fin Cert.ReferenceIdeal.S2048x1024.rank) ∈ Cert.ReferenceIdeal.dot_S1x2048_S2048x1024_S1x1024_1_0_0_1_n_n.rhsNonContracting by decide)]
  rfl
theorem rhsRC_0 (i : Cert.ReferenceIdeal.S1x1024.Idx) (q : Cert.ReferenceIdeal.dot_S1x2048_S2048x1024_S1x1024_1_0_0_1_n_n.contr.Idx) :
    (Cert.ReferenceIdeal.dot_S1x2048_S2048x1024_S1x1024_1_0_0_1_n_n.rhsIdx i q 0).val = (q ⟨0, by decide⟩).val :=
  Cert.ReferenceIdeal.dot_S1x2048_S2048x1024_S1x1024_1_0_0_1_n_n.rhsIdx_val_of_single rfl i q

/-- The reference's product of a row with the transposed matrix: at column `c` the same sum over `k` of the row at
    `k` times the matrix at `(c, k)`. -/
theorem dotRC_apply {φ₁ φ₂ : FTy} (x : FVec Ideal Cert.ReferenceIdeal.S1x2048 φ₁) (W : FVec Ideal Cert.ReferenceIdeal.S1024x2048 φ₂) (i : Cert.ReferenceIdeal.S1x1024.Idx) :
    Host.dotGeneral Cert.ReferenceIdeal.dot_S1x2048_S2048x1024_S1x1024_1_0_0_1_n_n none x (transpose Cert.ReferenceIdeal.S2048x1024 [1, 0] W Cert.ReferenceIdeal.Gen.transposes_S1024x2048_S2048x1024_1_0) i
      = ∑ k : Fin 2048, x (ix2 (i 0) k) * W (ix2 (i 1) k) := by
  simp only [Host.dotGeneral]
  rw [Ideal.dotGeneral_apply, ← Equiv.sum_comp (contrEquiv1 Cert.ReferenceIdeal.dot_S1x2048_S2048x1024_S1x1024_1_0_0_1_n_n 2048 rfl rfl).symm]
  refine Finset.sum_congr rfl fun k _ => ?_
  have hk := contrEquiv1_symm_val Cert.ReferenceIdeal.dot_S1x2048_S2048x1024_S1x1024_1_0_0_1_n_n 2048 rfl rfl k
  have el : Cert.ReferenceIdeal.dot_S1x2048_S2048x1024_S1x1024_1_0_0_1_n_n.lhsIdx i ((contrEquiv1 Cert.ReferenceIdeal.dot_S1x2048_S2048x1024_S1x1024_1_0_0_1_n_n 2048 rfl rfl).symm k) = ix2 (i 0) k := funext fun a => Fin.ext (by
    match a with
    | ⟨0, _⟩ => exact lhsRC_0 _ _
    | ⟨1, _⟩ => exact (lhsRC_1 _ _).trans hk)
  rw [el]
  refine congrArg (x (ix2 (i 0) k) * ·) ?_
  refine transpose_apply [1, 0] W Cert.ReferenceIdeal.Gen.transposes_S1024x2048_S2048x1024_1_0 _ (ix2 (i 1) k) fun b => ?_
  match b with
  | ⟨0, _⟩ => exact ((rhsRC_0 _ _).trans hk).symm
  | ⟨1, _⟩ => exact (rhsRC_1 _ _).symm

/-! ### The two are one vector -/

/-- The attention logits' product: the launched program's is the reference's. -/
theorem matKA_eq_dotRA {φ₁ φ₂ : FTy} (x : FVec Ideal S1x2048 φ₁) (W : FVec Ideal S512x2048 φ₂) :
    matmul dot_S1x2048_S512x2048_S1x512_1_1_0_0_n_n none x W (constant S1x512 .f32 0x00000000#32)
      = Host.dotGeneral Cert.ReferenceIdeal.dot_S1x2048_S2048x512_S1x512_1_0_0_1_n_n none x (transpose Cert.ReferenceIdeal.S2048x512 [1, 0] W Cert.ReferenceIdeal.Gen.transposes_S512x2048_S2048x512_1_0) :=
  funext fun i => (matKA_apply x W i).trans (dotRA_apply x W i).symm

/-- The combined projection's product: the launched program's is the reference's. -/
theorem matKC_eq_dotRC {φ₁ φ₂ : FTy} (x : FVec Ideal S1x2048 φ₁) (W : FVec Ideal S1024x2048 φ₂) :
    matmul dot_S1x2048_S1024x2048_S1x1024_1_1_0_0_n_n none x W (constant S1x1024 .f32 0x00000000#32)
      = Host.dotGeneral Cert.ReferenceIdeal.dot_S1x2048_S2048x1024_S1x1024_1_0_0_1_n_n none x (transpose Cert.ReferenceIdeal.S2048x1024 [1, 0] W Cert.ReferenceIdeal.Gen.transposes_S1024x2048_S2048x1024_1_0) :=
  funext fun i => (matKC_apply x W i).trans (dotRC_apply x W i).symm

/-! ## The softmax's row statistics -/

/-- One result per row, cast to a column and broadcast along the row, is that result broadcast to a column and then
    along the row: at every place of the row both read the row's one result. -/
theorem keep_eq {α : Type} (y : S1.Idx → α) :
    broadcastTo S1x512 (shapeCast S1x1 y shapeCasts_S1_S1x1) broadcasts_S1x1_S1x512
      = broadcastInDim Cert.ReferenceIdeal.S1x512 ![0, 1] Cert.ReferenceIdeal.Gen.bcast_S1x1_S1x512_0_1
          (broadcastInDim Cert.ReferenceIdeal.S1x1 ![0] Cert.ReferenceIdeal.Gen.bcast_S1_S1x1_0 y) := by
  funext i
  obtain ⟨p, q, rfl⟩ : ∃ (p : Fin 1) (q : Fin 512), i = ix2 p q := ⟨i 0, i 1, eq_ix2 i⟩
  rw [Cert.Lib.keepdims_apply y shapeCasts_S1_S1x1 broadcasts_S1x1_S1x512 p q]
  have hp : p.val = 0 := by omega
  refine ((broadcastInDim_apply ![0, 1] Cert.ReferenceIdeal.Gen.bcast_S1x1_S1x512_0_1 _ (ix2 p q) (ix2 p (0 : Fin 1)) fun a => ?_).trans
    (broadcastInDim_apply ![0] Cert.ReferenceIdeal.Gen.bcast_S1_S1x1_0 y (ix2 p (0 : Fin 1)) (ix1 p) fun a => ?_)).symm
  · match a with
    | ⟨0, _⟩ => exact hp.trans (if_pos (by rfl)).symm
    | ⟨1, _⟩ => exact (if_pos (by rfl)).symm
  · match a with
    | ⟨0, _⟩ => exact hp.trans (if_pos (by rfl)).symm

/-- The row maximum: the lane reduction from −∞ is the reference's reduction from −∞ followed by its maximum with
    −∞, since a fold of `max` is at least the value it starts from. -/
theorem rowmax_vec (l : FVec Ideal S1x512 .f32) :
    multiReduction (F := Ideal) .maximumf [1] S1 l 0xFF800000#32 reduces_S1x512_S1 (.inl rfl) rfl
      = maximumf (broadcastInDim Cert.ReferenceIdeal.S1 ![] Cert.ReferenceIdeal.Gen.bcast_S_S1 (constant (F := Ideal) Cert.ReferenceIdeal.S_ .f32 0xFF800000#32))
          (Host.reduce FloatOps.maximumf l (constant (F := Ideal) Cert.ReferenceIdeal.S_ .f32 0xFF800000#32)
            Cert.ReferenceIdeal.Gen.reducesTo_S1x512_S1_d1 Cert.ReferenceIdeal.Gen.h_S_) := by
  funext j
  have eK : multiReduction (F := Ideal) .maximumf [1] S1 l 0xFF800000#32 reduces_S1x512_S1 (.inl rfl) rfl j
      = (Finset.univ : Finset (Fin 512)).fold max (Ideal.ofBits .f32 0xFF800000#32) (l ∘ reduces_S1x512_S1.lift j) :=
    Ideal.multiReduction_maximumf_single l _ reduces_S1x512_S1 (.inl rfl) rfl j
  have eR : Host.reduce FloatOps.maximumf l (constant (F := Ideal) Cert.ReferenceIdeal.S_ .f32 0xFF800000#32)
        Cert.ReferenceIdeal.Gen.reducesTo_S1x512_S1_d1 Cert.ReferenceIdeal.Gen.h_S_ j
      = (Finset.univ : Finset (Fin 512)).fold max (Ideal.ofBits .f32 0xFF800000#32) (l ∘ reduces_S1x512_S1.lift j) :=
    Host.reduce_eq_fold_single FloatOps.maximumf l _ Cert.ReferenceIdeal.Gen.reducesTo_S1x512_S1_d1 reduces_S1x512_S1 Cert.ReferenceIdeal.Gen.h_S_ j
  show _ = max (Ideal.ofBits .f32 0xFF800000#32) (Host.reduce FloatOps.maximumf l (constant (F := Ideal) Cert.ReferenceIdeal.S_ .f32 0xFF800000#32)
        Cert.ReferenceIdeal.Gen.reducesTo_S1x512_S1_d1 Cert.ReferenceIdeal.Gen.h_S_ j)
  rw [eK, eR]
  exact (max_eq_right ((Finset.le_fold_max _).mpr (Or.inl le_rfl))).symm

/-- The row maximum, broadcast along the row. -/
theorem rowmax_eq (l : FVec Ideal S1x512 .f32) :
    broadcastTo S1x512 (shapeCast S1x1 (multiReduction (F := Ideal) .maximumf [1] S1 l 0xFF800000#32 reduces_S1x512_S1 (.inl rfl) rfl)
        shapeCasts_S1_S1x1) broadcasts_S1x1_S1x512
      = broadcastInDim Cert.ReferenceIdeal.S1x512 ![0, 1] Cert.ReferenceIdeal.Gen.bcast_S1x1_S1x512_0_1 (broadcastInDim Cert.ReferenceIdeal.S1x1 ![0] Cert.ReferenceIdeal.Gen.bcast_S1_S1x1_0
          (maximumf (broadcastInDim Cert.ReferenceIdeal.S1 ![] Cert.ReferenceIdeal.Gen.bcast_S_S1 (constant (F := Ideal) Cert.ReferenceIdeal.S_ .f32 0xFF800000#32))
            (Host.reduce FloatOps.maximumf l (constant (F := Ideal) Cert.ReferenceIdeal.S_ .f32 0xFF800000#32)
              Cert.ReferenceIdeal.Gen.reducesTo_S1x512_S1_d1 Cert.ReferenceIdeal.Gen.h_S_))) := by
  rw [keep_eq, rowmax_vec]

/-- The row sum, broadcast along the row: the lane sum from zero is the reference's sum from zero. -/
theorem rowsum_eq (p : FVec Ideal S1x512 .f32) :
    broadcastTo S1x512 (shapeCast S1x1 (multiReduction (F := Ideal) .add [1] S1 p 0x00000000#32 reduces_S1x512_S1 (.inl rfl) rfl)
        shapeCasts_S1_S1x1) broadcasts_S1x1_S1x512
      = broadcastInDim Cert.ReferenceIdeal.S1x512 ![0, 1] Cert.ReferenceIdeal.Gen.bcast_S1x1_S1x512_0_1 (broadcastInDim Cert.ReferenceIdeal.S1x1 ![0] Cert.ReferenceIdeal.Gen.bcast_S1_S1x1_0
          (Host.reduceAdd p (constant (F := Ideal) Cert.ReferenceIdeal.S_ .f32 0x00000000#32) Cert.ReferenceIdeal.Gen.reducesTo_S1x512_S1_d1 Cert.ReferenceIdeal.Gen.h_S_)) := by
  rw [keep_eq, multiReduction_add_eq_hostReduceAdd p 0x00000000#32 reduces_S1x512_S1 (.inl rfl) rfl
    (constant (F := Ideal) Cert.ReferenceIdeal.S_ .f32 0x00000000#32) Cert.ReferenceIdeal.Gen.reducesTo_S1x512_S1_d1 Cert.ReferenceIdeal.Gen.h_S_ Ideal.ofBits_zero_f32]

/-! ## The payload is the reference's stage -/

/-- A narrowing of the float format changes nothing at the ideal values. -/
theorem truncf_id {S : Shape} {φ : FTy} (ψ : FTy) (x : FVec Ideal S φ) (h : ψ.bits < φ.bits) : (truncf ψ x h : FVec Ideal S ψ) = x := rfl

/-- The exponential and the quotient are the same functions of the extended reals in the call and on the host. -/
theorem exp_eq_host {S : Shape} {φ : FTy} (x : FVec Ideal S φ) : exp x = Host.exp x := rfl
theorem divf_eq_host {S : Shape} {φ : FTy} (x y : FVec Ideal S φ) : divf x y = Host.divf x y := rfl

set_option maxHeartbeats 1000000 in
/-- The call's payload of its seven operands is the reference's attention-and-combine stage of them: the logits'
    product, the row maximum, the row sum, the context product and the combined product are each the reference's
    (the steps above); the remaining operations (the concatenations, the bias additions, the subtraction, the
    exponential, the division, the final maximum with zero) are the same operations on both sides, a cast of a vector
    to its own shape is the vector, and the changes of float format between the operations are the identity. -/
theorem pay_eq (e h0 : Vec Ideal S1x1024 .f32) (aW : Vec Ideal S512x2048 .f32) (ab : Vec Ideal S1x512 .f32)
    (enc : Vec Ideal S512x1024 .f32) (cW : Vec Ideal S1024x2048 .f32) (cb : Vec Ideal S1x1024 .f32) :
    k0_pay1 (F := Ideal) e h0 aW ab enc cW cb
      = Cert.ReferenceIdeal.Spec.GIN' (F := Ideal) e h0 enc aW ab cW cb := by
  unfold k0_pay1 Cert.ReferenceIdeal.Spec.GIN'
  simp only [truncf_id]
  rw [shapeCast_self e, shapeCast_self h0, shapeCast_self ab, shapeCast_self cb]
  rw [matKA_eq_dotRA, rowmax_eq, rowsum_eq, matKC_eq_dotRC, matmul_zero_eq_dotGeneral, exp_eq_host, divf_eq_host]
  rfl

/-! ## From the one block to the array -/

theorem zero_off : (![0, 0] : Fin 2 → Nat) = fun _ => 0 := funext fun a => by fin_cases a <;> rfl

variable (V : (c : Dev nD) → (b : Ref sig .tc) → Buf (Elt Ideal) ((c : Thread nD τ).loc b))

/-- The embedding row's block is the whole array: the one block starts at row 0 and column 0 and has the array's
    extents. -/
theorem blk0_0 (c : Dev nD) (t : Fin cfg0.N) :
    (iblk0 (F := Ideal) V c 0 t : S1x1024.Idx → Elt Ideal .f32) = V c main_v6 := by
  funext y
  show V c main_v6 (((cfg0.win 0).blk t).view.emb y) = V c main_v6 y
  refine congrArg (V c main_v6) (funext fun a => Fin.ext ?_)
  match a with
  | ⟨0, _⟩ => show win0_0.index t (0 : Fin 2) * 1 + 1 * (y 0).val = (y 0).val; have h : win0_0.index t (0 : Fin 2) = 0 := rfl; omega
  | ⟨1, _⟩ => show win0_0.index t (1 : Fin 2) * 1024 + 1 * (y 1).val = (y 1).val; have h : win0_0.index t (1 : Fin 2) = 0 := rfl; omega

/-- The hidden state's block is the whole array. -/
theorem blk0_1 (c : Dev nD) (t : Fin cfg0.N) :
    (iblk0 (F := Ideal) V c 1 t : S1x1024.Idx → Elt Ideal .f32) = V c main_v7 := by
  funext y
  show V c main_v7 (((cfg0.win 1).blk t).view.emb y) = V c main_v7 y
  refine congrArg (V c main_v7) (funext fun a => Fin.ext ?_)
  match a with
  | ⟨0, _⟩ => show win0_1.index t (0 : Fin 2) * 1 + 1 * (y 0).val = (y 0).val; have h : win0_1.index t (0 : Fin 2) = 0 := rfl; omega
  | ⟨1, _⟩ => show win0_1.index t (1 : Fin 2) * 1024 + 1 * (y 1).val = (y 1).val; have h : win0_1.index t (1 : Fin 2) = 0 := rfl; omega

/-- The encoder outputs' block is the whole array. -/
theorem blk0_2 (c : Dev nD) (t : Fin cfg0.N) :
    (iblk0 (F := Ideal) V c 2 t : S512x1024.Idx → Elt Ideal .f32) = V c main_arg2 := by
  funext y
  show V c main_arg2 (((cfg0.win 2).blk t).view.emb y) = V c main_arg2 y
  refine congrArg (V c main_arg2) (funext fun a => Fin.ext ?_)
  match a with
  | ⟨0, _⟩ => show win0_2.index t (0 : Fin 2) * 512 + 1 * (y 0).val = (y 0).val; have h : win0_2.index t (0 : Fin 2) = 0 := rfl; omega
  | ⟨1, _⟩ => show win0_2.index t (1 : Fin 2) * 1024 + 1 * (y 1).val = (y 1).val; have h : win0_2.index t (1 : Fin 2) = 0 := rfl; omega

/-- The attention weights' block is the whole array. -/
theorem blk0_3 (c : Dev nD) (t : Fin cfg0.N) :
    (iblk0 (F := Ideal) V c 3 t : S512x2048.Idx → Elt Ideal .f32) = V c main_arg4 := by
  funext y
  show V c main_arg4 (((cfg0.win 3).blk t).view.emb y) = V c main_arg4 y
  refine congrArg (V c main_arg4) (funext fun a => Fin.ext ?_)
  match a with
  | ⟨0, _⟩ => show win0_3.index t (0 : Fin 2) * 512 + 1 * (y 0).val = (y 0).val; have h : win0_3.index t (0 : Fin 2) = 0 := rfl; omega
  | ⟨1, _⟩ => show win0_3.index t (1 : Fin 2) * 2048 + 1 * (y 1).val = (y 1).val; have h : win0_3.index t (1 : Fin 2) = 0 := rfl; omega

/-- The attention bias row's block is the whole array. -/
theorem blk0_4 (c : Dev nD) (t : Fin cfg0.N) :
    (iblk0 (F := Ideal) V c 4 t : S1x512.Idx → Elt Ideal .f32) = V c main_v8 := by
  funext y
  show V c main_v8 (((cfg0.win 4).blk t).view.emb y) = V c main_v8 y
  refine congrArg (V c main_v8) (funext fun a => Fin.ext ?_)
  match a with
  | ⟨0, _⟩ => show win0_4.index t (0 : Fin 2) * 1 + 1 * (y 0).val = (y 0).val; have h : win0_4.index t (0 : Fin 2) = 0 := rfl; omega
  | ⟨1, _⟩ => show win0_4.index t (1 : Fin 2) * 512 + 1 * (y 1).val = (y 1).val; have h : win0_4.index t (1 : Fin 2) = 0 := rfl; omega

/-- The combine weights' block is the whole array. -/
theorem blk0_5 (c : Dev nD) (t : Fin cfg0.N) :
    (iblk0 (F := Ideal) V c 5 t : S1024x2048.Idx → Elt Ideal .f32) = V c main_arg6 := by
  funext y
  show V c main_arg6 (((cfg0.win 5).blk t).view.emb y) = V c main_arg6 y
  refine congrArg (V c main_arg6) (funext fun a => Fin.ext ?_)
  match a with
  | ⟨0, _⟩ => show win0_5.index t (0 : Fin 2) * 1024 + 1 * (y 0).val = (y 0).val; have h : win0_5.index t (0 : Fin 2) = 0 := rfl; omega
  | ⟨1, _⟩ => show win0_5.index t (1 : Fin 2) * 2048 + 1 * (y 1).val = (y 1).val; have h : win0_5.index t (1 : Fin 2) = 0 := rfl; omega

/-- The combine bias row's block is the whole array. -/
theorem blk0_6 (c : Dev nD) (t : Fin cfg0.N) :
    (iblk0 (F := Ideal) V c 6 t : S1x1024.Idx → Elt Ideal .f32) = V c main_v9 := by
  funext y
  show V c main_v9 (((cfg0.win 6).blk t).view.emb y) = V c main_v9 y
  refine congrArg (V c main_v9) (funext fun a => Fin.ext ?_)
  match a with
  | ⟨0, _⟩ => show win0_6.index t (0 : Fin 2) * 1 + 1 * (y 0).val = (y 0).val; have h : win0_6.index t (0 : Fin 2) = 0 := rfl; omega
  | ⟨1, _⟩ => show win0_6.index t (1 : Fin 2) * 1024 + 1 * (y 1).val = (y 1).val; have h : win0_6.index t (1 : Fin 2) = 0 := rfl; omega

/-- The result's one block, too, sits at the array's own places. -/
theorem emb0_7 (t : Fin cfg0.N) (y : S1x1024.Idx) : ((cfg0.win 7).blk t).view.emb y = y := by
  funext a; apply Fin.ext
  match a with
  | ⟨0, _⟩ => show win0_7.index t (0 : Fin 2) * 1 + 1 * (y 0).val = (y 0).val; have h : win0_7.index t (0 : Fin 2) = 0 := rfl; omega
  | ⟨1, _⟩ => show win0_7.index t (1 : Fin 2) * 1024 + 1 * (y 1).val = (y 1).val; have h : win0_7.index t (1 : Fin 2) = 0 := rfl; omega

end Val0

open Val0

variable (V : (c : Dev nD) → (b : Ref sig .tc) → Buf (Elt Ideal) ((c : Thread nD τ).loc b))

/-- THE RESULT ARRAY after the call is the reference's attention-and-combine stage of the operand arrays as the call
    finds them: the one point writes back the payload of the whole operands, which is that stage, and its block is the
    whole result array. -/
theorem gin_eq (c : Dev nD) :
    (dat0 (F := Ideal) V c).arrAt 7 cfg0.N
      = Cert.ReferenceIdeal.Spec.GIN' (F := Ideal) (V c main_v6) (V c main_v7) (V c main_arg2) (V c main_arg4) (V c main_v8) (V c main_arg6) (V c main_v9) := by
  refine (dat0 (F := Ideal) V c).arrAt_eq_of_cover 7 _ (fun t _ => ?_) (fun i => ⟨t0_0, flush0_7 t0_0, ?_⟩)
  · show (cfg0.win 7).cut (grid0.coords t) ((dat0 (F := Ideal) V c).after 7 t) = _
    rw [after0_7]
    unfold out0_7
    rw [View.canon_unit_zero zero_off]
    simp only [View.ld_unit_zero (S := S1x1024) zero_off, View.ld_unit_zero (S := S512x1024) zero_off,
      View.ld_unit_zero (S := S512x2048) zero_off, View.ld_unit_zero (S := S1x512) zero_off,
      View.ld_unit_zero (S := S1024x2048) zero_off]
    rw [pay_eq (iblk0 V c 0 t) (iblk0 V c 1 t) (iblk0 V c 3 t) (iblk0 V c 4 t) (iblk0 V c 2 t) (iblk0 V c 5 t) (iblk0 V c 6 t),
      blk0_0 V c t, blk0_1 V c t, blk0_2 V c t, blk0_3 V c t, blk0_4 V c t, blk0_5 V c t, blk0_6 V c t]
    funext y
    show Cert.ReferenceIdeal.Spec.GIN' (F := Ideal) (V c main_v6) (V c main_v7) (V c main_arg2) (V c main_arg4) (V c main_v8) (V c main_arg6) (V c main_v9) y
      = Cert.ReferenceIdeal.Spec.GIN' (F := Ideal) (V c main_v6) (V c main_v7) (V c main_arg2) (V c main_arg4) (V c main_v8) (V c main_arg6) (V c main_v9) (((cfg0.win 7).blk t).view.emb y)
    rw [emb0_7]
  · show i ∈ ((View.whole main_v10).slice (win0_7.rect t0_0)).set
    rw [View.set_slice_whole, Rect.mem_set_unit]
    intro a
    match a with
    | ⟨0, _⟩ => show win0_7.index t0_0 (0 : Fin 2) * 1 ≤ (i 0).val ∧ (i 0).val < win0_7.index t0_0 (0 : Fin 2) * 1 + 1; have h : win0_7.index t0_0 (0 : Fin 2) = 0 := rfl; have hi : (i 0).val < 1 := (i 0).isLt; omega
    | ⟨1, _⟩ => show win0_7.index t0_0 (1 : Fin 2) * 1024 ≤ (i 1).val ∧ (i 1).val < win0_7.index t0_0 (1 : Fin 2) * 1024 + 1024; have h : win0_7.index t0_0 (1 : Fin 2) = 0 := rfl; have hi : (i 1).val < 1024 := (i 1).isLt; omega

end Cert.KernelIdeal.Rgn

end
-- ==== Proof.KI.Val1.lean ====
/-
  The value of the GRU-gates call (the second of the three kernel launches) at the ideal instance, where floats are
  extended reals, every operation is exact and a change of float format is the identity. The call's two write-backs
  leave in the two gate rows the reference's gate projections of the call's operand arrays:

      gates(0, j) = Σ_k v(0, k) · W(j, k) + b(0, j),     j < 3072, k < 1024,

  with v the combined input, W, b the input-side weights and bias for the first row, and v the hidden state, W, b the
  hidden-side weights and bias for the second. The reference computes it as the row against the transposed weights,
  contracting the row's axis 1 with the transpose's axis 0, plus the bias row. The kernel computes it in two points:
  point t multiplies the row into rows 1536 t ‥ 1536 t + 1535 of W (contracting axis 1 of both, into a zero
  accumulator), adds columns 1536 t ‥ of b, and writes columns 1536 t ‥ of the gate row. Column j of the gate row is
  therefore written by point j / 1536, with the value the formula above gives, and the two blocks cover the row.
-/
import proofs.«425956_j33578054320464_3_alg».proof.Proof.KI.Reg1
import proofs.«425956_j33578054320464_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Rgn

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-- A gate projection, index by index: entry (0, j) is the row against row j of the weights, plus the bias entry. -/
def gate1 (v : S1x1024.Idx → EReal) (W : S3072x1024.Idx → EReal) (b : S1x3072.Idx → EReal) : S1x3072.Idx → EReal :=
  fun i => (∑ k : Fin 1024, v (ix2 (i 0) k) * W (ix2 (i 1) k)) + b i

theorem gi_lhs_0 (i : S1x3072.Idx) (q : Cert.ReferenceIdeal.dot_S1x1024_S1024x3072_S1x3072_1_0_0_1_n_n.contr.Idx) :
    (Cert.ReferenceIdeal.dot_S1x1024_S1024x3072_S1x3072_1_0_0_1_n_n.lhsIdx i q 0).val = (i 0).val := by
  unfold DotDims.lhsIdx
  rw [dif_neg (show ¬(0 : Fin S1x1024.rank) ∈ Cert.ReferenceIdeal.dot_S1x1024_S1024x3072_S1x3072_1_0_0_1_n_n.lhsBatch by decide), dif_pos (show (0 : Fin S1x1024.rank) ∈ Cert.ReferenceIdeal.dot_S1x1024_S1024x3072_S1x3072_1_0_0_1_n_n.lhsNonContracting by decide)]
  rfl
theorem gi_lhs_1 (i : S1x3072.Idx) (q : Cert.ReferenceIdeal.dot_S1x1024_S1024x3072_S1x3072_1_0_0_1_n_n.contr.Idx) :
    (Cert.ReferenceIdeal.dot_S1x1024_S1024x3072_S1x3072_1_0_0_1_n_n.lhsIdx i q 1).val = (q ⟨0, by decide⟩).val :=
  Cert.ReferenceIdeal.dot_S1x1024_S1024x3072_S1x3072_1_0_0_1_n_n.lhsIdx_val_of_single rfl i q
theorem gi_rhs_0 (i : S1x3072.Idx) (q : Cert.ReferenceIdeal.dot_S1x1024_S1024x3072_S1x3072_1_0_0_1_n_n.contr.Idx) :
    (Cert.ReferenceIdeal.dot_S1x1024_S1024x3072_S1x3072_1_0_0_1_n_n.rhsIdx i q 0).val = (q ⟨0, by decide⟩).val :=
  Cert.ReferenceIdeal.dot_S1x1024_S1024x3072_S1x3072_1_0_0_1_n_n.rhsIdx_val_of_single rfl i q
theorem gi_rhs_1 (i : S1x3072.Idx) (q : Cert.ReferenceIdeal.dot_S1x1024_S1024x3072_S1x3072_1_0_0_1_n_n.contr.Idx) :
    (Cert.ReferenceIdeal.dot_S1x1024_S1024x3072_S1x3072_1_0_0_1_n_n.rhsIdx i q 1).val = (i 1).val := by
  unfold DotDims.rhsIdx
  rw [dif_neg (show ¬(1 : Fin Cert.ReferenceIdeal.S1024x3072.rank) ∈ Cert.ReferenceIdeal.dot_S1x1024_S1024x3072_S1x3072_1_0_0_1_n_n.rhsBatch by decide), dif_pos (show (1 : Fin Cert.ReferenceIdeal.S1024x3072.rank) ∈ Cert.ReferenceIdeal.dot_S1x1024_S1024x3072_S1x3072_1_0_0_1_n_n.rhsNonContracting by decide)]
  rfl

/-- The reference's gate projection is `gate1`: the host's contraction of axis 1 with axis 0 of the transposed weights,
    read at an index, is the sum over the shared axis, and the transpose read at (k, j) is the weights at (j, k). -/
theorem GI'_eq_gate1 (v : FVec Ideal S1x1024 .f32) (W : FVec Ideal S3072x1024 .f32) (b : FVec Ideal S1x3072 .f32) :
    Cert.ReferenceIdeal.Spec.GI' (F := Ideal) v W b = gate1 v W b := by
  funext i
  unfold Cert.ReferenceIdeal.Spec.GI' gate1
  rw [addf_apply]
  refine congrArg (· + b i) ?_
  simp only [Host.dotGeneral]
  rw [Ideal.dotGeneral_apply, ← Equiv.sum_comp (contrEquiv1 Cert.ReferenceIdeal.dot_S1x1024_S1024x3072_S1x3072_1_0_0_1_n_n 1024 rfl rfl).symm]
  refine Finset.sum_congr rfl fun k _ => ?_
  have hk := contrEquiv1_symm_val Cert.ReferenceIdeal.dot_S1x1024_S1024x3072_S1x3072_1_0_0_1_n_n 1024 rfl rfl k
  have el : Cert.ReferenceIdeal.dot_S1x1024_S1024x3072_S1x3072_1_0_0_1_n_n.lhsIdx i ((contrEquiv1 Cert.ReferenceIdeal.dot_S1x1024_S1024x3072_S1x3072_1_0_0_1_n_n 1024 rfl rfl).symm k) = ix2 (i 0) k := funext fun a => Fin.ext (by
    match a with
    | ⟨0, _⟩ => exact gi_lhs_0 _ _
    | ⟨1, _⟩ => exact (gi_lhs_1 _ _).trans hk)
  rw [el]
  refine congrArg (v (ix2 (i 0) k) * ·) ?_
  refine transpose_apply [1, 0] W _ _ (ix2 (i 1) k) (fun b => ?_)
  match b with
  | ⟨0, _⟩ => exact ((gi_rhs_0 _ _).trans hk).symm
  | ⟨1, _⟩ => exact (gi_rhs_1 _ _).symm

/-! ## The body's arithmetic at an index -/

theorem mm1_lhs_0 (j : S1x1536.Idx) (q : dot_S1x1024_S1536x1024_S1x1536_1_1_0_0_n_n.contr.Idx) :
    (dot_S1x1024_S1536x1024_S1x1536_1_1_0_0_n_n.lhsIdx j q 0).val = (j 0).val := by
  unfold DotDims.lhsIdx
  rw [dif_neg (show ¬(0 : Fin S1x1024.rank) ∈ dot_S1x1024_S1536x1024_S1x1536_1_1_0_0_n_n.lhsBatch by decide), dif_pos (show (0 : Fin S1x1024.rank) ∈ dot_S1x1024_S1536x1024_S1x1536_1_1_0_0_n_n.lhsNonContracting by decide)]
  rfl
theorem mm1_lhs_1 (j : S1x1536.Idx) (q : dot_S1x1024_S1536x1024_S1x1536_1_1_0_0_n_n.contr.Idx) :
    (dot_S1x1024_S1536x1024_S1x1536_1_1_0_0_n_n.lhsIdx j q 1).val = (q ⟨0, by decide⟩).val :=
  dot_S1x1024_S1536x1024_S1x1536_1_1_0_0_n_n.lhsIdx_val_of_single rfl j q
theorem mm1_rhs_0 (j : S1x1536.Idx) (q : dot_S1x1024_S1536x1024_S1x1536_1_1_0_0_n_n.contr.Idx) :
    (dot_S1x1024_S1536x1024_S1x1536_1_1_0_0_n_n.rhsIdx j q 0).val = (j 1).val := by
  unfold DotDims.rhsIdx
  rw [dif_neg (show ¬(0 : Fin S1536x1024.rank) ∈ dot_S1x1024_S1536x1024_S1x1536_1_1_0_0_n_n.rhsBatch by decide), dif_pos (show (0 : Fin S1536x1024.rank) ∈ dot_S1x1024_S1536x1024_S1x1536_1_1_0_0_n_n.rhsNonContracting by decide)]
  rfl
theorem mm1_rhs_1 (j : S1x1536.Idx) (q : dot_S1x1024_S1536x1024_S1x1536_1_1_0_0_n_n.contr.Idx) :
    (dot_S1x1024_S1536x1024_S1x1536_1_1_0_0_n_n.rhsIdx j q 1).val = (q ⟨0, by decide⟩).val :=
  dot_S1x1024_S1536x1024_S1x1536_1_1_0_0_n_n.rhsIdx_val_of_single rfl j q

/-- The body's value at an index of its block: the row against row `j 1` of the weight block, plus the bias entry.
    The change of format and the cast of a shape to itself are the identity; the product into the zero accumulator
    is the sum over the shared axis. -/
theorem k1_pay1_apply (x0 : Vec Ideal S1x1024 .f32) (x2 : Vec Ideal S1536x1024 .f32) (x4 : Vec Ideal S1x1536 .f32) (j : S1x1536.Idx) :
    k1_pay1 (F := Ideal) x0 x2 x4 j = (∑ k : Fin 1024, x0 (ix2 (j 0) k) * x2 (ix2 (j 1) k)) + x4 j := by
  unfold k1_pay1
  rw [addf_apply, shapeCast_self, shapeCast_self]
  refine congrArg (· + x4 j) ?_
  simp only [matmul]
  rw [Ideal.matmul_constant_zero_apply, ← Equiv.sum_comp (contrEquiv1 dot_S1x1024_S1536x1024_S1x1536_1_1_0_0_n_n 1024 rfl rfl).symm]
  refine Finset.sum_congr rfl fun k _ => ?_
  have hk := contrEquiv1_symm_val dot_S1x1024_S1536x1024_S1x1536_1_1_0_0_n_n 1024 rfl rfl k
  have el : dot_S1x1024_S1536x1024_S1x1536_1_1_0_0_n_n.lhsIdx j ((contrEquiv1 dot_S1x1024_S1536x1024_S1x1536_1_1_0_0_n_n 1024 rfl rfl).symm k) = ix2 (j 0) k := funext fun a => Fin.ext (by
    match a with
    | ⟨0, _⟩ => exact mm1_lhs_0 _ _
    | ⟨1, _⟩ => exact (mm1_lhs_1 _ _).trans hk)
  have er : dot_S1x1024_S1536x1024_S1x1536_1_1_0_0_n_n.rhsIdx j ((contrEquiv1 dot_S1x1024_S1536x1024_S1x1536_1_1_0_0_n_n 1024 rfl rfl).symm k) = ix2 (j 1) k := funext fun a => Fin.ext (by
    match a with
    | ⟨0, _⟩ => exact mm1_rhs_0 _ _
    | ⟨1, _⟩ => exact (mm1_rhs_1 _ _).trans hk)
  rw [truncf_apply, truncf_apply, el, er]
  rfl

/-- The second payload is the same term. -/
theorem k1_pay2_eq (x1 : Vec Ideal S1x1024 .f32) (x3 : Vec Ideal S1536x1024 .f32) (x5 : Vec Ideal S1x1536 .f32) :
    k1_pay2 (F := Ideal) x1 x3 x5 = k1_pay1 (F := Ideal) x1 x3 x5 := rfl

theorem hz1 : (![0, 0] : Fin 2 → Nat) = fun _ => 0 := funext fun a => by fin_cases a <;> rfl

/-- What the body leaves in the input-side gates' buffer, at an index. -/
theorem out1_6_apply (x0 : Vec Ideal S1x1024 .f32) (x2 : Vec Ideal S1536x1024 .f32) (x4 : Vec Ideal S1x1536 .f32) (j : S1x1536.Idx) :
    out1_6 (F := Ideal) x0 x2 x4 j = (∑ k : Fin 1024, x0 (ix2 (j 0) k) * x2 (ix2 (j 1) k)) + x4 j := by
  unfold out1_6
  rw [View.canon_unit_zero hz1]
  simp only [View.ld_unit_zero (S := S1x1024) hz1, View.ld_unit_zero (S := S1536x1024) hz1, View.ld_unit_zero (S := S1x1536) hz1]
  exact k1_pay1_apply x0 x2 x4 j

/-- The hidden-side gates' buffer likewise. -/
theorem out1_7_apply (x1 : Vec Ideal S1x1024 .f32) (x3 : Vec Ideal S1536x1024 .f32) (x5 : Vec Ideal S1x1536 .f32) (j : S1x1536.Idx) :
    out1_7 (F := Ideal) x1 x3 x5 j = (∑ k : Fin 1024, x1 (ix2 (j 0) k) * x3 (ix2 (j 1) k)) + x5 j :=
  out1_6_apply x1 x3 x5 j

/-! ## From the blocks to the arrays -/

/-- The index maps, decided over the two points: the row operands' blocks stay at the origin; the weights' blocks
    move down the rows and the bias and gate rows' blocks along the columns, all with the point. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

/-- Each of the two column chunks is some point's. -/
theorem idx_onto1 : ∀ q : Fin 2, ∃ t : Fin cfg1.N, t.val = q.val :=
  (by decide +kernel : ∀ q : Fin 2, ∃ t : Fin grid1.N, t.val = q.val)

/-- One point's work, over variables: when the row block is the row `v`, the weight block is rows
    `1536 q ‥` of `W` and the bias block columns `1536 q ‥` of `b` (`e0`, `e2`, `e4` place a block's index in
    its array), what the body leaves at `j` is the gate projection at the place `e6` gives `j` in columns `1536 q ‥`. -/
theorem block_gate1 (v : S1x1024.Idx → EReal) (W : S3072x1024.Idx → EReal) (b : S1x3072.Idx → EReal)
    (x0 : Vec Ideal S1x1024 .f32) (x2 : Vec Ideal S1536x1024 .f32) (x4 : Vec Ideal S1x1536 .f32)
    (e0 : S1x1024.Idx → S1x1024.Idx) (e2 : S1536x1024.Idx → S3072x1024.Idx) (e4 e6 : S1x1536.Idx → S1x3072.Idx)
    (h0 : x0 = fun y => v (e0 y)) (h2 : x2 = fun y => W (e2 y)) (h4 : x4 = fun y => b (e4 y)) (q : Nat)
    (he0 : ∀ y, (e0 y 0).val = (y 0).val ∧ (e0 y 1).val = (y 1).val)
    (he2 : ∀ y, (e2 y 0).val = q * 1536 + (y 0).val ∧ (e2 y 1).val = (y 1).val)
    (he4 : ∀ y, (e4 y 0).val = (y 0).val ∧ (e4 y 1).val = q * 1536 + (y 1).val)
    (he6 : ∀ y, (e6 y 0).val = (y 0).val ∧ (e6 y 1).val = q * 1536 + (y 1).val)
    (j : S1x1536.Idx) :
    out1_6 (F := Ideal) x0 x2 x4 j = gate1 v W b (e6 j) := by
  rw [out1_6_apply]
  subst h0 h2 h4
  unfold gate1
  have e46 : e4 j = e6 j := funext fun a => Fin.ext (by
    match a with
    | ⟨0, _⟩ => exact (he4 j).1.trans (he6 j).1.symm
    | ⟨1, _⟩ => exact (he4 j).2.trans (he6 j).2.symm)
  have ev : ∀ k : Fin 1024, e0 (ix2 (j 0) k) = ix2 (e6 j 0) k := fun k => funext fun a => Fin.ext (by
    match a with
    | ⟨0, _⟩ => exact (he0 _).1.trans (he6 j).1.symm
    | ⟨1, _⟩ => exact (he0 _).2)
  have eW : ∀ k : Fin 1024, e2 (ix2 (j 1) k) = ix2 (e6 j 1) k := fun k => funext fun a => Fin.ext (by
    match a with
    | ⟨0, _⟩ => exact (he2 _).1.trans (he6 j).2.symm
    | ⟨1, _⟩ => exact (he2 _).2)
  show (∑ k : Fin 1024, v (e0 (ix2 (j 0) k)) * W (e2 (ix2 (j 1) k))) + b (e4 j) = _
  rw [e46]
  refine congrArg (· + b (e6 j)) (Finset.sum_congr rfl fun k _ => ?_)
  rw [ev k, eW k]
  rfl

/-- What point `t` writes back to the input-side gate row is its block of the gate projection of the launch's
    operand arrays. -/
theorem flushed1_6_eq (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal) (gate1 (V c main_v10) (V c main_arg8) (V c main_v11)) := by
  show (cfg1.win 6).cut (grid1.coords t) ((dat1 (F := Ideal) V c).after 6 t) = _
  rw [after1_6]
  obtain ⟨a00, a01, a10, a11, a20, a21, a30, a31, a40, a41, a50, a51, a60, a61, a70, a71⟩ := idx_facts1 t
  funext j
  show out1_6 (F := Ideal) (iblk1 V c 0 t) (iblk1 V c 2 t) (iblk1 V c 4 t) j = gate1 (V c main_v10) (V c main_arg8) (V c main_v11) (((cfg1.win 6).blk t).view.emb j)
  refine block_gate1 (V c main_v10) (V c main_arg8) (V c main_v11) _ _ _ ((cfg1.win 0).blk t).view.emb ((cfg1.win 2).blk t).view.emb ((cfg1.win 4).blk t).view.emb ((cfg1.win 6).blk t).view.emb rfl rfl rfl t.val ?_ ?_ ?_ ?_ j
  · intro y
    refine ⟨?_, ?_⟩
    · show win1_0.index t (0 : Fin 2) * 1 + 1 * (y 0).val = (y 0).val; omega
    · show win1_0.index t (1 : Fin 2) * 1024 + 1 * (y 1).val = (y 1).val; omega
  · intro y
    refine ⟨?_, ?_⟩
    · show win1_2.index t (0 : Fin 2) * 1536 + 1 * (y 0).val = t.val * 1536 + (y 0).val; omega
    · show win1_2.index t (1 : Fin 2) * 1024 + 1 * (y 1).val = (y 1).val; omega
  · intro y
    refine ⟨?_, ?_⟩
    · show win1_4.index t (0 : Fin 2) * 1 + 1 * (y 0).val = (y 0).val; omega
    · show win1_4.index t (1 : Fin 2) * 1536 + 1 * (y 1).val = t.val * 1536 + (y 1).val; omega
  · intro y
    refine ⟨?_, ?_⟩
    · show win1_6.index t (0 : Fin 2) * 1 + 1 * (y 0).val = (y 0).val; omega
    · show win1_6.index t (1 : Fin 2) * 1536 + 1 * (y 1).val = t.val * 1536 + (y 1).val; omega

/-- What point `t` writes back to the hidden-side gate row, likewise, from the hidden state and its weights and bias. -/
theorem flushed1_7_eq (V : (c : Dev nD) → (b : Ref sig .tc) → Buf (Elt Ideal) ((c : Thread nD τ).loc b)) (c : Dev nD) (t : Fin cfg1.N) :
    (dat1 (F := Ideal) V c).flushed 7 t = ((cfg1.win 7).blk t).view.read (Elt Ideal) (gate1 (V c main_v7) (V c main_arg9) (V c main_v12)) := by
  show (cfg1.win 7).cut (grid1.coords t) ((dat1 (F := Ideal) V c).after 7 t) = _
  rw [after1_7]
  obtain ⟨a00, a01, a10, a11, a20, a21, a30, a31, a40, a41, a50, a51, a60, a61, a70, a71⟩ := idx_facts1 t
  funext j
  show out1_6 (F := Ideal) (iblk1 V c 1 t) (iblk1 V c 3 t) (iblk1 V c 5 t) j = gate1 (V c main_v7) (V c main_arg9) (V c main_v12) (((cfg1.win 7).blk t).view.emb j)
  refine block_gate1 (V c main_v7) (V c main_arg9) (V c main_v12) _ _ _ ((cfg1.win 1).blk t).view.emb ((cfg1.win 3).blk t).view.emb ((cfg1.win 5).blk t).view.emb ((cfg1.win 7).blk t).view.emb rfl rfl rfl t.val ?_ ?_ ?_ ?_ j
  · intro y
    refine ⟨?_, ?_⟩
    · show win1_1.index t (0 : Fin 2) * 1 + 1 * (y 0).val = (y 0).val; omega
    · show win1_1.index t (1 : Fin 2) * 1024 + 1 * (y 1).val = (y 1).val; omega
  · intro y
    refine ⟨?_, ?_⟩
    · show win1_3.index t (0 : Fin 2) * 1536 + 1 * (y 0).val = t.val * 1536 + (y 0).val; omega
    · show win1_3.index t (1 : Fin 2) * 1024 + 1 * (y 1).val = (y 1).val; omega
  · intro y
    refine ⟨?_, ?_⟩
    · show win1_5.index t (0 : Fin 2) * 1 + 1 * (y 0).val = (y 0).val; omega
    · show win1_5.index t (1 : Fin 2) * 1536 + 1 * (y 1).val = t.val * 1536 + (y 1).val; omega
  · intro y
    refine ⟨?_, ?_⟩
    · show win1_7.index t (0 : Fin 2) * 1 + 1 * (y 0).val = (y 0).val; omega
    · show win1_7.index t (1 : Fin 2) * 1536 + 1 * (y 1).val = t.val * 1536 + (y 1).val; omega

/-- An index of the input-side gate row is in point `t`'s block iff each coordinate is in the block's range. -/
theorem mem_blk1_6 (t : Fin cfg1.N) (i : S1x3072.Idx) :
    i ∈ ((cfg1.win 6).blk t).view.set ↔ ∀ a : Fin 2, win1_6.index t a * S1x1536.size a ≤ (i a).val ∧ (i a).val < win1_6.index t a * S1x1536.size a + S1x1536.size a := by
  show i ∈ ((View.whole main_v13_0).slice (win1_6.rect t)).set ↔ _
  rw [View.set_slice_whole, Rect.mem_set_unit]
  exact Iff.rfl

/-- The same for the hidden-side gate row. -/
theorem mem_blk1_7 (t : Fin cfg1.N) (i : S1x3072.Idx) :
    i ∈ ((cfg1.win 7).blk t).view.set ↔ ∀ a : Fin 2, win1_7.index t a * S1x1536.size a ≤ (i a).val ∧ (i a).val < win1_7.index t a * S1x1536.size a + S1x1536.size a := by
  show i ∈ ((View.whole main_v13_1).slice (win1_7.rect t)).set ↔ _
  rw [View.set_slice_whole, Rect.mem_set_unit]
  exact Iff.rfl

/-- The two points' blocks cover the input-side gate row: column `j` is in the block of point `j / 1536`. -/
theorem cover1_6 (i : S1x3072.Idx) : ∃ t : Fin cfg1.N, (cfg1.win 6).flush t = true ∧ i ∈ ((cfg1.win 6).blk t).view.set := by
  have hi0 : (i 0).val < 1 := (i 0).isLt
  have hi1 : (i 1).val < 3072 := (i 1).isLt
  obtain ⟨t, ht⟩ := idx_onto1 ⟨(i 1).val / 1536, by omega⟩
  have ht' : t.val = (i 1).val / 1536 := ht
  obtain ⟨a00, a01, a10, a11, a20, a21, a30, a31, a40, a41, a50, a51, a60, a61, a70, a71⟩ := idx_facts1 t
  refine ⟨t, flush1_6 t, ?_⟩
  rw [mem_blk1_6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 1536 ≤ (i 1).val ∧ (i 1).val < win1_6.index t (1 : Fin 2) * 1536 + 1536; omega

/-- And the hidden-side gate row. -/
theorem cover1_7 (i : S1x3072.Idx) : ∃ t : Fin cfg1.N, (cfg1.win 7).flush t = true ∧ i ∈ ((cfg1.win 7).blk t).view.set := by
  have hi0 : (i 0).val < 1 := (i 0).isLt
  have hi1 : (i 1).val < 3072 := (i 1).isLt
  obtain ⟨t, ht⟩ := idx_onto1 ⟨(i 1).val / 1536, by omega⟩
  have ht' : t.val = (i 1).val / 1536 := ht
  obtain ⟨a00, a01, a10, a11, a20, a21, a30, a31, a40, a41, a50, a51, a60, a61, a70, a71⟩ := idx_facts1 t
  refine ⟨t, flush1_7 t, ?_⟩
  rw [mem_blk1_7]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 1536 ≤ (i 1).val ∧ (i 1).val < win1_7.index t (1 : Fin 2) * 1536 + 1536; omega

/-! ## The launch's value -/

/-- After the launch the input-side gate row holds the reference's gate projection of the combined input against
    the input weights and bias, as the launch finds them. -/
theorem gi_eq (V : (c : Dev nD) → (b : Ref sig .tc) → Buf (Elt Ideal) ((c : Thread nD τ).loc b)) (c : Dev nD) :
    (dat1 (F := Ideal) V c).arrAt 6 cfg1.N = Cert.ReferenceIdeal.Spec.GI' (F := Ideal) (V c main_v10) (V c main_arg8) (V c main_v11) := by
  rw [GI'_eq_gate1]
  exact (dat1 (F := Ideal) V c).arrAt_eq_of_cover 6 (gate1 (V c main_v10) (V c main_arg8) (V c main_v11)) (fun t _ => flushed1_6_eq V c t) cover1_6

/-- And the hidden-side gate row the gate projection of the hidden state against the hidden weights and bias. -/
theorem gh_eq (V : (c : Dev nD) → (b : Ref sig .tc) → Buf (Elt Ideal) ((c : Thread nD τ).loc b)) (c : Dev nD) :
    (dat1 (F := Ideal) V c).arrAt 7 cfg1.N = Cert.ReferenceIdeal.Spec.GI' (F := Ideal) (V c main_v7) (V c main_arg9) (V c main_v12) := by
  rw [GI'_eq_gate1]
  exact (dat1 (F := Ideal) V c).arrAt_eq_of_cover 7 (gate1 (V c main_v7) (V c main_arg9) (V c main_v12)) (fun t _ => flushed1_7_eq V c t) cover1_7

end Cert.KernelIdeal.Rgn

end
-- ==== Proof.KI.Val2.lean ====
/-
  The value of the output-projection call (the third of the three kernel launches) at the ideal instance: floats are
  extended reals, every operation is exact, a change of float format is the identity. What the call's seventeen
  write-backs leave in the logits row is the reference's output projection of the call's operand arrays: the new
  hidden state's row against the transposed projection matrix, plus the bias row.

  Three steps. The specification is written index by index (`projAt`: entry (0, j) is Σ_k h(0, k) · W(j, k) + b(0, j)),
  and the reference's stage is that function: its product contracts the row with the TRANSPOSED matrix, and the
  transposed matrix at (k, j) is the matrix at (j, k). At a point t, column y of the logits' staging buffer after the
  body is Σ_k h(0, k) · wbuf(y, k) + bbuf(0, y); for a column inside the array the two staging buffers read the
  matrix's row and the bias row's column 3072 t + y, so what point t writes back — the columns inside the array, and
  no others — is block t of `projAt` of the arrays. The seventeen cut blocks cover the row (50257 = 16 · 3072 + 1105:
  column j lies in the block of point j / 3072, and the last block keeps 1105 columns), so the row ends holding
  `projAt` of the arrays. What the last point's staging buffers hold past the arrays' end is never read here.
-/
import proofs.«425956_j33578054320464_3_alg».proof.Proof.KI.Reg2
import proofs.«425956_j33578054320464_3_alg».proof.Proof.Spec
import Idealize.ShloMosaic.Lib.Pipeline.Value
import Idealize.ShloMosaic.Lib.Pipeline.FrameBody
import Idealize.ShloMosaic.Lib.ValueIdx
import Idealize.ShloMosaic.PureOps.Ideal.Laws

set_option maxRecDepth 16384

noncomputable section

/-! ## The output projection, index by index -/

namespace Cert.OutProj

open Idealize.ShloMosaic Idealize.ShloMosaic.ValueIdx

/-- The output projection of a row `h` of 1024 entries against a matrix `W` of 50257 rows of 1024 entries, plus a bias
    row `b`: entry `(0, j)` is `Σ_k h(0, k) · W(j, k) + b(0, j)`. -/
def projAt (h : (⟨2, ![1, 1024]⟩ : Shape).Idx → Elt Ideal .f32) (W : (⟨2, ![50257, 1024]⟩ : Shape).Idx → Elt Ideal .f32)
    (b : (⟨2, ![1, 50257]⟩ : Shape).Idx → Elt Ideal .f32) : (⟨2, ![1, 50257]⟩ : Shape).Idx → Elt Ideal .f32 :=
  fun i => (∑ k : Fin 1024, h (ix2 (i 0) k) * W (ix2 (i 1) k)) + b i

end Cert.OutProj

/-! ## The reference's output projection is that function -/

namespace Cert.ReferenceIdeal.OutProj

open Cert.ReferenceIdeal Cert.ReferenceIdeal.Gen Idealize.ShloMosaic Idealize.ShloMosaic.TcCoe Idealize.ShloMosaic.StableHlo
open Idealize.ShloMosaic.ValueIdx Cert.OutProj

/-- The row operand is read at the result's row … -/
theorem lhs_proj_0 (i : S1x50257.Idx) (q : dot_S1x1024_S1024x50257_S1x50257_1_0_0_1_n_n.contr.Idx) :
    (dot_S1x1024_S1024x50257_S1x50257_1_0_0_1_n_n.lhsIdx i q 0).val = (i 0).val := by
  unfold DotDims.lhsIdx
  rw [dif_neg (show ¬(0 : Fin S1x1024.rank) ∈ dot_S1x1024_S1024x50257_S1x50257_1_0_0_1_n_n.lhsBatch by decide), dif_pos (show (0 : Fin S1x1024.rank) ∈ dot_S1x1024_S1024x50257_S1x50257_1_0_0_1_n_n.lhsNonContracting by decide)]
  rfl
/-- … and the contracted column; -/
theorem lhs_proj_1 (i : S1x50257.Idx) (q : dot_S1x1024_S1024x50257_S1x50257_1_0_0_1_n_n.contr.Idx) :
    (dot_S1x1024_S1024x50257_S1x50257_1_0_0_1_n_n.lhsIdx i q 1).val = (q ⟨0, by decide⟩).val :=
  dot_S1x1024_S1024x50257_S1x50257_1_0_0_1_n_n.lhsIdx_val_of_single rfl i q
/-- the transposed matrix at the contracted row … -/
theorem rhs_proj_0 (i : S1x50257.Idx) (q : dot_S1x1024_S1024x50257_S1x50257_1_0_0_1_n_n.contr.Idx) :
    (dot_S1x1024_S1024x50257_S1x50257_1_0_0_1_n_n.rhsIdx i q 0).val = (q ⟨0, by decide⟩).val :=
  dot_S1x1024_S1024x50257_S1x50257_1_0_0_1_n_n.rhsIdx_val_of_single rfl i q
/-- … and the result's column. -/
theorem rhs_proj_1 (i : S1x50257.Idx) (q : dot_S1x1024_S1024x50257_S1x50257_1_0_0_1_n_n.contr.Idx) :
    (dot_S1x1024_S1024x50257_S1x50257_1_0_0_1_n_n.rhsIdx i q 1).val = (i 1).val := by
  unfold DotDims.rhsIdx
  rw [dif_neg (show ¬(1 : Fin S1024x50257.rank) ∈ dot_S1x1024_S1024x50257_S1x50257_1_0_0_1_n_n.rhsBatch by decide), dif_pos (show (1 : Fin S1024x50257.rank) ∈ dot_S1x1024_S1024x50257_S1x50257_1_0_0_1_n_n.rhsNonContracting by decide)]
  rfl

/-- The reference's output projection — the row against the TRANSPOSED matrix, contracted over the 1024 columns, plus
    the bias row — is `projAt`: the transposed matrix at `(k, j)` is the matrix at `(j, k)`. -/
theorem LOGITS'_eq_projAt (h : FVec Ideal S1x1024 .f32) (W : FVec Ideal S50257x1024 .f32) (b : FVec Ideal S1x50257 .f32) :
    Spec.LOGITS' (F := Ideal) h W b = projAt h W b := by
  funext i
  unfold Spec.LOGITS' projAt
  rw [addf_apply]
  simp only [Host.dotGeneral]
  rw [Ideal.dotGeneral_apply, ← Equiv.sum_comp (contrEquiv1 dot_S1x1024_S1024x50257_S1x50257_1_0_0_1_n_n 1024 rfl rfl).symm]
  congr 1
  refine Finset.sum_congr rfl fun k _ => ?_
  have hk := contrEquiv1_symm_val dot_S1x1024_S1024x50257_S1x50257_1_0_0_1_n_n 1024 rfl rfl k
  have el : dot_S1x1024_S1024x50257_S1x50257_1_0_0_1_n_n.lhsIdx i ((contrEquiv1 dot_S1x1024_S1024x50257_S1x50257_1_0_0_1_n_n 1024 rfl rfl).symm k) = ix2 (i 0) k := funext fun a => Fin.ext (by
    match a with
    | ⟨0, _⟩ => exact lhs_proj_0 _ _
    | ⟨1, _⟩ => exact (lhs_proj_1 _ _).trans hk)
  have er : dot_S1x1024_S1024x50257_S1x50257_1_0_0_1_n_n.rhsIdx i ((contrEquiv1 dot_S1x1024_S1024x50257_S1x50257_1_0_0_1_n_n 1024 rfl rfl).symm k) = ix2 k (i 1) := funext fun a => Fin.ext (by
    match a with
    | ⟨0, _⟩ => exact (rhs_proj_0 _ _).trans hk
    | ⟨1, _⟩ => exact rhs_proj_1 _ _)
  rw [el, er]
  congr 1
  exact transpose_apply [1, 0] W transposes_S50257x1024_S1024x50257_1_0 (ix2 k (i 1)) (ix2 (i 1) k) (fun b => match b with
    | ⟨0, _⟩ => rfl
    | ⟨1, _⟩ => rfl)

end Cert.ReferenceIdeal.OutProj

/-! ## What the third launch's body leaves, at an index -/

namespace Cert.KernelIdeal.Rgn

open Cert.KernelIdeal Cert.KernelIdeal.Gen
open Idealize.ShloMosaic Idealize.ShloMosaic.TcCoe Idealize.ShloMosaic.ValueIdx
open Idealize.ShloMosaic.Pipeline (Dat Cfg Window)
open Cert.OutProj

theorem zero_offsets : (![0, 0] : Fin 2 → Nat) = fun _ => 0 := funext fun a => by fin_cases a <;> rfl

/-- The body's product reads its row operand at the result's row … -/
theorem lhs_mm_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl
/-- … and the contracted column; -/
theorem lhs_mm_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q
/-- its matrix operand, contracted along its rows' entries, at the row the result's column names … -/
theorem rhs_mm_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl
/-- … and the contracted column. -/
theorem rhs_mm_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

/-- Column `y` of the logits' staging buffer after the body: the hidden-state buffer's row against row `y` of the
    projection rows' buffer, plus the bias buffer's column `y` (at the ideal instance the two changes of format are the
    identity, the casts of a shape to itself too, and the product into the zero accumulator is the sum). -/
theorem logits_block_apply (x0 : Vec Ideal S1x1024 .f32) (x1 : Vec Ideal S3072x1024 .f32) (x2 : Vec Ideal S1x3072 .f32) (y : S1x3072.Idx) :
    out2_3 (F := Ideal) x0 x1 x2 y = (∑ k : Fin 1024, x0 (ix2 (y 0) k) * x1 (ix2 (y 1) k)) + x2 y := by
  unfold out2_3
  rw [View.canon_unit_zero zero_offsets]
  simp only [View.ld_unit_zero (S := S1x1024) zero_offsets, View.ld_unit_zero (S := S3072x1024) zero_offsets, View.ld_unit_zero (S := S1x3072) zero_offsets]
  unfold k2_pay1
  rw [addf_apply, shapeCast_self, shapeCast_self]
  unfold Idealize.ShloMosaic.matmul
  rw [Ideal.matmul_constant_zero_apply, ← Equiv.sum_comp (contrEquiv1 dot_S1x1024_S3072x1024_S1x3072_1_1_0_0_n_n 1024 rfl rfl).symm]
  congr 1
  refine Finset.sum_congr rfl fun k _ => ?_
  have hk := contrEquiv1_symm_val dot_S1x1024_S3072x1024_S1x3072_1_1_0_0_n_n 1024 rfl rfl k
  have el : dot_S1x1024_S3072x1024_S1x3072_1_1_0_0_n_n.lhsIdx y ((contrEquiv1 dot_S1x1024_S3072x1024_S1x3072_1_1_0_0_n_n 1024 rfl rfl).symm k) = ix2 (y 0) k := funext fun a => Fin.ext (by
    match a with
    | ⟨0, _⟩ => exact lhs_mm_0 _ _
    | ⟨1, _⟩ => exact (lhs_mm_1 _ _).trans hk)
  have er : dot_S1x1024_S3072x1024_S1x3072_1_1_0_0_n_n.rhsIdx y ((contrEquiv1 dot_S1x1024_S3072x1024_S1x3072_1_1_0_0_n_n 1024 rfl rfl).symm k) = ix2 (y 1) k := funext fun a => Fin.ext (by
    match a with
    | ⟨0, _⟩ => exact rhs_mm_0 _ _
    | ⟨1, _⟩ => exact (rhs_mm_1 _ _).trans hk)
  rw [el, er]
  rfl

end Cert.KernelIdeal.Rgn

/-! ## From the seventeen write-backs to the logits array -/

namespace Cert.KernelIdeal.Rgn

open Cert.KernelIdeal Cert.KernelIdeal.Gen
open Idealize.ShloMosaic Idealize.ShloMosaic.TcCoe Idealize.ShloMosaic.ValueIdx
open Idealize.ShloMosaic.Pipeline (Dat Cfg Window)
open Cert.OutProj

variable (V : (c : Dev nD) → (b : Ref sig .tc) → Buf (Elt Ideal) ((c : Thread nD τ).loc b))

/-- Inside the part a fetch moves, a filled buffer holds the block. -/
theorem fill_inside {G : Pipeline.Grid} (w : Window sig G) {α : Type} (i : G.Coords) (d : w.block.Idx → α) (g : (w.xblock i).Idx → α)
    (u : w.block.Idx) (h : ∀ a, (u a).val < w.xsize i a) : w.fill i d g u = g fun a => ⟨(u a).val, h a⟩ := by
  unfold Window.fill; rw [dif_pos ((w.moved_iff i u).mpr h)]

/-- The four windows' block indices and cut sizes at each of the seventeen points: the hidden state's block is the
    whole row at every point; point `t` takes block `t` of the matrix's rows, of the bias row's columns and of the
    logits row's columns; the three cut alike, to the columns below 50257. -/
theorem point_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = win2_3.xsize (grid2.coords t) (1 : Fin 2)
    ∧ win2_1.xsize (grid2.coords t) (1 : Fin 2) = 1024
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ 3072 * t.val + win2_3.xsize (grid2.coords t) (1 : Fin 2) = min (3072 * (t.val + 1)) 50257 :=
  (by decide +kernel : ∀ t : Fin grid2.N, _)

/-- The hidden state's block is the whole row. -/
theorem iblk2_0_apply (c : Dev nD) (t : Fin cfg2.N) (z : S1x1024.Idx) : iblk2 V c 0 t z = V c main_v41 z := by
  obtain ⟨a0, a1, -⟩ := point_facts2 t
  show V c main_v41 (((cfg2.win 0).blk t).view.emb z) = V c main_v41 z
  refine congrArg _ (funext fun a => Fin.ext ?_)
  match a with
  | ⟨0, _⟩ => show win2_0.index t (0 : Fin 2) * 1 + 1 * (z 0).val = (z 0).val; omega
  | ⟨1, _⟩ => show win2_0.index t (1 : Fin 2) * 1024 + 1 * (z 1).val = (z 1).val; omega

/-- Inside the array, row `r` of the projection rows' buffer at point `t` is row `3072 t + r` of the matrix. -/
theorem wbuf_apply (c : Dev nD) (t : Fin cfg2.N) (u : S3072x1024.Idx) (h : ∀ a, (u a).val < win2_1.xsize (grid2.coords t) a)
    (e : S50257x1024.Idx) (h0 : (e 0).val = 3072 * t.val + (u 0).val) (h1 : (e 1).val = (u 1).val) :
    wbuf V c t u = V c main_arg12 e := by
  obtain ⟨-, -, b0, b1, -⟩ := point_facts2 t
  unfold wbuf
  rw [fill_inside win2_1 (grid2.coords t) _ _ u h]
  show V c main_arg12 (((cfg2.win 1).blk t).view.emb _) = V c main_arg12 e
  refine congrArg _ (funext fun a => Fin.ext ?_)
  match a with
  | ⟨0, _⟩ => show win2_1.index t (0 : Fin 2) * 3072 + 1 * (u 0).val = (e 0).val; omega
  | ⟨1, _⟩ => show win2_1.index t (1 : Fin 2) * 1024 + 1 * (u 1).val = (e 1).val; omega

/-- Inside the array, column `y` of the bias columns' buffer at point `t` is column `3072 t + y` of the bias row. -/
theorem bbuf_apply (c : Dev nD) (t : Fin cfg2.N) (u : S1x3072.Idx) (h : ∀ a, (u a).val < win2_2.xsize (grid2.coords t) a)
    (e : S1x50257.Idx) (h0 : (e 0).val = (u 0).val) (h1 : (e 1).val = 3072 * t.val + (u 1).val) :
    bbuf V c t u = V c main_v42 e := by
  obtain ⟨-, -, -, -, c0, c1, -⟩ := point_facts2 t
  unfold bbuf
  rw [fill_inside win2_2 (grid2.coords t) _ _ u h]
  show V c main_v42 (((cfg2.win 2).blk t).view.emb _) = V c main_v42 e
  refine congrArg _ (funext fun a => Fin.ext ?_)
  match a with
  | ⟨0, _⟩ => show win2_2.index t (0 : Fin 2) * 1 + 1 * (u 0).val = (e 0).val; omega
  | ⟨1, _⟩ => show win2_2.index t (1 : Fin 2) * 3072 + 1 * (u 1).val = (e 1).val; omega

/-- WHAT POINT `t` WRITES BACK — the columns of the logits' buffer inside the array — is block `t` of the output
    projection of the three operand arrays. -/
theorem flushed2_3_eq (c : Dev nD) (t : Fin cfg2.N) :
    (dat2 (F := Ideal) V c).flushed 3 t
      = ((cfg2.win 3).blk t).view.read (Elt Ideal) (projAt (V c main_v41) (V c main_arg12) (V c main_v42)) := by
  show (cfg2.win 3).cut (grid2.coords t) ((dat2 V c).after 3 t) = _
  rw [after2_3]
  obtain ⟨-, -, -, -, -, -, d0, d1, xw0, xw1, xb0, xb1, xo0, -⟩ := point_facts2 t
  funext j
  have hj0 : (j 0).val < win2_3.xsize (grid2.coords t) (0 : Fin 2) := (j 0).isLt
  have hj1 : (j 1).val < win2_3.xsize (grid2.coords t) (1 : Fin 2) := (j 1).isLt
  have e0 : ((((cfg2.win 3).blk t).view.emb j) 0).val = (j 0).val := by
    show win2_3.index t (0 : Fin 2) * 1 + 1 * (j 0).val = (j 0).val; omega
  have e1 : ((((cfg2.win 3).blk t).view.emb j) 1).val = 3072 * t.val + (j 1).val := by
    show win2_3.index t (1 : Fin 2) * 3072 + 1 * (j 1).val = 3072 * t.val + (j 1).val; omega
  refine (logits_block_apply _ _ _ (win2_3.xinj (grid2.coords t) j)).trans ?_
  unfold projAt
  refine congrArg₂ (· + ·) (Finset.sum_congr rfl fun k _ => congrArg₂ (· * ·) ?_ ?_) ?_
  · rw [iblk2_0_apply]
    refine congrArg _ (funext fun a => Fin.ext ?_)
    match a with
    | ⟨0, _⟩ => exact e0.symm
    | ⟨1, _⟩ => rfl
  · refine wbuf_apply V c t _ (fun a => ?_) _ e1 rfl
    match a with
    | ⟨0, _⟩ => show (j 1).val < win2_1.xsize (grid2.coords t) (0 : Fin 2); omega
    | ⟨1, _⟩ => show k.val < win2_1.xsize (grid2.coords t) (1 : Fin 2); have := k.isLt; omega
  · refine bbuf_apply V c t _ (fun a => ?_) _ e0 e1
    match a with
    | ⟨0, _⟩ => show (j 0).val < win2_2.xsize (grid2.coords t) (0 : Fin 2); omega
    | ⟨1, _⟩ => show (j 1).val < win2_2.xsize (grid2.coords t) (1 : Fin 2); omega

/-- An index of the logits row is in point `t`'s cut block iff each coordinate is in the block's range inside the array. -/
theorem mem_blk2_3 (t : Fin cfg2.N) (i : S1x50257.Idx) :
    i ∈ ((cfg2.win 3).blk t).view.set ↔ ∀ a : Fin 2, win2_3.index t a * S1x3072.size a ≤ (i a).val
      ∧ (i a).val < win2_3.index t a * S1x3072.size a + win2_3.xsize (grid2.coords t) a := by
  show i ∈ ((View.whole main_v43).slice (win2_3.rect t)).set ↔ _
  rw [View.set_slice_whole, Rect.mem_set_unit]
  exact Iff.rfl

/-- The seventeen cut blocks cover the logits row: column `j` is in the block of point `j / 3072`. -/
theorem cover2_3 (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hN : (i 1).val / 3072 < cfg2.N := by have := N_2; show _ < grid2.N; omega
  obtain ⟨t, ht⟩ : ∃ t : Fin cfg2.N, t.val = (i 1).val / 3072 := ⟨⟨_, hN⟩, rfl⟩
  obtain ⟨-, -, -, -, -, -, d0, d1, -, -, -, -, xo0, xo1⟩ := point_facts2 t
  refine ⟨t, flush2_3 t, ?_⟩
  rw [mem_blk2_3]
  intro a
  match a with
  | ⟨0, _⟩ =>
    show win2_3.index t (0 : Fin 2) * 1 ≤ (i 0).val ∧ (i 0).val < win2_3.index t (0 : Fin 2) * 1 + win2_3.xsize (grid2.coords t) (0 : Fin 2)
    omega
  | ⟨1, _⟩ =>
    show win2_3.index t (1 : Fin 2) * 3072 ≤ (i 1).val ∧ (i 1).val < win2_3.index t (1 : Fin 2) * 3072 + win2_3.xsize (grid2.coords t) (1 : Fin 2)
    omega

/-- THE LOGITS ARRAY after the third launch: the reference's output projection of the launch's operand arrays. -/
theorem logits_eq (V : (c : Dev nD) → (b : Ref sig .tc) → Buf (Elt Ideal) ((c : Thread nD τ).loc b)) (c : Dev nD) :
    (dat2 (F := Ideal) V c).arrAt 3 cfg2.N = Cert.ReferenceIdeal.Spec.LOGITS' (F := Ideal) (V c main_v41) (V c main_arg12) (V c main_v42) := by
  rw [Cert.ReferenceIdeal.OutProj.LOGITS'_eq_projAt]
  exact (dat2 (F := Ideal) V c).arrAt_eq_of_cover 3 (projAt (V c main_v41) (V c main_arg12) (V c main_v42))
    (fun t _ => flushed2_3_eq V c t) cover2_3

end Cert.KernelIdeal.Rgn

end
-- ==== Proof.KI.HostVals.lean ====
/-
  What the kernel program's host code computes between its three launches, read off the buffer contents at the eight
  boundaries: the first launch's operands are the embedding row, the hidden state and the two bias rows reshaped to
  one-row matrices; the second's are the first launch's result, the hidden state and two more reshaped bias rows; the
  third's are the gate combine of the second launch's two results with the hidden state, and the reshaped output
  bias; the second result is the gate combine with a leading unit axis. These are the reference's own host operations
  (the specification's stages `E`, `H0`, `H1`, `HID`), so that, given each launch's result as the specification's
  stage of its operands, the program's two results are the specification's composed — with each bias row entering as
  a RESHAPE `[n] → [1, n]` where the reference broadcasts it along the second axis: the same one-row matrix.
-/
import proofs.«425956_j33578054320464_3_alg».proof.Proof.KI.Bound
import proofs.«425956_j33578054320464_3_alg».proof.Proof.Spec
import Idealize.ShloMosaic.Lib.StableHlo.Run
import Idealize.ShloMosaic.Lib.ValueLayout

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.Sem Idealize.ShloMosaic.StableHlo
open Idealize.ShloMosaic.Pipeline (Dat)

variable {F : FTy → Type} [FloatOps F]
variable (m : (ℓ : Loc nD τ sig) → Buf (Elt F) ℓ)

/-! ## The first launch's operands -/

/-- The embedding row. -/
theorem W1_v6 (c : Dev nD) : W1 m c (Proc.devRef .tc main_v6) = Cert.ReferenceIdeal.Spec.E (F := F) (m ((c.tc : Thread nD τ).loc main_arg0)) (m ((c.tc : Thread nD τ).loc main_arg3)) := by
  show StableHlo.after hostOps0 (W0 m c) (Proc.devRef .tc main_v6) = _
  after_results <;> rfl

/-- The hidden state as a one-row matrix. -/
theorem W1_v7 (c : Dev nD) : W1 m c (Proc.devRef .tc main_v7) = Cert.ReferenceIdeal.Spec.H0 (F := F) (m ((c.tc : Thread nD τ).loc main_arg1)) := by
  show StableHlo.after hostOps0 (W0 m c) (Proc.devRef .tc main_v7) = _
  after_results <;> rfl

/-- The attention bias reshaped to a one-row matrix. -/
theorem W1_v8 (c : Dev nD) : W1 m c (Proc.devRef .tc main_v8) = shapeCast S1x512 (m ((c.tc : Thread nD τ).loc main_arg5)) shapeCasts_S512_S1x512 := by
  show StableHlo.after hostOps0 (W0 m c) (Proc.devRef .tc main_v8) = _
  after_results <;> rfl

/-- The combine bias reshaped to a one-row matrix. -/
theorem W1_v9 (c : Dev nD) : W1 m c (Proc.devRef .tc main_v9) = shapeCast S1x1024 (m ((c.tc : Thread nD τ).loc main_arg7)) shapeCasts_S1024_S1x1024 := by
  show StableHlo.after hostOps0 (W0 m c) (Proc.devRef .tc main_v9) = _
  after_results <;> rfl

theorem W1_arg2 (c : Dev nD) : W1 m c (Proc.devRef .tc main_arg2) = (m ((c.tc : Thread nD τ).loc main_arg2)) := by
  show StableHlo.after hostOps0 (W0 m c) (Proc.devRef .tc main_arg2) = _
  after_results <;> rfl

theorem W1_arg4 (c : Dev nD) : W1 m c (Proc.devRef .tc main_arg4) = (m ((c.tc : Thread nD τ).loc main_arg4)) := by
  show StableHlo.after hostOps0 (W0 m c) (Proc.devRef .tc main_arg4) = _
  after_results <;> rfl

theorem W1_arg6 (c : Dev nD) : W1 m c (Proc.devRef .tc main_arg6) = (m ((c.tc : Thread nD τ).loc main_arg6)) := by
  show StableHlo.after hostOps0 (W0 m c) (Proc.devRef .tc main_arg6) = _
  after_results <;> rfl

theorem W1_arg8 (c : Dev nD) : W1 m c (Proc.devRef .tc main_arg8) = (m ((c.tc : Thread nD τ).loc main_arg8)) := by
  show StableHlo.after hostOps0 (W0 m c) (Proc.devRef .tc main_arg8) = _
  after_results <;> rfl

theorem W1_arg9 (c : Dev nD) : W1 m c (Proc.devRef .tc main_arg9) = (m ((c.tc : Thread nD τ).loc main_arg9)) := by
  show StableHlo.after hostOps0 (W0 m c) (Proc.devRef .tc main_arg9) = _
  after_results <;> rfl

theorem W1_arg10 (c : Dev nD) : W1 m c (Proc.devRef .tc main_arg10) = (m ((c.tc : Thread nD τ).loc main_arg10)) := by
  show StableHlo.after hostOps0 (W0 m c) (Proc.devRef .tc main_arg10) = _
  after_results <;> rfl

theorem W1_arg11 (c : Dev nD) : W1 m c (Proc.devRef .tc main_arg11) = (m ((c.tc : Thread nD τ).loc main_arg11)) := by
  show StableHlo.after hostOps0 (W0 m c) (Proc.devRef .tc main_arg11) = _
  after_results <;> rfl

theorem W1_arg12 (c : Dev nD) : W1 m c (Proc.devRef .tc main_arg12) = (m ((c.tc : Thread nD τ).loc main_arg12)) := by
  show StableHlo.after hostOps0 (W0 m c) (Proc.devRef .tc main_arg12) = _
  after_results <;> rfl

theorem W1_arg13 (c : Dev nD) : W1 m c (Proc.devRef .tc main_arg13) = (m ((c.tc : Thread nD τ).loc main_arg13)) := by
  show StableHlo.after hostOps0 (W0 m c) (Proc.devRef .tc main_arg13) = _
  after_results <;> rfl

/-! ## Across the first launch and the second host stretch: the second launch's operands -/

/-- The first launch's result array after it. -/
theorem W2_v10 (c : Dev nD) : W2 m c (Proc.devRef .tc main_v10) = (dat0 (V1 m) c).arrAt 7 cfg0.N := W2_arr m c 7
/-- The hidden state is an operand of the first launch: its array is as entered. -/
theorem W2_v7 (c : Dev nD) : W2 m c (Proc.devRef .tc main_v7) = W1 m c (Proc.devRef .tc main_v7) :=
  (W2_arr m c 1).trans (((dat0 (V1 m) c).arrAt_in 1 rfl _).trans (A_eq0 (V1 m) c 1))
theorem W2_arg8 (c : Dev nD) : W2 m c (Proc.devRef .tc main_arg8) = W1 m c (Proc.devRef .tc main_arg8) := W2_of_ne m c main_arg8 (by decide)
theorem W2_arg9 (c : Dev nD) : W2 m c (Proc.devRef .tc main_arg9) = W1 m c (Proc.devRef .tc main_arg9) := W2_of_ne m c main_arg9 (by decide)
theorem W2_arg10 (c : Dev nD) : W2 m c (Proc.devRef .tc main_arg10) = W1 m c (Proc.devRef .tc main_arg10) := W2_of_ne m c main_arg10 (by decide)
theorem W2_arg11 (c : Dev nD) : W2 m c (Proc.devRef .tc main_arg11) = W1 m c (Proc.devRef .tc main_arg11) := W2_of_ne m c main_arg11 (by decide)
theorem W2_arg12 (c : Dev nD) : W2 m c (Proc.devRef .tc main_arg12) = W1 m c (Proc.devRef .tc main_arg12) := W2_of_ne m c main_arg12 (by decide)
theorem W2_arg13 (c : Dev nD) : W2 m c (Proc.devRef .tc main_arg13) = W1 m c (Proc.devRef .tc main_arg13) := W2_of_ne m c main_arg13 (by decide)

theorem W3_v10 (c : Dev nD) : W3 m c (Proc.devRef .tc main_v10) = W2 m c (Proc.devRef .tc main_v10) := by
  show StableHlo.after hostOps1 (W2 m c) (Proc.devRef .tc main_v10) = _
  after_results <;> rfl

theorem W3_v7 (c : Dev nD) : W3 m c (Proc.devRef .tc main_v7) = W2 m c (Proc.devRef .tc main_v7) := by
  show StableHlo.after hostOps1 (W2 m c) (Proc.devRef .tc main_v7) = _
  after_results <;> rfl

/-- The input-side gate bias reshaped to a one-row matrix. -/
theorem W3_v11 (c : Dev nD) : W3 m c (Proc.devRef .tc main_v11) = shapeCast S1x3072 (W2 m c (Proc.devRef .tc main_arg10)) shapeCasts_S3072_S1x3072 := by
  show StableHlo.after hostOps1 (W2 m c) (Proc.devRef .tc main_v11) = _
  after_results <;> rfl

/-- The hidden-side gate bias reshaped to a one-row matrix. -/
theorem W3_v12 (c : Dev nD) : W3 m c (Proc.devRef .tc main_v12) = shapeCast S1x3072 (W2 m c (Proc.devRef .tc main_arg11)) shapeCasts_S3072_S1x3072 := by
  show StableHlo.after hostOps1 (W2 m c) (Proc.devRef .tc main_v12) = _
  after_results <;> rfl

theorem W3_arg8 (c : Dev nD) : W3 m c (Proc.devRef .tc main_arg8) = W2 m c (Proc.devRef .tc main_arg8) := by
  show StableHlo.after hostOps1 (W2 m c) (Proc.devRef .tc main_arg8) = _
  after_results <;> rfl

theorem W3_arg9 (c : Dev nD) : W3 m c (Proc.devRef .tc main_arg9) = W2 m c (Proc.devRef .tc main_arg9) := by
  show StableHlo.after hostOps1 (W2 m c) (Proc.devRef .tc main_arg9) = _
  after_results <;> rfl

theorem W3_arg12 (c : Dev nD) : W3 m c (Proc.devRef .tc main_arg12) = W2 m c (Proc.devRef .tc main_arg12) := by
  show StableHlo.after hostOps1 (W2 m c) (Proc.devRef .tc main_arg12) = _
  after_results <;> rfl

theorem W3_arg13 (c : Dev nD) : W3 m c (Proc.devRef .tc main_arg13) = W2 m c (Proc.devRef .tc main_arg13) := by
  show StableHlo.after hostOps1 (W2 m c) (Proc.devRef .tc main_arg13) = _
  after_results <;> rfl

/-! ## Across the second launch and the third host stretch: the third launch's operands -/

theorem W4_v13_0 (c : Dev nD) : W4 m c (Proc.devRef .tc main_v13_0) = (dat1 (V3 m) c).arrAt 6 cfg1.N := W4_arr m c 6
theorem W4_v13_1 (c : Dev nD) : W4 m c (Proc.devRef .tc main_v13_1) = (dat1 (V3 m) c).arrAt 7 cfg1.N := W4_arr m c 7
/-- The hidden state is an operand of the second launch: its array is as entered. -/
theorem W4_v7 (c : Dev nD) : W4 m c (Proc.devRef .tc main_v7) = W3 m c (Proc.devRef .tc main_v7) :=
  (W4_arr m c 1).trans (((dat1 (V3 m) c).arrAt_in 1 rfl _).trans (A_eq1 (V3 m) c 1))
theorem W4_arg12 (c : Dev nD) : W4 m c (Proc.devRef .tc main_arg12) = W3 m c (Proc.devRef .tc main_arg12) := W4_of_ne m c main_arg12 (by decide)
theorem W4_arg13 (c : Dev nD) : W4 m c (Proc.devRef .tc main_arg13) = W3 m c (Proc.devRef .tc main_arg13) := W4_of_ne m c main_arg13 (by decide)

set_option maxHeartbeats 8000000 in
/-- The new hidden state: the gate combine of the second launch's two results with the hidden state. -/
theorem W5_v41 (c : Dev nD) : W5 m c (Proc.devRef .tc main_v41) = Cert.ReferenceIdeal.Spec.H1 (F := F) (W4 m c (Proc.devRef .tc main_v13_0)) (W4 m c (Proc.devRef .tc main_v13_1)) (W4 m c (Proc.devRef .tc main_v7)) := by
  show StableHlo.after hostOps2 (W4 m c) (Proc.devRef .tc main_v41) = _
  after_results_simp <;> rfl

/-- The output bias reshaped to a one-row matrix. -/
theorem W5_v42 (c : Dev nD) : W5 m c (Proc.devRef .tc main_v42) = shapeCast S1x50257 (W4 m c (Proc.devRef .tc main_arg13)) shapeCasts_S50257_S1x50257 := by
  show StableHlo.after hostOps2 (W4 m c) (Proc.devRef .tc main_v42) = _
  after_results <;> rfl

theorem W5_arg12 (c : Dev nD) : W5 m c (Proc.devRef .tc main_arg12) = W4 m c (Proc.devRef .tc main_arg12) := by
  show StableHlo.after hostOps2 (W4 m c) (Proc.devRef .tc main_arg12) = _
  after_results <;> rfl

/-! ## Across the third launch and the last host stretch: the results -/

theorem W6_v43 (c : Dev nD) : W6 m c (Proc.devRef .tc main_v43) = (dat2 (V5 m) c).arrAt 3 cfg2.N := W6_arr m c 3
/-- The new hidden state is an operand of the third launch: its array is as entered. -/
theorem W6_v41 (c : Dev nD) : W6 m c (Proc.devRef .tc main_v41) = W5 m c (Proc.devRef .tc main_v41) :=
  (W6_arr m c 0).trans (((dat2 (V5 m) c).arrAt_in 0 rfl _).trans (A_eq2 (V5 m) c 0))

theorem W7_v43 (c : Dev nD) : W7 m c (Proc.devRef .tc main_v43) = W6 m c (Proc.devRef .tc main_v43) := by
  show StableHlo.after hostOps3 (W6 m c) (Proc.devRef .tc main_v43) = _
  after_results <;> rfl

/-- The second result: the new hidden state with a leading unit axis. -/
theorem W7_v44 (c : Dev nD) : W7 m c (Proc.devRef .tc main_v44) = Cert.ReferenceIdeal.Spec.HID (F := F) (W6 m c (Proc.devRef .tc main_v41)) := by
  show StableHlo.after hostOps3 (W6 m c) (Proc.devRef .tc main_v44) = _
  after_results <;> rfl

end Cert.KernelIdeal.Rgn

end
-- ==== Proof.LibRowBias.lean ====
/-
  A general layout fact: a vector reshaped to a one-row matrix is the vector broadcast into that matrix along its
  second axis. (A bias vector enters a kernel as the reshape and a host program as the broadcast; they are one array.)
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A vector `[a]` reshaped to a one-row matrix `[1, a]` is the vector broadcast into `[1, a]` along the second axis:
    both read, at `(u, i)`, the vector at `i`. (`a ≠ 1`: for `a = 1` the broadcast's rule reads a unit axis at 0, which
    is again the vector's one entry, but the case is not needed and is left out.) -/
theorem shapeCast_a_1a_eq_broadcastInDim {a : ℕ} (ha : a ≠ 1) (x : (⟨1, ![a]⟩ : Shape).Idx → α)
    (h : (⟨1, ![a]⟩ : Shape).ShapeCasts ⟨2, ![1, a]⟩) (dims : Fin 1 → Fin 2) (hd : dims 0 = 1)
    (hb : (⟨1, ![a]⟩ : Shape).BroadcastsInDim ⟨2, ![1, a]⟩ dims) :
    shapeCast ⟨2, ![1, a]⟩ x h = broadcastInDim ⟨2, ![1, a]⟩ dims hb x := by
  funext j
  obtain ⟨u, i, rfl⟩ : ∃ (u : Fin 1) (i : Fin a), j = ix2 u i := ⟨j 0, j 1, eq_ix2 j⟩
  rw [shapeCast_a_1a_apply, broadcastInDim_apply dims hb x (ix2 u i) (ix1 i)]
  intro b
  have hb0 : b = 0 := Subsingleton.elim _ _
  subst hb0
  rw [hd]
  rw [if_neg (show ¬ (⟨1, ![a]⟩ : Shape).size 0 = 1 from ha)]
  rfl

end Cert.Lib

end
-- ==== Proof.KI.Results.lean ====
/-
  The kernel program's two results at the ideal instance, as the specification's stages composed over the program's
  arguments: given each launch's result array as the specification's stage of the launch's operand arrays, the first
  result is the output projection of the new hidden state and the second the new hidden state with a leading unit
  axis — the new hidden state being the gate combine of the two gate projections, of the attention-and-combine stage
  and of the hidden state. Each bias row enters as its reshape to a one-row matrix, which is its broadcast along the
  second axis, the form the reference uses.
-/
import proofs.«425956_j33578054320464_3_alg».proof.Proof.KI.HostVals
import proofs.«425956_j33578054320464_3_alg».proof.Proof.LibRowBias
import Idealize.ShloMosaic.PureOps.Ideal

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.Sem Idealize.ShloMosaic.StableHlo
open Idealize.ShloMosaic.Pipeline (Dat)
open Cert.ReferenceIdeal (Spec.E Spec.H0 Spec.GIN' Spec.GI' Spec.H1 Spec.LOGITS' Spec.HID)

/-! ## A bias row reshaped is the bias row broadcast -/

theorem bias512 (b : FVec Ideal S512 .f32) : shapeCast S1x512 b shapeCasts_S512_S1x512
    = broadcastInDim Cert.ReferenceIdeal.S1x512 ![1] Cert.ReferenceIdeal.Gen.bcast_S512_S1x512_1 b :=
  Cert.Lib.shapeCast_a_1a_eq_broadcastInDim (by decide) b _ _ rfl _
theorem bias1024 (b : FVec Ideal S1024 .f32) : shapeCast S1x1024 b shapeCasts_S1024_S1x1024
    = broadcastInDim Cert.ReferenceIdeal.S1x1024 ![1] Cert.ReferenceIdeal.Gen.bcast_S1024_S1x1024_1 b :=
  Cert.Lib.shapeCast_a_1a_eq_broadcastInDim (by decide) b _ _ rfl _
theorem bias3072 (b : FVec Ideal S3072 .f32) : shapeCast S1x3072 b shapeCasts_S3072_S1x3072
    = broadcastInDim Cert.ReferenceIdeal.S1x3072 ![1] Cert.ReferenceIdeal.Gen.bcast_S3072_S1x3072_1 b :=
  Cert.Lib.shapeCast_a_1a_eq_broadcastInDim (by decide) b _ _ rfl _
theorem bias50257 (b : FVec Ideal S50257 .f32) : shapeCast S1x50257 b shapeCasts_S50257_S1x50257
    = broadcastInDim Cert.ReferenceIdeal.S1x50257 ![1] Cert.ReferenceIdeal.Gen.bcast_S50257_S1x50257_1 b :=
  Cert.Lib.shapeCast_a_1a_eq_broadcastInDim (by decide) b _ _ rfl _

/-! ## The results from the launches' values -/

section
variable (m : (ℓ : Loc nD τ sig) → Buf (Elt Ideal) ℓ)

/-- The new hidden state as the kernel program computes it, over its arguments. -/
def hiddenK (c : Dev nD) : FVec Ideal Cert.ReferenceIdeal.S1x1024 .f32 :=
  have e := Spec.E (F := Ideal) (m ((c.tc : Thread nD τ).loc main_arg0)) (m ((c.tc : Thread nD τ).loc main_arg3))
  have h0 := Spec.H0 (F := Ideal) (m ((c.tc : Thread nD τ).loc main_arg1))
  have gin := Spec.GIN' (F := Ideal) e h0 (m ((c.tc : Thread nD τ).loc main_arg2)) (m ((c.tc : Thread nD τ).loc main_arg4)) (shapeCast S1x512 (m ((c.tc : Thread nD τ).loc main_arg5)) shapeCasts_S512_S1x512)
    (m ((c.tc : Thread nD τ).loc main_arg6)) (shapeCast S1x1024 (m ((c.tc : Thread nD τ).loc main_arg7)) shapeCasts_S1024_S1x1024)
  Spec.H1 (F := Ideal) (Spec.GI' (F := Ideal) gin (m ((c.tc : Thread nD τ).loc main_arg8)) (shapeCast S1x3072 (m ((c.tc : Thread nD τ).loc main_arg10)) shapeCasts_S3072_S1x3072))
    (Spec.GI' (F := Ideal) h0 (m ((c.tc : Thread nD τ).loc main_arg9)) (shapeCast S1x3072 (m ((c.tc : Thread nD τ).loc main_arg11)) shapeCasts_S3072_S1x3072)) h0

variable (hgin : ∀ (V : (c : Dev nD) → (b : Ref sig .tc) → Buf (Elt Ideal) ((c : Thread nD τ).loc b)) (c : Dev nD),
    (dat0 (F := Ideal) V c).arrAt 7 cfg0.N = Spec.GIN' (F := Ideal) (V c main_v6) (V c main_v7) (V c main_arg2) (V c main_arg4) (V c main_v8) (V c main_arg6) (V c main_v9))
  (hgi : ∀ (V : (c : Dev nD) → (b : Ref sig .tc) → Buf (Elt Ideal) ((c : Thread nD τ).loc b)) (c : Dev nD),
    (dat1 (F := Ideal) V c).arrAt 6 cfg1.N = Spec.GI' (F := Ideal) (V c main_v10) (V c main_arg8) (V c main_v11))
  (hgh : ∀ (V : (c : Dev nD) → (b : Ref sig .tc) → Buf (Elt Ideal) ((c : Thread nD τ).loc b)) (c : Dev nD),
    (dat1 (F := Ideal) V c).arrAt 7 cfg1.N = Spec.GI' (F := Ideal) (V c main_v7) (V c main_arg9) (V c main_v12))
  (hlog : ∀ (V : (c : Dev nD) → (b : Ref sig .tc) → Buf (Elt Ideal) ((c : Thread nD τ).loc b)) (c : Dev nD),
    (dat2 (F := Ideal) V c).arrAt 3 cfg2.N = Spec.LOGITS' (F := Ideal) (V c main_v41) (V c main_arg12) (V c main_v42))

include hgin hgi hgh in
/-- The third launch's first operand is the new hidden state. -/
theorem W5_v41_eq (c : Dev nD) : W5 m c (Proc.devRef .tc main_v41) = hiddenK m c := by
  rw [W5_v41, W4_v13_0, W4_v13_1, W4_v7, W3_v7, W2_v7, W1_v7, hgi (V3 m) c, hgh (V3 m) c]
  show Spec.H1 (F := Ideal) (Spec.GI' (F := Ideal) (W3 m c (Proc.devRef .tc main_v10)) (W3 m c (Proc.devRef .tc main_arg8)) (W3 m c (Proc.devRef .tc main_v11)))
    (Spec.GI' (F := Ideal) (W3 m c (Proc.devRef .tc main_v7)) (W3 m c (Proc.devRef .tc main_arg9)) (W3 m c (Proc.devRef .tc main_v12))) _ = _
  rw [W3_v10, W2_v10, hgin (V1 m) c, W3_arg8, W2_arg8, W1_arg8, W3_v11, W2_arg10, W1_arg10, W3_v7, W2_v7, W1_v7, W3_arg9, W2_arg9, W1_arg9,
    W3_v12, W2_arg11, W1_arg11]
  show Spec.H1 (F := Ideal) (Spec.GI' (F := Ideal) (Spec.GIN' (F := Ideal) (W1 m c (Proc.devRef .tc main_v6)) (W1 m c (Proc.devRef .tc main_v7)) (W1 m c (Proc.devRef .tc main_arg2))
      (W1 m c (Proc.devRef .tc main_arg4)) (W1 m c (Proc.devRef .tc main_v8)) (W1 m c (Proc.devRef .tc main_arg6)) (W1 m c (Proc.devRef .tc main_v9))) _ _) _ _ = _
  rw [W1_v6, W1_v7, W1_arg2, W1_arg4, W1_v8, W1_arg6, W1_v9]
  rfl

include hgin hgi hgh hlog in
/-- The first result: the output projection of the new hidden state. -/
theorem out0_eq (c : Dev nD) : W7 m c (Proc.devRef .tc main_v43)
    = Spec.LOGITS' (F := Ideal) (hiddenK m c) (m ((c.tc : Thread nD τ).loc main_arg12)) (shapeCast S1x50257 (m ((c.tc : Thread nD τ).loc main_arg13)) shapeCasts_S50257_S1x50257) := by
  rw [W7_v43, W6_v43, hlog (V5 m) c]
  show Spec.LOGITS' (F := Ideal) (W5 m c (Proc.devRef .tc main_v41)) (W5 m c (Proc.devRef .tc main_arg12)) (W5 m c (Proc.devRef .tc main_v42)) = _
  rw [W5_v41_eq m hgin hgi hgh c, W5_arg12, W4_arg12, W3_arg12, W2_arg12, W1_arg12, W5_v42, W4_arg13, W3_arg13, W2_arg13, W1_arg13]

include hgin hgi hgh in
/-- The second result: the new hidden state with a leading unit axis. -/
theorem out1_eq (c : Dev nD) : W7 m c (Proc.devRef .tc main_v44) = Spec.HID (F := Ideal) (hiddenK m c) := by
  rw [W7_v44, W6_v41, W5_v41_eq m hgin hgi hgh c]

end

/-! ## Against the reference's arguments -/

section
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))

include h0 h1 h2 h3 h4 h5 h6 h7 h8 h9 h10 h11 in
/-- From memories that agree on the arguments, the specification's new hidden state over the reference's arguments is
    the kernel program's over its own: the same stages of the same arrays, each bias row's broadcast its reshape. -/
theorem hidden_agree : Cert.ReferenceIdeal.Spec.newHidden (F := Ideal) m' c = hiddenK m c := by
  unfold Cert.ReferenceIdeal.Spec.newHidden hiddenK
  rw [h0, h1, h2, h3, h4, h5, h6, h7, h8, h9, h10, h11, bias512, bias1024, bias3072, bias3072]

include h12 h13 in
/-- Likewise the output projection's matrix and bias row. -/
theorem logits_agree (h1' : FVec Ideal Cert.ReferenceIdeal.S1x1024 .f32) :
    Cert.ReferenceIdeal.Spec.LOGITS' (F := Ideal) h1' (m' ((c.tc : Thread Cert.ReferenceIdeal.nD Cert.ReferenceIdeal.τ).loc Cert.ReferenceIdeal.main_arg12))
        (broadcastInDim Cert.ReferenceIdeal.S1x50257 ![1] Cert.ReferenceIdeal.Gen.bcast_S50257_S1x50257_1 (m' ((c.tc : Thread Cert.ReferenceIdeal.nD Cert.ReferenceIdeal.τ).loc Cert.ReferenceIdeal.main_arg13)))
      = Cert.ReferenceIdeal.Spec.LOGITS' (F := Ideal) h1' (m ((c.tc : Thread nD τ).loc main_arg12)) (shapeCast S1x50257 (m ((c.tc : Thread nD τ).loc main_arg13)) shapeCasts_S50257_S1x50257) := by
  rw [h12, h13, bias50257]

end

end Cert.KernelIdeal.Rgn

end
-- ==== Proof.RefRun.lean ====
/-
  The reference program's run, read stage by stage. Its 84 host operations fall, in order, into six stretches: the
  token's embedding row and the hidden state as a row; the attention weights and the context row; the combine of
  embedding row and context, through the relu; the two gate projections; the gate combine; the output projection and
  the final reshape. Each stretch computes one stage of the specification from buffers the stretches before it wrote
  or from the arguments, and writes no argument. A buffer a stretch does not write keeps its contents through it, so
  the stages compose: every weakly fair execution terminates with the first result at the output projection of the new
  hidden state, the second at the new hidden state with a leading unit axis, and every argument as it was.
-/
import proofs.«425956_j33578054320464_3_alg».proof.Proof.Spec
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Cert.ReferenceIdeal.Spec Idealize.ShloMosaic Idealize.ShloMosaic.TcCoe Idealize.SL.Sem Idealize.ShloMosaic.StableHlo

variable {F : FTy → Type} [FloatOps F]

/-- The context row: the attention logits of embedding row and hidden state against the attention weights, their
    softmax over the 512 encoder positions (the maximum subtracted), and the encoder outputs weighed by it. The first
    half of the specification's attention-and-combine stage. -/
def CTX (e h0 : FVec F S1x1024 .f32) (enc : FVec F S512x1024 .f32) (aW : FVec F S512x2048 .f32) (ab : FVec F S1x512 .f32) : FVec F S1x1024 .f32 :=
  have l : FVec F S1x512 .f32 := addf (Host.dotGeneral dot_S1x2048_S2048x512_S1x512_1_0_0_1_n_n none
      (concatenate S1x2048 1 [⟨S1x1024, e⟩, ⟨S1x1024, h0⟩] concatenates_S1x1024_S1x1024_S1x2048_d1)
      (transpose S2048x512 [1, 0] aW transposes_S512x2048_S2048x512_1_0)) ab
  have p : FVec F S1x512 .f32 := Host.exp (subf l (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf l (constant S_ .f32 0xFF800000#32) reducesTo_S1x512_S1_d1 h_S_)))))
  have w : FVec F S1x512 .f32 := Host.divf p (broadcastInDim S1x512 ![0, 1] bcast_S1x1_S1x512_0_1 (broadcastInDim S1x1 ![0] bcast_S1_S1x1_0
      (Host.reduceAdd p (constant S_ .f32 0x00000000#32) reducesTo_S1x512_S1_d1 h_S_)))
  Host.dotGeneral dot_S1x512_S512x1024_S1x1024_1_0_0_1_n_n none w enc

/-- The combine: embedding row and context against the combine weights, plus the bias row, through the relu. The
    second half of that stage. -/
def COMB (e ctx : FVec F S1x1024 .f32) (cW : FVec F S1024x2048 .f32) (cb : FVec F S1x1024 .f32) : FVec F S1x1024 .f32 :=
  maximumf (addf (Host.dotGeneral dot_S1x2048_S2048x1024_S1x1024_1_0_0_1_n_n none
      (concatenate S1x2048 1 [⟨S1x1024, e⟩, ⟨S1x1024, ctx⟩] concatenates_S1x1024_S1x1024_S1x2048_d1)
      (transpose S2048x1024 [1, 0] cW transposes_S1024x2048_S2048x1024_1_0)) cb)
    (broadcastInDim S1x1024 ![] bcast_S_S1x1024 (constant S_ .f32 0x00000000#32))

/-- The two halves make the stage. -/
theorem GIN'_eq (e h0 : FVec F S1x1024 .f32) (enc : FVec F S512x1024 .f32) (aW : FVec F S512x2048 .f32) (ab : FVec F S1x512 .f32)
    (cW : FVec F S1024x2048 .f32) (cb : FVec F S1x1024 .f32) : GIN' e h0 enc aW ab cW cb = COMB e (CTX e h0 enc aW ab) cW cb := rfl

/-- Operations 1 to 10: the token's embedding row and the hidden state as a row. -/
abbrev opsEmbed : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]

/-- The buffers those operations write. -/
abbrev opsEmbed_W : List (Ref sig .tc) := [main_c, main_v0, main_v1, main_c_0, main_v2, main_v3, main_v4, main_v5, main_v6, main_v7]

/-- Operations 11 to 30: the attention weights over the encoder positions and the context row. -/
abbrev opsContext : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x512 [1, 0] · transposes_S512x2048_S2048x512_1_0) : (⟨S512x2048, .f32⟩ : BufTy).Contents (Elt F) → (⟨S2048x512, .f32⟩ : BufTy).Contents (Elt F)),
    binary main_v8 main_v9 main_v10 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    binary main_v10 main_v11 main_v12 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v12 main_cst main_v13 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v12 main_v17 main_v18 (subf : (⟨S1x512, .f32⟩ : BufTy).Contents (Elt F) → (⟨S1x512, .f32⟩ : BufTy).Contents (Elt F) → (⟨S1x512, .f32⟩ : BufTy).Contents (Elt F)),
    unary main_v18 main_v19 (Host.exp : (⟨S1x512, .f32⟩ : BufTy).Contents (Elt F) → (⟨S1x512, .f32⟩ : BufTy).Contents (Elt F)),
    nullary main_cst_2 (constant S_ .f32 0x00000000#32),
    binary main_v19 main_cst_2 main_v20 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x512 ![0, 1] bcast_S1x1_S1x512_0_1 : (⟨S1x1, .f32⟩ : BufTy).Contents (Elt F) → (⟨S1x512, .f32⟩ : BufTy).Contents (Elt F)),
    binary main_v19 main_v22 main_v23 (Host.divf : (⟨S1x512, .f32⟩ : BufTy).Contents (Elt F) → (⟨S1x512, .f32⟩ : BufTy).Contents (Elt F) → (⟨S1x512, .f32⟩ : BufTy).Contents (Elt F)),
    binary main_v23 main_arg2 main_v24 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

/-- The buffers those operations write. -/
abbrev opsContext_W : List (Ref sig .tc) := [main_v8, main_v9, main_v10, main_v11, main_v12, main_cst, main_v13, main_cst_1, main_v14, main_v15, main_v16, main_v17, main_v18, main_v19, main_cst_2, main_v20, main_v21, main_v22, main_v23, main_v24]

/-- Operations 31 to 38: the combine of embedding row and context, through the relu. -/
abbrev opsCombine : List (HloOp τ sig (Elt F)) :=
  [ binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- The buffers those operations write. -/
abbrev opsCombine_W : List (Ref sig .tc) := [main_v25, main_v26, main_v27, main_v28, main_v29, main_call0_cst, main_call0_v0, main_v30]

/-- Operations 39 to 46: the two gate projections. -/
abbrev opsGates : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]

/-- The buffers those operations write. -/
abbrev opsGates_W : List (Ref sig .tc) := [main_v31, main_v32, main_v33, main_v34, main_v35, main_v36, main_v37, main_v38]

/-- Operations 47 to 79: the gate combine. -/
abbrev opsCell : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- The buffers those operations write. -/
abbrev opsCell_W : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]

/-- Operations 80 to 84: the output projection and the final reshape. -/
abbrev opsProject : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    unary main_v66 main_v71 (broadcastInDim S1x1x1024 ![1, 2] bcast_S1x1024_S1x1x1024_1_2 : (⟨S1x1024, .f32⟩ : BufTy).Contents (Elt F) → (⟨S1x1x1024, .f32⟩ : BufTy).Contents (Elt F)) ]

/-- The buffers those operations write. -/
abbrev opsProject_W : List (Ref sig .tc) := [main_v67, main_v68, main_v69, main_v70, main_v71]

theorem opsEmbed_writes : (opsEmbed : List (HloOp τ sig (Elt F))).Forall fun op => op.writes ⊆ (opsEmbed_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsEmbed_keep (X : Valuation τ sig (Elt F)) (r : Ref sig .tc) (h : r ∉ opsEmbed_W) : after opsEmbed X (Proc.devRef .tc r) = X (Proc.devRef .tc r) :=
  after_of_writes_sub opsEmbed X opsEmbed_writes h

theorem opsContext_writes : (opsContext : List (HloOp τ sig (Elt F))).Forall fun op => op.writes ⊆ (opsContext_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsContext_keep (X : Valuation τ sig (Elt F)) (r : Ref sig .tc) (h : r ∉ opsContext_W) : after opsContext X (Proc.devRef .tc r) = X (Proc.devRef .tc r) :=
  after_of_writes_sub opsContext X opsContext_writes h

theorem opsCombine_writes : (opsCombine : List (HloOp τ sig (Elt F))).Forall fun op => op.writes ⊆ (opsCombine_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsCombine_keep (X : Valuation τ sig (Elt F)) (r : Ref sig .tc) (h : r ∉ opsCombine_W) : after opsCombine X (Proc.devRef .tc r) = X (Proc.devRef .tc r) :=
  after_of_writes_sub opsCombine X opsCombine_writes h

theorem opsGates_writes : (opsGates : List (HloOp τ sig (Elt F))).Forall fun op => op.writes ⊆ (opsGates_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsGates_keep (X : Valuation τ sig (Elt F)) (r : Ref sig .tc) (h : r ∉ opsGates_W) : after opsGates X (Proc.devRef .tc r) = X (Proc.devRef .tc r) :=
  after_of_writes_sub opsGates X opsGates_writes h

theorem opsCell_writes : (opsCell : List (HloOp τ sig (Elt F))).Forall fun op => op.writes ⊆ (opsCell_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsCell_keep (X : Valuation τ sig (Elt F)) (r : Ref sig .tc) (h : r ∉ opsCell_W) : after opsCell X (Proc.devRef .tc r) = X (Proc.devRef .tc r) :=
  after_of_writes_sub opsCell X opsCell_writes h

theorem opsProject_writes : (opsProject : List (HloOp τ sig (Elt F))).Forall fun op => op.writes ⊆ (opsProject_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer those operations do not write keeps its contents through them. -/
theorem opsProject_keep (X : Valuation τ sig (Elt F)) (r : Ref sig .tc) (h : r ∉ opsProject_W) : after opsProject X (Proc.devRef .tc r) = X (Proc.devRef .tc r) :=
  after_of_writes_sub opsProject X opsProject_writes h

variable (X : Valuation τ sig (Elt F))

/-- The first stretch leaves the token's embedding row in its ninth buffer. -/
theorem embed_row : after opsEmbed X (Proc.devRef .tc main_v6) = E (F := F) (X (Proc.devRef .tc main_arg0)) (X (Proc.devRef .tc main_arg3)) := by
  after_results <;> rfl

/-- … and the hidden state as a one-row matrix in its last. -/
theorem embed_hidden : after opsEmbed X (Proc.devRef .tc main_v7) = H0 (F := F) (X (Proc.devRef .tc main_arg1)) := by
  after_results <;> rfl

set_option maxHeartbeats 8000000 in
/-- The second stretch: the context row, of the embedding row, the hidden state, the encoder outputs and the attention
    weights and bias. -/
theorem context_row : after opsContext X (Proc.devRef .tc main_v24) = CTX (F := F) (X (Proc.devRef .tc main_v6)) (X (Proc.devRef .tc main_v7)) (X (Proc.devRef .tc main_arg2)) (X (Proc.devRef .tc main_arg4))
    (broadcastInDim S1x512 ![1] bcast_S512_S1x512_1 (X (Proc.devRef .tc main_arg5))) := by
  after_results_simp <;> rfl

/-- The third stretch: the combine of embedding row and context row, through the relu. -/
theorem combine_relu : after opsCombine X (Proc.devRef .tc main_v30) = COMB (F := F) (X (Proc.devRef .tc main_v6)) (X (Proc.devRef .tc main_v24)) (X (Proc.devRef .tc main_arg6))
    (broadcastInDim S1x1024 ![1] bcast_S1024_S1x1024_1 (X (Proc.devRef .tc main_arg7))) := by
  after_results_simp
  all_goals (try simp only [TRef.ofBuf, TRef.toBuf, cast_eq])
  all_goals rfl

/-- The fourth stretch: the input-side gate row, of the relu's row. -/
theorem gates_in : after opsGates X (Proc.devRef .tc main_v34) = GI' (F := F) (X (Proc.devRef .tc main_v30)) (X (Proc.devRef .tc main_arg8)) (broadcastInDim S1x3072 ![1] bcast_S3072_S1x3072_1 (X (Proc.devRef .tc main_arg10))) := by
  after_results <;> rfl

/-- … and the hidden-side gate row, of the hidden state. -/
theorem gates_hid : after opsGates X (Proc.devRef .tc main_v38) = GI' (F := F) (X (Proc.devRef .tc main_v7)) (X (Proc.devRef .tc main_arg9)) (broadcastInDim S1x3072 ![1] bcast_S3072_S1x3072_1 (X (Proc.devRef .tc main_arg11))) := by
  after_results <;> rfl

set_option maxHeartbeats 8000000 in
/-- The fifth stretch: the gate combine of the two gate rows with the hidden state. -/
theorem cell_hidden : after opsCell X (Proc.devRef .tc main_v66) = H1 (F := F) (X (Proc.devRef .tc main_v34)) (X (Proc.devRef .tc main_v38)) (X (Proc.devRef .tc main_v7)) := by
  after_results_simp <;> rfl

/-- The last stretch: the output projection of the new hidden state. -/
theorem project_logits : after opsProject X (Proc.devRef .tc main_v70) = LOGITS' (F := F) (X (Proc.devRef .tc main_v66)) (X (Proc.devRef .tc main_arg12)) (broadcastInDim S1x50257 ![1] bcast_S50257_S1x50257_1 (X (Proc.devRef .tc main_arg13))) := by
  after_results <;> rfl

/-- … and the new hidden state with a leading unit axis. -/
theorem project_hidden : after opsProject X (Proc.devRef .tc main_v71) = HID (F := F) (X (Proc.devRef .tc main_v66)) := by
  after_results <;> rfl

/-- @main's 84 operations, in order (the relu the printed program calls stands in its call's place). -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x512 [1, 0] · transposes_S512x2048_S2048x512_1_0) : (⟨S512x2048, .f32⟩ : BufTy).Contents (Elt F) → (⟨S2048x512, .f32⟩ : BufTy).Contents (Elt F)),
    binary main_v8 main_v9 main_v10 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    binary main_v10 main_v11 main_v12 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v12 main_cst main_v13 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v12 main_v17 main_v18 (subf : (⟨S1x512, .f32⟩ : BufTy).Contents (Elt F) → (⟨S1x512, .f32⟩ : BufTy).Contents (Elt F) → (⟨S1x512, .f32⟩ : BufTy).Contents (Elt F)),
    unary main_v18 main_v19 (Host.exp : (⟨S1x512, .f32⟩ : BufTy).Contents (Elt F) → (⟨S1x512, .f32⟩ : BufTy).Contents (Elt F)),
    nullary main_cst_2 (constant S_ .f32 0x00000000#32),
    binary main_v19 main_cst_2 main_v20 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x512 ![0, 1] bcast_S1x1_S1x512_0_1 : (⟨S1x1, .f32⟩ : BufTy).Contents (Elt F) → (⟨S1x512, .f32⟩ : BufTy).Contents (Elt F)),
    binary main_v19 main_v22 main_v23 (Host.divf : (⟨S1x512, .f32⟩ : BufTy).Contents (Elt F) → (⟨S1x512, .f32⟩ : BufTy).Contents (Elt F) → (⟨S1x512, .f32⟩ : BufTy).Contents (Elt F)),
    binary main_v23 main_arg2 main_v24 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)),
    unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    unary main_v66 main_v71 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., unary_bufs_sub ..⟩

set_option maxRecDepth 8192 in
/-- The operations are the six stretches, one after the other. -/
theorem ops_eq : (ops : List (HloOp τ sig (Elt F))) = opsEmbed ++ (opsContext ++ (opsCombine ++ (opsGates ++ (opsCell ++ opsProject)))) := rfl

/-- So the buffers after all of them are the buffers after the six stretches in turn. -/
theorem after_ops (X : Valuation τ sig (Elt F)) :
    after ops X = after opsProject (after opsCell (after opsGates (after opsCombine (after opsContext (after opsEmbed X))))) := by
  rw [ops_eq, after_append, after_append, after_append, after_append, after_append]

/-- A buffer none of the six stretches writes keeps its contents to the end. -/
theorem kept (X : Valuation τ sig (Elt F)) (r : Ref sig .tc) (h0 : r ∉ opsEmbed_W) (h1 : r ∉ opsContext_W) (h2 : r ∉ opsCombine_W)
    (h3 : r ∉ opsGates_W) (h4 : r ∉ opsCell_W) (h5 : r ∉ opsProject_W) : after ops X (Proc.devRef .tc r) = X (Proc.devRef .tc r) := by
  rw [after_ops, opsProject_keep _ r h5, opsCell_keep _ r h4, opsGates_keep _ r h3, opsCombine_keep _ r h2, opsContext_keep _ r h1, opsEmbed_keep _ r h0]

variable (m : (ℓ : Loc nD τ sig) → Buf (Elt F) ℓ) (c : Dev nD)

/-- After the first five stretches the new hidden state is in place: each stretch's stage of what the stretches
    before it left, down to the arguments. -/
theorem hidden_in_place : after opsCell (after opsGates (after opsCombine (after opsContext (after opsEmbed (launchContents m c))))) (Proc.devRef .tc main_v66) = newHidden m c := by
  rw [cell_hidden, gates_in, gates_hid, opsGates_keep _ main_v7 (by decide),
    combine_relu, opsCombine_keep _ main_v7 (by decide), opsCombine_keep _ main_arg8 (by decide), opsCombine_keep _ main_arg9 (by decide), opsCombine_keep _ main_arg10 (by decide), opsCombine_keep _ main_arg11 (by decide),
    context_row, opsContext_keep _ main_v6 (by decide), opsContext_keep _ main_v7 (by decide), opsContext_keep _ main_arg6 (by decide), opsContext_keep _ main_arg7 (by decide), opsContext_keep _ main_arg8 (by decide), opsContext_keep _ main_arg9 (by decide), opsContext_keep _ main_arg10 (by decide), opsContext_keep _ main_arg11 (by decide),
    embed_row, embed_hidden, opsEmbed_keep _ main_arg2 (by decide), opsEmbed_keep _ main_arg4 (by decide), opsEmbed_keep _ main_arg5 (by decide), opsEmbed_keep _ main_arg6 (by decide), opsEmbed_keep _ main_arg7 (by decide), opsEmbed_keep _ main_arg8 (by decide), opsEmbed_keep _ main_arg9 (by decide), opsEmbed_keep _ main_arg10 (by decide), opsEmbed_keep _ main_arg11 (by decide)]
  rfl

/-- The first result: the output projection of the new hidden state. -/
theorem result_logits : after ops (launchContents m c) (Proc.devRef .tc main_v70)
    = LOGITS' (newHidden m c) (m ((c.tc : Thread nD τ).loc main_arg12)) (broadcastInDim S1x50257 ![1] bcast_S50257_S1x50257_1 (m ((c.tc : Thread nD τ).loc main_arg13))) := by
  rw [after_ops, project_logits, hidden_in_place,
    opsCell_keep _ main_arg12 (by decide), opsGates_keep _ main_arg12 (by decide), opsCombine_keep _ main_arg12 (by decide), opsContext_keep _ main_arg12 (by decide), opsEmbed_keep _ main_arg12 (by decide),
    opsCell_keep _ main_arg13 (by decide), opsGates_keep _ main_arg13 (by decide), opsCombine_keep _ main_arg13 (by decide), opsContext_keep _ main_arg13 (by decide), opsEmbed_keep _ main_arg13 (by decide)]

/-- The second result: the new hidden state with a leading unit axis. -/
theorem result_hidden : after ops (launchContents m c) (Proc.devRef .tc main_v71) = HID (newHidden m c) := by
  rw [after_ops, project_hidden, hidden_in_place]

/-- On every device, for any float values, from any memory with zero counters: every weakly fair execution of the
    reference program terminates with its first result at the output projection of the new hidden state, its second at
    the new hidden state with a leading unit axis, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = LOGITS' (newHidden m c) (m ((c.tc : Thread nD τ).loc main_arg12)) (broadcastInDim S1x50257 ![1] bcast_S50257_S1x50257_1 (m ((c.tc : Thread nD τ).loc main_arg13)))
      ∧ r.2.mem ((c.tc : Thread nD τ).loc main_v71) = HID (newHidden m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v70).trans (result_logits m c), (h c main_v71).trans (result_hidden m c),
      (h c main_arg0).trans (kept _ main_arg0 (by decide) (by decide) (by decide) (by decide) (by decide) (by decide)),
      (h c main_arg1).trans (kept _ main_arg1 (by decide) (by decide) (by decide) (by decide) (by decide) (by decide)),
      (h c main_arg2).trans (kept _ main_arg2 (by decide) (by decide) (by decide) (by decide) (by decide) (by decide)),
      (h c main_arg3).trans (kept _ main_arg3 (by decide) (by decide) (by decide) (by decide) (by decide) (by decide)),
      (h c main_arg4).trans (kept _ main_arg4 (by decide) (by decide) (by decide) (by decide) (by decide) (by decide)),
      (h c main_arg5).trans (kept _ main_arg5 (by decide) (by decide) (by decide) (by decide) (by decide) (by decide)),
      (h c main_arg6).trans (kept _ main_arg6 (by decide) (by decide) (by decide) (by decide) (by decide) (by decide)),
      (h c main_arg7).trans (kept _ main_arg7 (by decide) (by decide) (by decide) (by decide) (by decide) (by decide)),
      (h c main_arg8).trans (kept _ main_arg8 (by decide) (by decide) (by decide) (by decide) (by decide) (by decide)),
      (h c main_arg9).trans (kept _ main_arg9 (by decide) (by decide) (by decide) (by decide) (by decide) (by decide)),
      (h c main_arg10).trans (kept _ main_arg10 (by decide) (by decide) (by decide) (by decide) (by decide) (by decide)),
      (h c main_arg11).trans (kept _ main_arg11 (by decide) (by decide) (by decide) (by decide) (by decide) (by decide)),
      (h c main_arg12).trans (kept _ main_arg12 (by decide) (by decide) (by decide) (by decide) (by decide) (by decide)),
      (h c main_arg13).trans (kept _ main_arg13 (by decide) (by decide) (by decide) (by decide) (by decide) (by decide))⟩)
    (run_seq scopedRefs_eq scopedSems_eq defs main (fun _ => ops) main_eq (fun _ => ops_sub) m ρ)

end Cert.ReferenceIdeal.RefRun

end
-- ==== Proof.lean ====
/-
  One decoding step of an attention decoder with a GRU cell, computed by three kernel launches with host code around
  them, against the plain array program: the embedding row of the token and the hidden state give attention logits over
  512 encoder positions; their softmax weighs the encoder outputs into a context row; embedding row and context are
  combined and passed through a relu (first launch); the GRU's input-side and hidden-side gate rows are two matrix
  products with bias, computed in two column chunks (second launch); the gates are combined on the host into the new
  hidden state; the logits over the vocabulary are one more matrix product with bias, computed in seventeen column
  chunks of 3072 of which the last holds only 1105 columns of the 50257 (third launch).

  Over the extended reals a change of float format is the identity and a matrix product is a plain sum, so each
  launch's result array is the reference's own stage of the launch's operand arrays: the attention-and-combine stage
  index by index (the two softmaxes subtract the same row maximum and divide by the same row sum), each gate row and
  the logits row as Σ_k v(0,k)·W(j,k) + b(0,j), a kernel's matrix product contracting both operands on their second
  axis and the reference's contracting against the transposed matrix. The host code between the launches is the
  reference's own, operation for operation, and a bias row reshaped to a one-row matrix is that row broadcast along the
  second axis. At the last point of the third launch the staging buffers hold, past the 1105 rows and columns there
  are, words nothing names; column j of the product reads only row j of the matrix and column j of the bias, and only
  the 1105 columns inside the logits row are written back, so those words reach nothing.

  The reference program's own run is read stretch by stretch: each stretch of its host operations computes one stage
  from what the stretches before it left, and none writes an argument.

  The two kernel programs run to the end with their arguments unchanged by the launch theorem for a program of several
  launches: each launch's body runs on whole staging buffers to its payload stored whole. For the word-level program,
  where the model does not say that a column of a product depends on its own row of the right operand alone, the
  third launch's result array is left unnamed: nothing after it reads it. No precondition is used: no step needs an
  entry to be finite.
-/
import proofs.«425956_j33578054320464_3_alg».proof.Defs
import proofs.«425956_j33578054320464_3_alg».proof.Proof.Gen.Kernel
import proofs.«425956_j33578054320464_3_alg».proof.Proof.Gen.KernelIdeal
import proofs.«425956_j33578054320464_3_alg».proof.Proof.Gen.ReferenceIdeal
import proofs.«425956_j33578054320464_3_alg».proof.Proof.Gen.Pre_finite_inputs
import proofs.«425956_j33578054320464_3_alg».proof.Proof.K.Chain
import proofs.«425956_j33578054320464_3_alg».proof.Proof.KI.Claims
import proofs.«425956_j33578054320464_3_alg».proof.Proof.KI.Val0
import proofs.«425956_j33578054320464_3_alg».proof.Proof.KI.Val1
import proofs.«425956_j33578054320464_3_alg».proof.Proof.KI.Val2
import proofs.«425956_j33578054320464_3_alg».proof.Proof.KI.Results
import proofs.«425956_j33578054320464_3_alg».proof.Proof.RefRun
import Idealize.ShloMosaic.Adequacy
import Idealize.ShloMosaic.Init

noncomputable section

namespace Cert.Proof

open Idealize.ShloMosaic Idealize.SL.Sem Idealize.ShloMosaic.TcCoe

/-- The word-level program runs to the end, its arguments unchanged. -/
theorem frame_k : Cert.frame_Kernel := fun m ρ _ => Cert.Kernel.Rgn.frame (F := Bits) m ρ

/-- The reference runs to the end, its arguments unchanged: its run with the two results dropped. -/
theorem frame_r : Cert.frame_ReferenceIdeal := fun m ρ _ =>
  (θ_run Cert.ReferenceIdeal.defs _ _).mono (fun _ h c => (h c).2.2) (Cert.ReferenceIdeal.RefRun.run (F := Ideal) m ρ)

open Cert.KernelIdeal Cert.KernelIdeal.Rgn in
/-- From memories agreeing on the arguments both idealized programs end with the same two results: the output
    projection of the new hidden state, and the new hidden state with a leading unit axis. -/
theorem algebraic : Cert.algebraic_KernelIdeal_ReferenceIdeal := by
  intro m ρ m' ρ' _ hagree
  refine ⟨fun c => W7 m c (Proc.devRef .tc main_v43), fun c => W7 m c (Proc.devRef .tc main_v44), run_results m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · obtain ⟨h0, h1, h2, h3, h4, h5, h6, h7, h8, h9, h10, h11, h12, h13⟩ := hagree c
    show _ = W7 m c (Proc.devRef .tc main_v43)
    rw [out0_eq m gin_eq gi_eq gh_eq logits_eq c,
      hidden_agree m m' c h0 h1 h2 h3 h4 h5 h6 h7 h8 h9 h10 h11, logits_agree m m' c h12 h13]
  · obtain ⟨h0, h1, h2, h3, h4, h5, h6, h7, h8, h9, h10, h11, h12, h13⟩ := hagree c
    show _ = W7 m c (Proc.devRef .tc main_v44)
    rw [out1_eq m gin_eq gi_eq gh_eq c,
      hidden_agree m m' c h0 h1 h2 h3 h4 h5 h6 h7 h8 h9 h10 h11]

theorem claim : Cert.Claim := ⟨Cert.Kernel.Gen.facts, Cert.KernelIdeal.Gen.facts, Cert.ReferenceIdeal.Gen.facts, Cert.Pre_finite_inputs.Gen.facts,
  frame_k, Cert.KernelIdeal.Rgn.frame_ki, frame_r, trivial, algebraic⟩

end Cert.Proof

end
